-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x256 : Shape := ⟨2, ![512, 256]⟩
abbrev S512x1 : Shape := ⟨2, ![512, 1]⟩
abbrev S8192x8192 : Shape := ⟨2, ![8192, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S8192x512 .f32) (main_arg1 : FVec F S512x256 .f32) (main_arg2 : FVec F S512x1 .f32) (main_arg3 : IVec S8192x8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  main_v13
-- ==== Kernel.lean ====
abbrev S8192x512 : Shape := ⟨2, ![8192, 512]⟩
abbrev S512x256 : Shape := ⟨2, ![512, 256]⟩
abbrev S512x1 : Shape := ⟨2, ![512, 1]⟩
abbrev S8192x8192 : Shape := ⟨2, ![8192, 8192]⟩
abbrev S256x1 : Shape := ⟨2, ![256, 1]⟩
abbrev S8192x256 : Shape := ⟨2, ![8192, 256]⟩
abbrev S1024x512 : Shape := ⟨2, ![1024, 512]⟩
abbrev S1024x256 : Shape := ⟨2, ![1024, 256]⟩
abbrev S8192x1 : Shape := ⟨2, ![8192, 1]⟩
abbrev S1x8192 : Shape := ⟨2, ![1, 8192]⟩
abbrev S2048x512 : Shape := ⟨2, ![2048, 512]⟩
abbrev S2048x1 : Shape := ⟨2, ![2048, 1]⟩
abbrev S1x512 : Shape := ⟨2, ![1, 512]⟩
abbrev S2048x256 : Shape := ⟨2, ![2048, 256]⟩

abbrev nBuf : Space → Nat
  | .hbm => 11
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S512x1, .f32⟩
  | .hbm, ⟨3, _⟩ => ⟨S8192x8192, .i32⟩
  | .hbm, ⟨4, _⟩ => ⟨S256x1, .f32⟩
  | .hbm, ⟨5, _⟩ => ⟨S256x1, .f32⟩
  | .hbm, ⟨6, _⟩ => ⟨S8192x256, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x256, .f32⟩
  | .local _ .vmem, ⟨4, _⟩ => ⟨S1024x256, .f32⟩
  | .local _ .vmem, ⟨5, _⟩ => ⟨S2048x512, .i32⟩
  | .local _ .vmem, ⟨6, _⟩ => ⟨S2048x512, .i32⟩
  | .local _ .vmem, ⟨7, _⟩ => ⟨S2048x1, .f32⟩
  | .local _ .vmem, ⟨8, _⟩ => ⟨S2048x1, .f32⟩
  | .local _ .vmem, ⟨9, _⟩ => ⟨S1x512, .f32⟩
  | .local _ .vmem, ⟨10, _⟩ => ⟨S1x512, .f32⟩
  | .local _ .vmem, ⟨11, _⟩ => ⟨S512x256, .f32⟩
  | .local _ .vmem, ⟨12, _⟩ => ⟨S512x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_14 : BitVec 32 := 0#32
  let v27 : BitVec 1 := Scalar.cmpi .ne v26 c0_i32_14
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S512x1_S256x1_0_0 : S512x1.Slices ![0, 0] S256x1
  slices_S512x1_S256x1_256_0 : S512x1.Slices ![256, 0] S256x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  shapeCasts_S8192x1_S1x8192 : S8192x1.ShapeCasts S1x8192
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S512x256_S512x256 : S512x256.ShapeCasts S512x256
  dot_S1024x512_S512x256_S1024x256_1_0_0_1_n_n_wf : DotDims.WF S1024x512 S512x256 S1024x256 [1] [0] [0] [1] [] []
  dot_S8192x256_S256x1_S8192x1_1_0_0_1_n_n_wf : DotDims.WF S8192x256 S256x1 S8192x1 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x8192.size a
  hwx1_0 : ∀ i : grid1.Coords, EltTy.bits .i32 = 32 ∨ (Rect.block (s := S8192x8192) S2048x512.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S8192x1.size a
  hwx1_1 : ∀ i : grid1.Coords, EltTy.bits .f32 = 32 ∨ (Rect.block (s := S8192x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x8192.size a
  hwx1_2 : ∀ i : grid1.Coords, EltTy.bits .f32 = 32 ∨ (Rect.block (s := S1x8192) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S8192x256.size a
  hwx1_3 : ∀ i : grid1.Coords, EltTy.bits .f32 = 32 ∨ (Rect.block (s := S8192x256) S512x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S8192x256.size a
  hwx1_4 : ∀ i : grid1.Coords, EltTy.bits .f32 = 32 ∨ (Rect.block (s := S8192x256) S2048x256.size (cc1_transform_4 i) (hinb1_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S512x256 : Shape := ⟨2, ![512, 256]⟩
abbrev S512x1 : Shape := ⟨2, ![512, 1]⟩
abbrev S8192x8192 : Shape := ⟨2, ![8192, 8192]⟩
abbrev S8192x256 : Shape := ⟨2, ![8192, 256]⟩
abbrev S256x1 : Shape := ⟨2, ![256, 1]⟩
abbrev S8192x1 : Shape := ⟨2, ![8192, 1]⟩
abbrev S1x8192 : Shape := ⟨2, ![1, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S512x1, .f32⟩
  | .hbm, ⟨3, _⟩ => ⟨S8192x8192, .i32⟩
  | .hbm, ⟨4, _⟩ => ⟨S8192x256, .f32⟩
  | .hbm, ⟨5, _⟩ => ⟨S256x1, .f32⟩
  | .hbm, ⟨6, _⟩ => ⟨S256x1, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  slices_S512x1_S256x1_0_0 : S512x1.Slices ![0, 0] S256x1
  slices_S512x1_S256x1_256_0 : S512x1.Slices ![256, 0] S256x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.WordR0Body.lean ====
import proofs.«102622_j57698590654935_1_alg».proof.Proof.Gen.Kernel.Launch
import proofs.«102622_j57698590654935_1_alg».proof.Proof.Gen.Kernel.Skeleton
import proofs.«102622_j57698590654935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` of the first call, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block of the array at every point, whether the block was brought in
    at that point or earlier: where nothing is brought in the block index has not moved, the window is never cut and
    never idle. Stated for any proof data over the region-entry arrays that leaves the input in place. -/
theorem rows_staged_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the weight window, which is brought in once, at the first point, and whose block index is constant. -/
theorem weights_staged_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is its whole buffer -/

/-- the whole 1024×512 block of rows of x -/
abbrev wholeRows : Rect S1024x512 := Rect.unit (s := S1024x512) ![0, 0] S1024x512.size inb_S1024x512_S1024x512_0_0
/-- the whole 512×256 weight matrix -/
abbrev wholeWeights : Rect S512x256 := Rect.unit (s := S512x256) ![0, 0] S512x256.size inb_S512x256_S512x256_0_0
/-- the whole 1024×256 block of rows of the product -/
abbrev wholeProduct : Rect S1024x256 := Rect.unit (s := S1024x256) ![0, 0] S1024x256.size inb_S1024x256_S1024x256_0_0

/-- What the body leaves in the result window's staging buffer, from the two input blocks: one store over the whole
    buffer, of the product of the block of rows of x by the weight matrix. -/
def out0_2 (x0 : Vec F S1024x512 .f32) (x1 : Vec F S512x256 .f32) : Vec F S1024x256 .f32 :=
  View.canon [⟨wholeProduct, k0_pay1 (View.ld x0 wholeRows) (View.ld x1 wholeWeights)⟩]

/-- The one store's rectangle is the whole buffer, so every index of the buffer lies in it. -/
theorem product_store_covers (p0 : Vec F S1024x256 .f32) (y : S1024x256.Idx) :
    ∃ pc ∈ ([⟨wholeProduct, p0⟩] : List (View.Piece (Elt F) S1024x256 .f32)), y ∈ pc.1.set :=
  View.cover_of_tiled [⟨wholeProduct, p0⟩] S1024x256.size (by rfl) y

/-! ## The body's triple -/

set_option maxHeartbeats 1000000 in
/-- The body on whole staging memrefs — the two inputs' at contents `x0`, `x1`, the result's at anything — runs to a
    continuation that holds the inputs' as they were and the result's at `out0_2 x0 x1`: it reads x's block and the
    weights, reads the result buffer (the value is unused), and stores the product over the whole result buffer. -/
theorem project_body_triple (c : Dev nD) (E : Set ℕ) (i : grid0.Coords) (arg1 : Memref sig .tc .vmem S1024x512 .f32) (harg1 : arg1.IsWhole) (arg2 : Memref sig .tc .vmem S512x256 .f32) (harg2 : arg2.IsWhole) (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__h_kernel i arg1 harg1 arg2 harg2 arg3 harg3) K := by
  simp only [cc0__h_kernel_eq_skeleton]; unfold cc0__h_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_store_covers _)

/-! ## The proof data of the first call -/

/-- The proof data of the first call on core `c`: the arrays as the region finds them; after the body at point `t`
    each input's buffer still at its block and the result's at `out0_2` of the two blocks; the invariant keeps the
    rest of the memory untouched; nothing is owed; full shares. -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block at every point. -/
theorem rows_staged (c : Dev nD) (t : Fin cfg0.N) (d) : (dat0 V c).before 0 t d = iblk0 V c 0 t :=
  rows_staged_of V (dat0 V c) (A_eq0 V c 0) (after0_0 V c) t d
theorem weights_staged (c : Dev nD) (t : Fin cfg0.N) (d) : (dat0 V c).before 1 t d = iblk0 V c 1 t :=
  weights_staged_of V (dat0 V c) (A_eq0 V c 1) (after0_1 V c) t d

/-! ## The body obligation, at a generic point -/

/-- What the body is called with at point `t`, the three windows one by one, -/
def projectCallPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def projectCallPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem project_body_at_point (c : Dev nD) (t : Fin cfg0.N) :
    projectCallPre V c t ⊢ wp frame (wpE (defs₀ (F := F)) Variants.none c none) Set.univ (bodyAt0 t) (fun _ => projectCallPost V c t) := by
  unfold projectCallPre projectCallPost bodyAt0
  simp only [rows_staged, weights_staged]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (project_body_triple c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact project_body_at_point V c t

end Cert.Kernel.Frame

end
-- ==== Proof.WordR1Runs.lean ====
import proofs.«102622_j57698590654935_1_alg».proof.Proof.Gen.Kernel.Launch
import proofs.«102622_j57698590654935_1_alg».proof.Proof.Gen.Kernel.Skeleton
import proofs.«102622_j57698590654935_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The aggregation call's two tests on the column-block coordinate

The grid is 4 row blocks by 16 column blocks, point `t = 16·i + j`. The body tests `j = 0` (restart the
accumulator) and `j = 15` (hand the accumulator to the result block). -/

/-- The body's first test, as it is computed from the coordinates: the column-block coordinate is zero. -/
abbrev atColStart (i : grid1.Coords) : Prop :=
  (Scalar.cmpi .ne (Scalar.extui (Scalar.cmpi .eq (BitVec.ofNat 32 (i 1).val) 0#32)) 0#32) = 1#1

/-- Over the 64 points it holds exactly at the first column block of each row block. -/
theorem atColStart_iff : ∀ t : Fin cfg1.N, atColStart (grid1.coords t) ↔ t.val % 16 = 0 :=
  (by decide +kernel : ∀ t : Fin grid1.N, atColStart (grid1.coords t) ↔ t.val % 16 = 0)

/-- The body's second test: the column-block coordinate is the last one. -/
abbrev atColEnd (i : grid1.Coords) : Prop := k1_cond2 i = 1#1

/-- Over the 64 points it holds exactly at the last column block of each row block. -/
theorem atColEnd_iff : ∀ t : Fin cfg1.N, atColEnd (grid1.coords t) ↔ t.val % 16 = 15 :=
  (by decide +kernel : ∀ t : Fin grid1.N, atColEnd (grid1.coords t) ↔ t.val % 16 = 15)

/-! ## Which windows are live, and when the result block is written back -/

/-- The four operand windows (adjacency block, the two score vectors, the feature block) are live at every point. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel

/-- Before the last column block the result window is idle: the body stores nothing into it … -/
theorem idle1_4_of_not_end : ∀ t : Fin cfg1.N, ¬atColEnd (grid1.coords t) → cfg1.idle 4 (grid1.coords t) = true := by
  decide +kernel
/-- … and its block is not written back to the result array there. -/
theorem noFlush1_4_of_not_end : ∀ t : Fin cfg1.N, ¬atColEnd (grid1.coords t) → (cfg1.win 4).flush t = false := by
  decide +kernel
/-- At the last column block the result window is live: the body stores the whole block. -/
theorem live1_4_of_end : ∀ t : Fin cfg1.N, atColEnd (grid1.coords t) → cfg1.idle 4 (grid1.coords t) = false := by
  decide +kernel

/-! ## The memrefs the body is called with at a point -/

/-- The staging memref each window is on at point `t`, with the fact that it is a whole buffer. -/
abbrev adjM (t : Fin cfg1.N) : Memref sig .tc .vmem S2048x512 .i32 := win1_0.stage (cfg1.slots t 0)
abbrev adjM_whole (t : Fin cfg1.N) : (adjM t).IsWhole := hstage1_0 ((cfg1.slots t 0).cast nbuf1_0)
abbrev srcM (t : Fin cfg1.N) : Memref sig .tc .vmem S2048x1 .f32 := win1_1.stage (cfg1.slots t 1)
abbrev srcM_whole (t : Fin cfg1.N) : (srcM t).IsWhole := hstage1_1 ((cfg1.slots t 1).cast nbuf1_1)
abbrev dstM (t : Fin cfg1.N) : Memref sig .tc .vmem S1x512 .f32 := win1_2.stage (cfg1.slots t 2)
abbrev dstM_whole (t : Fin cfg1.N) : (dstM t).IsWhole := hstage1_2 ((cfg1.slots t 2).cast nbuf1_2)
abbrev featM (t : Fin cfg1.N) : Memref sig .tc .vmem S512x256 .f32 := win1_3.stage (cfg1.slots t 3)
abbrev featM_whole (t : Fin cfg1.N) : (featM t).IsWhole := hstage1_3 ((cfg1.slots t 3).cast nbuf1_3)
abbrev resM (t : Fin cfg1.N) : Memref sig .tc .vmem S2048x256 .f32 := win1_4.stage (cfg1.slots t 4)
abbrev resM_whole (t : Fin cfg1.N) : (resM t).IsWhole := hstage1_4 ((cfg1.slots t 4).cast nbuf1_4)

/-- One of the result window's staging buffers as a view: block contents are stated by reading written pieces
    back through it (which buffer is chosen makes no difference to what is read back). -/
abbrev resView : View sig .tc .vmem S2048x256 .f32 := (Memref.whole cc1_stg4_0 : Memref sig .tc .vmem S2048x256 .f32).view

/-- The accumulator buffer as a view, for the same purpose. -/
abbrev accView : View sig .tc .vmem S2048x256 .f32 := (Memref.whole cc1_scratch0 : Memref sig .tc .vmem S2048x256 .f32).view

end Cert.Kernel.Frame

end
-- ==== Proof.WordR1RunA.lean ====
import proofs.«102622_j57698590654935_1_alg».proof.Proof.WordR1Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the first column block of a row block

Both tests decided: the first holds, the second does not. The body overwrites the whole accumulator with zeros,
then reads the two score vectors, the adjacency block, the accumulator (now the zeros) and the feature block, and
overwrites the whole accumulator with the accumulation step's value. The result window is not touched. -/

set_option maxHeartbeats 1000000 in
/-- The list of pieces the body's two stores leave in the accumulator (latest first), together with the triple:
    from the four operand buffers at their contents and the accumulator at ANY contents, the body runs to a
    continuation that receives the four operand buffers unchanged and the accumulator with those pieces written. -/
noncomputable def aggRun_restart (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole)
    (hc0 : atColStart i) (hc1 : ¬atColEnd i) (x0 : Vec F S2048x512 .i32) (x1 : Vec F S2048x1 .f32) (x2 : Vec F S1x512 .f32) (x3 : Vec F S512x256 .f32) :
    { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Frame

end
-- ==== Proof.WordR1RunB.lean ====
import proofs.«102622_j57698590654935_1_alg».proof.Proof.WordR1RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at an interior column block

Neither test holds. The body reads the two score vectors, the adjacency block, the accumulator as the point before
left it and the feature block, and overwrites the whole accumulator with the accumulation step's value. The result
window is not touched. -/

set_option maxHeartbeats 1000000 in
/-- The pieces the body's one store leaves in the accumulator, with the triple: from the four operand buffers at
    their contents and the accumulator at the contents `acc` the point before left, the body runs to a continuation
    that receives the four operand buffers unchanged and the accumulator with those pieces written. -/
noncomputable def aggRun_mid (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole)
    (hc0 : ¬atColStart i) (hc1 : ¬atColEnd i) (x0 : Vec F S2048x512 .i32) (x1 : Vec F S2048x1 .f32) (x2 : Vec F S1x512 .f32) (x3 : Vec F S512x256 .f32) (acc : Vec F S2048x256 .f32) :
    { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1
    obtain rfl := harg4.eq_unread hf2; obtain rfl := harg5.eq_unread hf3
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Frame

end
-- ==== Proof.WordR1RunC.lean ====
import proofs.«102622_j57698590654935_1_alg».proof.Proof.WordR1RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the last column block of a row block

The first test fails, the second holds. The body accumulates as at an interior block, then reads the whole
accumulator back, reads the result window's buffer (the value is discarded) and overwrites that whole buffer with
what it read from the accumulator. -/

set_option maxHeartbeats 1000000 in
/-- The pieces the body leaves in the result window's buffer and in the accumulator, with the triple: from the four
    operand buffers at their contents, the result buffer at ANY contents and the accumulator at the contents `acc`
    the point before left, the body runs to a continuation that receives the four operand buffers unchanged and
    each of the two written buffers with its pieces. -/
noncomputable def aggRun_last (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole)
    (hc0 : ¬atColStart i) (hc1 : atColEnd i) (x0 : Vec F S2048x512 .i32) (x1 : Vec F S2048x1 .f32) (x2 : Vec F S1x512 .f32) (x3 : Vec F S512x256 .f32) (acc : Vec F S2048x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1
    obtain rfl := harg4.eq_unread hf2; obtain rfl := harg5.eq_unread hf3
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Frame

end
-- ==== Proof.WordR1Body.lean ====
import proofs.«102622_j57698590654935_1_alg».proof.Proof.Gen.Kernel.Launch
import proofs.«102622_j57698590654935_1_alg».proof.Proof.Gen.Kernel.Skeleton
import proofs.«102622_j57698590654935_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«102622_j57698590654935_1_alg».proof.Proof.WordR1RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` of the second call, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator the kernel carries between points, as a whole scoped buffer. -/
abbrev scM1_0 : Memref sig .tc .vmem S2048x256 .f32 := Memref.whole cc1_scratch0

/-! ## What each kind of point leaves in the accumulator and in the result buffer

Contents are named by reading a run's written pieces back over arbitrary prior contents; since the pieces cover the
whole 2048×256 block, the prior contents do not show. -/

/-- First column block: the accumulator after the zero fill and one accumulation step. -/
def accAfter_restart (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : atColStart i) (hc1 : ¬atColEnd i) (x0 : Vec F S2048x512 .i32) (x1 : Vec F S2048x1 .f32) (x2 : Vec F S1x512 .f32) (x3 : Vec F S512x256 .f32) : Vec F S2048x256 .f32 :=
  accView.read (Elt F) (accView.writes (Elt F) accView.junk (aggRun_restart c i arg2 harg2 arg3 harg3 arg4 harg4 arg5 harg5 arg6 harg6 arg7 harg7 hc0 hc1 x0 x1 x2 x3).1)

/-- Its pieces cover the block (each of the two stores is the whole block). -/
theorem accCover_restart (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : atColStart i) (hc1 : ¬atColEnd i) (x0 : Vec F S2048x512 .i32) (x1 : Vec F S2048x1 .f32) (x2 : Vec F S1x512 .f32) (x3 : Vec F S512x256 .f32) (y : S2048x256.Idx) :
    ∃ pc ∈ (aggRun_restart c i arg2 harg2 arg3 harg3 arg4 harg4 arg5 harg5 arg6 harg6 arg7 harg7 hc0 hc1 x0 x1 x2 x3).1, y ∈ pc.1.set :=
  View.cover_of_tiledL (aggRun_restart c i arg2 harg2 arg3 harg3 arg4 harg4 arg5 harg5 arg6 harg6 arg7 harg7 hc0 hc1 x0 x1 x2 x3).1 S2048x256.size (by sl_kernel_rfl) y

/-- Interior column block: the accumulator after one accumulation step onto `acc`. -/
def accAfter_mid (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : ¬atColEnd i) (x0 : Vec F S2048x512 .i32) (x1 : Vec F S2048x1 .f32) (x2 : Vec F S1x512 .f32) (x3 : Vec F S512x256 .f32) (acc : Vec F S2048x256 .f32) : Vec F S2048x256 .f32 :=
  accView.read (Elt F) (accView.writes (Elt F) accView.junk (aggRun_mid c i arg2 harg2 arg3 harg3 arg4 harg4 arg5 harg5 arg6 harg6 arg7 harg7 hc0 hc1 x0 x1 x2 x3 acc).1)

/-- Its one piece is the whole block. -/
theorem accCover_mid (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : ¬atColEnd i) (x0 : Vec F S2048x512 .i32) (x1 : Vec F S2048x1 .f32) (x2 : Vec F S1x512 .f32) (x3 : Vec F S512x256 .f32) (acc : Vec F S2048x256 .f32) (y : S2048x256.Idx) :
    ∃ pc ∈ (aggRun_mid c i arg2 harg2 arg3 harg3 arg4 harg4 arg5 harg5 arg6 harg6 arg7 harg7 hc0 hc1 x0 x1 x2 x3 acc).1, y ∈ pc.1.set :=
  View.cover_of_tiledL (aggRun_mid c i arg2 harg2 arg3 harg3 arg4 harg4 arg5 harg5 arg6 harg6 arg7 harg7 hc0 hc1 x0 x1 x2 x3 acc).1 S2048x256.size (by sl_kernel_rfl) y

/-- Last column block: the accumulator after one accumulation step onto `acc`. -/
def accAfter_last (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : atColEnd i) (x0 : Vec F S2048x512 .i32) (x1 : Vec F S2048x1 .f32) (x2 : Vec F S1x512 .f32) (x3 : Vec F S512x256 .f32) (acc : Vec F S2048x256 .f32) : Vec F S2048x256 .f32 :=
  accView.read (Elt F) (accView.writes (Elt F) accView.junk (aggRun_last c i arg2 harg2 arg3 harg3 arg4 harg4 arg5 harg5 arg6 harg6 arg7 harg7 hc0 hc1 x0 x1 x2 x3 acc).2.1)

theorem accCover_last (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : atColEnd i) (x0 : Vec F S2048x512 .i32) (x1 : Vec F S2048x1 .f32) (x2 : Vec F S1x512 .f32) (x3 : Vec F S512x256 .f32) (acc : Vec F S2048x256 .f32) (y : S2048x256.Idx) :
    ∃ pc ∈ (aggRun_last c i arg2 harg2 arg3 harg3 arg4 harg4 arg5 harg5 arg6 harg6 arg7 harg7 hc0 hc1 x0 x1 x2 x3 acc).2.1, y ∈ pc.1.set :=
  View.cover_of_tiledL (aggRun_last c i arg2 harg2 arg3 harg3 arg4 harg4 arg5 harg5 arg6 harg6 arg7 harg7 hc0 hc1 x0 x1 x2 x3 acc).2.1 S2048x256.size (by sl_kernel_rfl) y

/-- Last column block: the result window's buffer after the body's whole-block store into it. -/
def resAfter_last (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : atColEnd i) (x0 : Vec F S2048x512 .i32) (x1 : Vec F S2048x1 .f32) (x2 : Vec F S1x512 .f32) (x3 : Vec F S512x256 .f32) (acc : Vec F S2048x256 .f32) : Vec F S2048x256 .f32 :=
  resView.read (Elt F) (resView.writes (Elt F) resView.junk (aggRun_last c i arg2 harg2 arg3 harg3 arg4 harg4 arg5 harg5 arg6 harg6 arg7 harg7 hc0 hc1 x0 x1 x2 x3 acc).1)

theorem resCover_last (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : atColEnd i) (x0 : Vec F S2048x512 .i32) (x1 : Vec F S2048x1 .f32) (x2 : Vec F S1x512 .f32) (x3 : Vec F S512x256 .f32) (acc : Vec F S2048x256 .f32) (y : S2048x256.Idx) :
    ∃ pc ∈ (aggRun_last c i arg2 harg2 arg3 harg3 arg4 harg4 arg5 harg5 arg6 harg6 arg7 harg7 hc0 hc1 x0 x1 x2 x3 acc).1, y ∈ pc.1.set :=
  View.cover_of_tiledL (aggRun_last c i arg2 harg2 arg3 harg3 arg4 harg4 arg5 harg5 arg6 harg6 arg7 harg7 hc0 hc1 x0 x1 x2 x3 acc).1 S2048x256.size (by sl_kernel_rfl) y

/-- Where the result window is idle nothing is claimed about its buffer; this names the first component there. It is
    never consulted: at those points the block is neither written back nor read by the next point. -/
def resIdle : Vec F S2048x256 .f32 := resView.read (Elt F) resView.junk

/-- A point at the first column block is not at the last, and conversely. -/
theorem not_end_of_start (t : Fin cfg1.N) (h0 : t.val % 16 = 0) : ¬atColEnd (grid1.coords t) :=
  fun h => by have := (atColEnd_iff t).mp h; omega
theorem not_start_of_end (t : Fin cfg1.N) (h1 : t.val % 16 = 15) : ¬atColStart (grid1.coords t) :=
  fun h => by have := (atColStart_iff t).mp h; omega

/-- What the result window's staging buffer (first component) and the carried accumulator (second component) hold after
    the body at position `n`: by the column block `n % 16` — 0 restarts the accumulator, 15 accumulates onto what position
    `n - 1` left and copies the accumulator out, any other accumulates onto what position `n - 1` left. -/
def outsAt1 (c : Dev nD) : (n : ℕ) → n < cfg1.N → Vec F S2048x256 .f32 × Vec F S2048x256 .f32
  | 0, hn => (resIdle, accAfter_restart c (grid1.coords ⟨0, hn⟩) (adjM ⟨0, hn⟩) (adjM_whole ⟨0, hn⟩) (srcM ⟨0, hn⟩) (srcM_whole ⟨0, hn⟩) (dstM ⟨0, hn⟩) (dstM_whole ⟨0, hn⟩) (featM ⟨0, hn⟩) (featM_whole ⟨0, hn⟩) (resM ⟨0, hn⟩) (resM_whole ⟨0, hn⟩) scM1_0 (Memref.isWhole_whole _) ((atColStart_iff ⟨0, hn⟩).mpr (Nat.zero_mod _)) (not_end_of_start ⟨0, hn⟩ (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      (resIdle, accAfter_restart c (grid1.coords ⟨n + 1, hn⟩) (adjM ⟨n + 1, hn⟩) (adjM_whole ⟨n + 1, hn⟩) (srcM ⟨n + 1, hn⟩) (srcM_whole ⟨n + 1, hn⟩) (dstM ⟨n + 1, hn⟩) (dstM_whole ⟨n + 1, hn⟩) (featM ⟨n + 1, hn⟩) (featM_whole ⟨n + 1, hn⟩) (resM ⟨n + 1, hn⟩) (resM_whole ⟨n + 1, hn⟩) scM1_0 (Memref.isWhole_whole _) ((atColStart_iff ⟨n + 1, hn⟩).mpr h0) (not_end_of_start ⟨n + 1, hn⟩ h0) (iblk1 V c 0 ⟨n + 1, hn⟩) (iblk1 V c 1 ⟨n + 1, hn⟩) (iblk1 V c 2 ⟨n + 1, hn⟩) (iblk1 V c 3 ⟨n + 1, hn⟩))
    else if h1 : (n + 1) % 16 = 15 then
      (resAfter_last c (grid1.coords ⟨n + 1, hn⟩) (adjM ⟨n + 1, hn⟩) (adjM_whole ⟨n + 1, hn⟩) (srcM ⟨n + 1, hn⟩) (srcM_whole ⟨n + 1, hn⟩) (dstM ⟨n + 1, hn⟩) (dstM_whole ⟨n + 1, hn⟩) (featM ⟨n + 1, hn⟩) (featM_whole ⟨n + 1, hn⟩) (resM ⟨n + 1, hn⟩) (resM_whole ⟨n + 1, hn⟩) scM1_0 (Memref.isWhole_whole _) (fun h => h0 ((atColStart_iff ⟨n + 1, hn⟩).mp h)) ((atColEnd_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
       accAfter_last c (grid1.coords ⟨n + 1, hn⟩) (adjM ⟨n + 1, hn⟩) (adjM_whole ⟨n + 1, hn⟩) (srcM ⟨n + 1, hn⟩) (srcM_whole ⟨n + 1, hn⟩) (dstM ⟨n + 1, hn⟩) (dstM_whole ⟨n + 1, hn⟩) (featM ⟨n + 1, hn⟩) (featM_whole ⟨n + 1, hn⟩) (resM ⟨n + 1, hn⟩) (resM_whole ⟨n + 1, hn⟩) scM1_0 (Memref.isWhole_whole _) (fun h => h0 ((atColStart_iff ⟨n + 1, hn⟩).mp h)) ((atColEnd_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
    else
      (resIdle, accAfter_mid c (grid1.coords ⟨n + 1, hn⟩) (adjM ⟨n + 1, hn⟩) (adjM_whole ⟨n + 1, hn⟩) (srcM ⟨n + 1, hn⟩) (srcM_whole ⟨n + 1, hn⟩) (dstM ⟨n + 1, hn⟩) (dstM_whole ⟨n + 1, hn⟩) (featM ⟨n + 1, hn⟩) (featM_whole ⟨n + 1, hn⟩) (resM ⟨n + 1, hn⟩) (resM_whole ⟨n + 1, hn⟩) scM1_0 (Memref.isWhole_whole _) (fun h => h0 ((atColStart_iff ⟨n + 1, hn⟩).mp h)) (fun h => h1 ((atColEnd_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a first column block. -/
theorem outsAt1_at_start (c : Dev nD) (t : Fin cfg1.N) (h0 : t.val % 16 = 0) :
    outsAt1 V c t.val t.isLt = (resIdle, accAfter_restart c (grid1.coords t) (adjM t) (adjM_whole t) (srcM t) (srcM_whole t) (dstM t) (dstM_whole t) (featM t) (featM_whole t) (resM t) (resM_whole t) scM1_0 (Memref.isWhole_whole _) ((atColStart_iff t).mpr h0) (not_end_of_start t h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at an interior column block: one step onto what the point before left. -/
theorem outsAt1_at_mid (c : Dev nD) (t : Fin cfg1.N) (h0 : ¬t.val % 16 = 0) (h1 : ¬t.val % 16 = 15) :
    outsAt1 V c t.val t.isLt = (resIdle, accAfter_mid c (grid1.coords t) (adjM t) (adjM_whole t) (srcM t) (srcM_whole t) (dstM t) (dstM_whole t) (featM t) (featM_whole t) (resM t) (resM_whole t) scM1_0 (Memref.isWhole_whole _) (fun h => h0 ((atColStart_iff t).mp h)) (fun h => h1 ((atColEnd_iff t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `outsAt1` at a last column block: one step onto what the point before left, and the copy out. -/
theorem outsAt1_at_end (c : Dev nD) (t : Fin cfg1.N) (h1 : t.val % 16 = 15) :
    outsAt1 V c t.val t.isLt = (resAfter_last c (grid1.coords t) (adjM t) (adjM_whole t) (srcM t) (srcM_whole t) (dstM t) (dstM_whole t) (featM t) (featM_whole t) (resM t) (resM_whole t) scM1_0 (Memref.isWhole_whole _) (not_start_of_end t h1) ((atColEnd_iff t).mpr h1) (iblk1 V c 0 t) (iblk1 V c 1 t) (iblk1 V c 2 t) (iblk1 V c 3 t) (outsAt1 V c (t.val - 1) (Nat.lt_of_le_of_lt (Nat.sub_le _ _) t.isLt)).2,
      accAfter_last c (grid1.coords t) (adjM t) (adjM_whole t) (srcM t) (srcM_whole t) (dstM t) (dstM_whole t) (featM t) (featM_whole t) (resM t) (resM_whole t) scM1_0 (Memref.isWhole_whole _) (not_start_of_end t h1) ((atColEnd_iff t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  have h0 : ¬(n % 16 = 0) := fun h => by (try dsimp only at h1); omega
  cases n with
  | zero => exact absurd (Nat.zero_mod _) h0
  | succ n => exact (dif_neg h0).trans ((dif_pos h1).trans rfl)

/-! ## The region invariant -/

/-- The five scoped buffers of the core that belong to the first call's staging, each at some contents: the second
    call never touches them, and the invariant carries them along beside the accumulator. -/
abbrev otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region invariant before position `n`: the five other scoped buffers, the accumulator — at anything before the
    first point, afterwards at what the point before left in it — and the generator register at some state. -/
def PhiS1 (c : Dev nD) : (n : ℕ) → n ≤ cfg1.N → sProp 𝕄
  | 0, _ => iprop(iprop(otherScoped1 (F := F) c ∗ (∃ d, owns (c : Thread nD τ) scM1_0 fullShare d)) ∗ (∃ r, prngReg c r))
  | n + 1, hn => iprop(iprop(otherScoped1 (F := F) c ∗ owns (c : Thread nD τ) scM1_0 fullShare (outsAt1 V c n hn).2) ∗ (∃ r, prngReg c r))

theorem PhiS1_zero (c : Dev nD) (n : ℕ) (h : n ≤ cfg1.N) (hz : n = 0) :
    PhiS1 V c n h = iprop(iprop(otherScoped1 (F := F) c ∗ (∃ d, owns (c : Thread nD τ) scM1_0 fullShare d)) ∗ (∃ r, prngReg c r)) := by
  subst hz; rfl

theorem PhiS1_succ (c : Dev nD) (n : ℕ) (hn : n < cfg1.N) :
    PhiS1 V c (n + 1) hn = iprop(iprop(otherScoped1 (F := F) c ∗ owns (c : Thread nD τ) scM1_0 fullShare (outsAt1 V c n hn).2) ∗ (∃ r, prngReg c r)) := rfl

theorem PhiS1_pos (c : Dev nD) (n : ℕ) (h : n ≤ cfg1.N) (hz : n ≠ 0) :
    PhiS1 V c n h = iprop(iprop(otherScoped1 (F := F) c ∗ owns (c : Thread nD τ) scM1_0 fullShare (outsAt1 V c (n - 1) (by omega)).2) ∗ (∃ r, prngReg c r)) := by
  cases n with
  | zero => exact absurd rfl hz
  | succ n => rfl

/-- What the launch hands the region, regrouped: the five other scoped buffers, the accumulator at some contents, the
    generator register. -/
theorem PhiA1_open (c : Dev nD) :
    (Pipeline.ΦA spec1 c : sProp 𝕄) ⊢ iprop(iprop(otherScoped1 (F := F) c ∗ (∃ d, owns (c : Thread nD τ) scM1_0 fullShare d)) ∗ (∃ r, prngReg c r)) := by
  unfold Pipeline.ΦA; rw [scopedRest1_eq]; simp only [scM1_0, owns_whole]
  iintro ⟨⟨Ha, Hb, Hc, Hd, He, HS⟩, Hg⟩
  isplitl [Ha Hb Hc Hd He HS]
  · isplitl [Ha Hb Hc Hd He]
    · isplitl [Ha]; · iexact Ha
      isplitl [Hb]; · iexact Hb
      isplitl [Hc]; · iexact Hc
      isplitl [Hd]; · iexact Hd
      iexact He
    iexact HS
  iexact Hg

/-- And back. -/
theorem PhiA1_close (c : Dev nD) :
    iprop(iprop(otherScoped1 (F := F) c ∗ (∃ d, owns (c : Thread nD τ) scM1_0 fullShare d)) ∗ (∃ r, prngReg c r)) ⊢ (Pipeline.ΦA spec1 c : sProp 𝕄) := by
  unfold Pipeline.ΦA; rw [scopedRest1_eq]; simp only [scM1_0, owns_whole]
  iintro ⟨⟨⟨Ha, Hb, Hc, Hd, He⟩, HS⟩, Hg⟩
  isplitl [Ha Hb Hc Hd He HS]
  · isplitl [Ha]; · iexact Ha
    isplitl [Hb]; · iexact Hb
    isplitl [Hc]; · iexact Hc
    isplitl [Hd]; · iexact Hd
    isplitl [He]; · iexact He
    iexact HS
  iexact Hg

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each operand window's current staging buffer holds its block at every point, whether or not the point fetched
    it: an operand that is not fetched has the block index of the point before, and the body leaves operand buffers
    as it finds them. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation -/

/-- What the body is called with at point `t`, the five windows written out, -/
def bodyPre1 (c : Dev nD) (t : Fin cfg1.N) : sProp 𝕄 :=
  iprop((dat1 V c).Φ t.castSucc ∗ (dat1 V c).owesAt () t.castSucc
    ∗ (∃ d, owns (c : Thread nD τ) (adjM t) fullShare ((dat1 V c).before 0 t d))
    ∗ (∃ d, owns (c : Thread nD τ) (srcM t) fullShare ((dat1 V c).before 1 t d))
    ∗ (∃ d, owns (c : Thread nD τ) (dstM t) fullShare ((dat1 V c).before 2 t d))
    ∗ (∃ d, owns (c : Thread nD τ) (featM t) fullShare ((dat1 V c).before 3 t d))
    ∗ (∃ d, owns (c : Thread nD τ) (resM t) fullShare ((dat1 V c).before 4 t d)))

/-- and what it must return. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point. The operand buffers hold their blocks; the column block decides which of the three runs
    applies; the invariant supplies the accumulator (at anything at the very first point, else at what the point before
    left) and takes it back at this point's contents, the written pieces covering the block; the five other scoped
    buffers, the generator register and what the core owes pass through untouched; where the result window is idle its
    buffer is returned as found, at the last column block it is returned at the pieces written, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (adjM t) fullShare ((dat1 V c).after 0 t) from by
    unfold Dat.leavesExact; rw [live1_0 t], after1_0]
  rw [show (dat1 V c).leavesExact 1 t = owns (c : Thread nD τ) (srcM t) fullShare ((dat1 V c).after 1 t) from by
    unfold Dat.leavesExact; rw [live1_1 t], after1_1]
  rw [show (dat1 V c).leavesExact 2 t = owns (c : Thread nD τ) (dstM t) fullShare ((dat1 V c).after 2 t) from by
    unfold Dat.leavesExact; rw [live1_2 t], after1_2]
  rw [show (dat1 V c).leavesExact 3 t = owns (c : Thread nD τ) (featM t) fullShare ((dat1 V c).after 3 t) from by
    unfold Dat.leavesExact; rw [live1_3 t], after1_3]
  have hN : t.val < 64 := lt_of_lt_of_eq t.isLt (show cfg1.N = 64 from N_1)
  by_cases h0 : t.val % 16 = 0
  · have hc0 : atColStart (grid1.coords t) := (atColStart_iff t).mpr h0
    have hc1 : ¬atColEnd (grid1.coords t) := not_end_of_start t h0
    rw [Dat.leavesExact_idle (dat1 V c) 4 t (idle1_4_of_not_end t hc1) (noFlush1_4_of_not_end t hc1)]
    rw [outsAt1_at_start V c t h0]
    unfold accAfter_restart; (try dsimp only)
    by_cases hz : t.val = 0
    · rw [PhiS1_castSucc V c t, PhiS1_zero V c _ _ hz]
      iintro ⟨⟨⟨Hsc, HS⟩, Hg⟩, Ho, ⟨%d0, H0⟩, ⟨%d1, H1⟩, ⟨%d2, H2⟩, ⟨%d3, H3⟩, H4⟩
      iapply ((aggRun_restart c (grid1.coords t) _ _ _ _ _ _ _ _ _ _ _ _ hc0 hc1 (iblk1 V c 0 t) (iblk1 V c 1 t) (iblk1 V c 2 t) (iblk1 V c 3 t)).2 Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hsc HS Hg]
      · isplitl [Hsc HS]
        · isplitl [Hsc]; · iexact Hsc
          unfold owns; iexists _; isplitr
          swap; · iexact HS
          ipureintro; exact View.read_writes_of_cover _ _ _ _ _ (accCover_restart c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexact H4
    · rw [PhiS1_castSucc V c t, PhiS1_pos V c _ _ hz]
      iintro ⟨⟨⟨Hsc, HS⟩, Hg⟩, Ho, ⟨%d0, H0⟩, ⟨%d1, H1⟩, ⟨%d2, H2⟩, ⟨%d3, H3⟩, H4⟩
      iapply ((aggRun_restart c (grid1.coords t) _ _ _ _ _ _ _ _ _ _ _ _ hc0 hc1 (iblk1 V c 0 t) (iblk1 V c 1 t) (iblk1 V c 2 t) (iblk1 V c 3 t)).2 Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Hsc HS Hg]
      · isplitl [Hsc HS]
        · isplitl [Hsc]; · iexact Hsc
          unfold owns; iexists _; isplitr
          swap; · iexact HS
          ipureintro; exact View.read_writes_of_cover _ _ _ _ _ (accCover_restart c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexact H4
  · have hc0 : ¬atColStart (grid1.coords t) := fun h => h0 ((atColStart_iff t).mp h)
    have hz : t.val ≠ 0 := fun e => h0 (by rw [e])
    by_cases h1 : t.val % 16 = 15
    · have hc1 : atColEnd (grid1.coords t) := (atColEnd_iff t).mpr h1
      rw [show (dat1 V c).leavesExact 4 t = owns (c : Thread nD τ) (resM t) fullShare ((dat1 V c).after 4 t) from by
        unfold Dat.leavesExact; rw [live1_4_of_end t hc1], after1_4]
      rw [outsAt1_at_end V c t h1]
      unfold resAfter_last accAfter_last; (try dsimp only)
      rw [PhiS1_castSucc V c t, PhiS1_pos V c _ _ hz]
      iintro ⟨⟨⟨Hsc, HS⟩, Hg⟩, Ho, ⟨%d0, H0⟩, ⟨%d1, H1⟩, ⟨%d2, H2⟩, ⟨%d3, H3⟩, ⟨%d4, H4⟩⟩
      iapply ((aggRun_last c (grid1.coords t) _ _ _ _ _ _ _ _ _ _ _ _ hc0 hc1 (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [Hsc HS Hg]
      · isplitl [Hsc HS]
        · isplitl [Hsc]; · iexact Hsc
          unfold owns; iexists _; isplitr
          swap; · iexact HS
          ipureintro; exact View.read_writes_of_cover _ _ _ _ _ (accCover_last c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (resCover_last c _ _ _ _ _ _ _ _ _ _ _ _ _ _ _ _ _ _ _ _)
    · have hc1 : ¬atColEnd (grid1.coords t) := fun h => h1 ((atColEnd_iff t).mp h)
      rw [Dat.leavesExact_idle (dat1 V c) 4 t (idle1_4_of_not_end t hc1) (noFlush1_4_of_not_end t hc1)]
      rw [outsAt1_at_mid V c t h0 h1]
      unfold accAfter_mid; (try dsimp only)
      rw [PhiS1_castSucc V c t, PhiS1_pos V c _ _ hz]
      iintro ⟨⟨⟨Hsc, HS⟩, Hg⟩, Ho, ⟨%d0, H0⟩, ⟨%d1, H1⟩, ⟨%d2, H2⟩, ⟨%d3, H3⟩, H4⟩
      iapply ((aggRun_mid c (grid1.coords t) _ _ _ _ _ _ _ _ _ _ _ _ hc0 hc1 (iblk1 V c 0 t) (iblk1 V c 1 t) (iblk1 V c 2 t) (iblk1 V c 3 t) _).2 Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hsc HS Hg]
      · isplitl [Hsc HS]
        · isplitl [Hsc]; · iexact Hsc
          unfold owns; iexists _; isplitr
          swap; · iexact HS
          ipureintro; exact View.read_writes_of_cover _ _ _ _ _ (accCover_mid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexact H4

/-- The body obligation of the second call, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point; after the last point the invariant gives it back. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_open c
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  refine BIBase.Entails.trans ?_ (PhiA1_close c)
  iintro ⟨⟨Hsc, HS⟩, Hg⟩
  isplitl [Hsc HS]
  · isplitl [Hsc]; · iexact Hsc
    iexists _; iexact HS
  iexact Hg

/-! ## The accumulator's recurrence, for the value proof

Each run's pieces, read back, are the accumulation step applied to the blocks the run loaded: every load is of a whole
buffer at offset zero, so it returns the buffer's contents, and every store is of a whole block, so the latest store
is what is read back. -/

/-- All the body's rectangles start at the origin. -/
theorem zeroOff : (![0, 0] : Fin 2 → Nat) = fun _ => 0 := funext fun a => by fin_cases a <;> rfl

/-- Interior column block: one step from `acc`. -/
theorem accAfter_mid_eq (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : ¬atColEnd i) (x0 : Vec F S2048x512 .i32) (x1 : Vec F S2048x1 .f32) (x2 : Vec F S1x512 .f32) (x3 : Vec F S512x256 .f32) (acc : Vec F S2048x256 .f32) :
    accAfter_mid c i arg2 harg2 arg3 harg3 arg4 harg4 arg5 harg5 arg6 harg6 arg7 harg7 hc0 hc1 x0 x1 x2 x3 acc = k1_pay2 x1 x2 x0 acc x3 := by
  unfold accAfter_mid
  rw [View.read_writes_eq_canon _ _ _ (accCover_mid c i arg2 harg2 arg3 harg3 arg4 harg4 arg5 harg5 arg6 harg6 arg7 harg7 hc0 hc1 x0 x1 x2 x3 acc)]
  unfold aggRun_mid
  dsimp only
  try sl_unfold_words
  rw [View.canon_unit_zero (S := S2048x256) zeroOff]
  simp only [View.readAt_eq_ld, harg2.read_unread, harg3.read_unread, harg4.read_unread, harg5.read_unread, harg7.read_unread,
    View.ld_unit_zero (S := S2048x1) zeroOff, View.ld_unit_zero (S := S1x512) zeroOff, View.ld_unit_zero (S := S2048x512) zeroOff,
    View.ld_unit_zero (S := S2048x256) zeroOff, View.ld_unit_zero (S := S512x256) zeroOff]

/-- First column block: the later of the two stores is what remains, and the accumulator it loaded is the zero fill
    the earlier store had just left. -/
theorem accAfter_restart_eq (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : atColStart i) (hc1 : ¬atColEnd i) (x0 : Vec F S2048x512 .i32) (x1 : Vec F S2048x1 .f32) (x2 : Vec F S1x512 .f32) (x3 : Vec F S512x256 .f32) :
    accAfter_restart c i arg2 harg2 arg3 harg3 arg4 harg4 arg5 harg5 arg6 harg6 arg7 harg7 hc0 hc1 x0 x1 x2 x3 = k1_pay2 x1 x2 x0 (k1_pay1 (F := F)) x3 := by
  unfold accAfter_restart
  rw [View.read_writes_eq_canon _ _ _ (accCover_restart c i arg2 harg2 arg3 harg3 arg4 harg4 arg5 harg5 arg6 harg6 arg7 harg7 hc0 hc1 x0 x1 x2 x3)]
  unfold aggRun_restart
  dsimp only
  try sl_unfold_words
  rw [View.canon_cons_unit_zero (S := S2048x256) zeroOff, View.readCov_unit_zero (S := S2048x256) _ zeroOff]
  simp only [View.readAt_eq_ld, harg2.read_unread, harg3.read_unread, harg4.read_unread, harg5.read_unread, harg7.read_unread,
    View.ld_unit_zero (S := S2048x1) zeroOff, View.ld_unit_zero (S := S1x512) zeroOff, View.ld_unit_zero (S := S2048x512) zeroOff,
    View.ld_unit_zero (S := S2048x256) zeroOff, View.ld_unit_zero (S := S512x256) zeroOff]

/-- Last column block, the accumulator: one step from `acc`. -/
theorem accAfter_last_eq (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : atColEnd i) (x0 : Vec F S2048x512 .i32) (x1 : Vec F S2048x1 .f32) (x2 : Vec F S1x512 .f32) (x3 : Vec F S512x256 .f32) (acc : Vec F S2048x256 .f32) :
    accAfter_last c i arg2 harg2 arg3 harg3 arg4 harg4 arg5 harg5 arg6 harg6 arg7 harg7 hc0 hc1 x0 x1 x2 x3 acc = k1_pay2 x1 x2 x0 acc x3 := by
  unfold accAfter_last
  rw [View.read_writes_eq_canon _ _ _ (accCover_last c i arg2 harg2 arg3 harg3 arg4 harg4 arg5 harg5 arg6 harg6 arg7 harg7 hc0 hc1 x0 x1 x2 x3 acc)]
  unfold aggRun_last
  dsimp only
  try sl_unfold_words
  rw [View.canon_unit_zero (S := S2048x256) zeroOff]
  simp only [View.readAt_eq_ld, harg2.read_unread, harg3.read_unread, harg4.read_unread, harg5.read_unread, harg7.read_unread,
    View.ld_unit_zero (S := S2048x1) zeroOff, View.ld_unit_zero (S := S1x512) zeroOff, View.ld_unit_zero (S := S2048x512) zeroOff,
    View.ld_unit_zero (S := S2048x256) zeroOff, View.ld_unit_zero (S := S512x256) zeroOff]

/-- Last column block, the result buffer: the accumulator as just stored, read back and copied. -/
theorem resAfter_last_eq (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : atColEnd i) (x0 : Vec F S2048x512 .i32) (x1 : Vec F S2048x1 .f32) (x2 : Vec F S1x512 .f32) (x3 : Vec F S512x256 .f32) (acc : Vec F S2048x256 .f32) :
    resAfter_last c i arg2 harg2 arg3 harg3 arg4 harg4 arg5 harg5 arg6 harg6 arg7 harg7 hc0 hc1 x0 x1 x2 x3 acc = k1_pay2 x1 x2 x0 acc x3 := by
  unfold resAfter_last
  rw [View.read_writes_eq_canon _ _ _ (resCover_last c i arg2 harg2 arg3 harg3 arg4 harg4 arg5 harg5 arg6 harg6 arg7 harg7 hc0 hc1 x0 x1 x2 x3 acc)]
  unfold aggRun_last
  dsimp only
  try sl_unfold_words
  rw [View.canon_unit_zero (S := S2048x256) zeroOff, View.readCov_unit_zero (S := S2048x256) _ zeroOff]
  simp only [View.readAt_eq_ld, harg2.read_unread, harg3.read_unread, harg4.read_unread, harg5.read_unread, harg7.read_unread,
    View.ld_unit_zero (S := S2048x1) zeroOff, View.ld_unit_zero (S := S1x512) zeroOff, View.ld_unit_zero (S := S2048x512) zeroOff,
    View.ld_unit_zero (S := S2048x256) zeroOff, View.ld_unit_zero (S := S512x256) zeroOff]

/-- At the first column block of a row block the accumulator restarts from zeros. -/
theorem scratch_first (c : Dev nD) (t : Fin cfg1.N) (h0 : t.val % 16 = 0) :
    (outsAt1 V c t.val t.isLt).2 = k1_pay2 (iblk1 V c 1 t) (iblk1 V c 2 t) (iblk1 V c 0 t) (k1_pay1 (F := F)) (iblk1 V c 3 t) := by
  rw [outsAt1_at_start V c t h0]; dsimp only
  exact accAfter_restart_eq c (grid1.coords t) (adjM t) (adjM_whole t) (srcM t) (srcM_whole t) (dstM t) (dstM_whole t) (featM t) (featM_whole t) (resM t) (resM_whole t) scM1_0 (Memref.isWhole_whole _) ((atColStart_iff t).mpr h0) (not_end_of_start t h0) (iblk1 V c 0 t) (iblk1 V c 1 t) (iblk1 V c 2 t) (iblk1 V c 3 t)

/-- At every other column block it continues from what the point before left. -/
theorem scratch_next (c : Dev nD) (t : Fin cfg1.N) (h0 : ¬t.val % 16 = 0) :
    (outsAt1 V c t.val t.isLt).2 = k1_pay2 (iblk1 V c 1 t) (iblk1 V c 2 t) (iblk1 V c 0 t) (outsAt1 V c (t.val - 1) (Nat.lt_of_le_of_lt (Nat.sub_le _ _) t.isLt)).2 (iblk1 V c 3 t) := by
  by_cases h1 : t.val % 16 = 15
  · rw [outsAt1_at_end V c t h1]; dsimp only
    exact accAfter_last_eq c (grid1.coords t) (adjM t) (adjM_whole t) (srcM t) (srcM_whole t) (dstM t) (dstM_whole t) (featM t) (featM_whole t) (resM t) (resM_whole t) scM1_0 (Memref.isWhole_whole _) (not_start_of_end t h1) ((atColEnd_iff t).mpr h1) (iblk1 V c 0 t) (iblk1 V c 1 t) (iblk1 V c 2 t) (iblk1 V c 3 t) (outsAt1 V c (t.val - 1) (Nat.lt_of_le_of_lt (Nat.sub_le _ _) t.isLt)).2
  · rw [outsAt1_at_mid V c t h0 h1]; dsimp only
    exact accAfter_mid_eq c (grid1.coords t) (adjM t) (adjM_whole t) (srcM t) (srcM_whole t) (dstM t) (dstM_whole t) (featM t) (featM_whole t) (resM t) (resM_whole t) scM1_0 (Memref.isWhole_whole _) (fun h => h0 ((atColStart_iff t).mp h)) (fun h => h1 ((atColEnd_iff t).mp h)) (iblk1 V c 0 t) (iblk1 V c 1 t) (iblk1 V c 2 t) (iblk1 V c 3 t) (outsAt1 V c (t.val - 1) (Nat.lt_of_le_of_lt (Nat.sub_le _ _) t.isLt)).2

/-- At the last column block the result window's staging buffer receives the accumulator. -/
theorem out_last (c : Dev nD) (t : Fin cfg1.N) (h1 : t.val % 16 = 15) :
    (outsAt1 V c t.val t.isLt).1 = (outsAt1 V c t.val t.isLt).2 := by
  rw [outsAt1_at_end V c t h1]; dsimp only
  exact (resAfter_last_eq c (grid1.coords t) (adjM t) (adjM_whole t) (srcM t) (srcM_whole t) (dstM t) (dstM_whole t) (featM t) (featM_whole t) (resM t) (resM_whole t) scM1_0 (Memref.isWhole_whole _) (not_start_of_end t h1) ((atColEnd_iff t).mpr h1) (iblk1 V c 0 t) (iblk1 V c 1 t) (iblk1 V c 2 t) (iblk1 V c 3 t) (outsAt1 V c (t.val - 1) (Nat.lt_of_le_of_lt (Nat.sub_le _ _) t.isLt)).2).trans
    (accAfter_last_eq c (grid1.coords t) (adjM t) (adjM_whole t) (srcM t) (srcM_whole t) (dstM t) (dstM_whole t) (featM t) (featM_whole t) (resM t) (resM_whole t) scM1_0 (Memref.isWhole_whole _) (not_start_of_end t h1) ((atColEnd_iff t).mpr h1) (iblk1 V c 0 t) (iblk1 V c 1 t) (iblk1 V c 2 t) (iblk1 V c 3 t) (outsAt1 V c (t.val - 1) (Nat.lt_of_le_of_lt (Nat.sub_le _ _) t.isLt)).2).symm

end Cert.Kernel.Frame

end
-- ==== Proof.WordRun.lean ====
/-
  The whole run of the program at any float instance: @main is two stretches of host operations and two kernel calls,

      slices of a  →  call 0 (h = x·W, row block by row block)  →  the two scores h·a₁, h·a₂ and the reshape
                   →  call 1 (the masked logits times h, accumulated over column blocks)

  and this module follows the memory through them. The contents of core c's buffers are named at each of the five
  boundaries (`mem0` at launch … `mem4` at the return): a host stretch applies its operations to the contents before
  it; a kernel call leaves each of its windows' arrays at what its write-backs make of it (the inputs as they were)
  and every other buffer alone. Each call is entered with the buffers at the boundary's contents, its proof data
  taken at exactly those contents, and left at the next boundary's; beside the buffers ride the generator register and
  the core's (empty) debts. The run theorem reads, off the last boundary, the four arguments — no host operation and no
  call writes one, so each is still what was launched — and the result array, which is what call 1's write-backs leave.
-/
import proofs.«102622_j57698590654935_1_alg».proof.Proof.WordR0Body
import proofs.«102622_j57698590654935_1_alg».proof.Proof.WordR1Body
import proofs.«102622_j57698590654935_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- Core `c`'s buffers at launch. -/
abbrev mem0 : Dev nD → Valuation τ sig (Elt F) := fun c b => m (c, b)
/-- After the two slices of a (call 0's entry). -/
abbrev mem1 : Dev nD → Valuation τ sig (Elt F) := fun c => StableHlo.after hostOps0 (mem0 m c)
/-- The same read at the TensorCore's references: what call 0's proof data take. -/
abbrev ent0 : (c : Dev nD) → (b : Ref sig .tc) → Buf (Elt F) ((c : Thread nD τ).loc b) := fun c b => mem1 m c b
/-- At call 0's exit: its arrays at what the write-backs leave, every other buffer as entered. -/
def mem2 (c : Dev nD) : Valuation τ sig (Elt F) :=
  Pipeline.withArrays spec0 c (mem1 m c) fun w => (dat0 (ent0 m) c).arrAt w cfg0.N
theorem mem2_arr (c : Dev nD) (w : Fin cfg0.W) :
    mem2 m c (Proc.devRef .tc (Pipeline.arrRef spec0 w)) = (dat0 (ent0 m) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m c (Proc.devRef .tc b) = mem1 m c (Proc.devRef .tc b) := by
  unfold mem2; exact Pipeline.withArrays_of_ne spec0 c _ _ b hb
abbrev exit0 : (c : Dev nD) → (b : Ref sig .tc) → Buf (Elt F) ((c : Thread nD τ).loc b) := fun c b => mem2 m c b
theorem left0 (c : Dev nD) (w : Fin cfg0.W) : (dat0 (ent0 m) c).arrAt w cfg0.N = exit0 m c (Pipeline.arrRef spec0 w) :=
  (mem2_arr m c w).symm
theorem kept0 (c : Dev nD) : ∀ b, b ∉ Finset.univ.image (Pipeline.arrRef spec0) → exit0 m c b = ent0 m c b :=
  fun b hb => mem2_of_ne m c b fun w e => hb (Finset.mem_image.mpr ⟨w, Finset.mem_univ _, e⟩)

/-- After the two scores and the reshape (call 1's entry). -/
abbrev mem3 : Dev nD → Valuation τ sig (Elt F) := fun c => StableHlo.after hostOps1 (mem2 m c)
abbrev ent1 : (c : Dev nD) → (b : Ref sig .tc) → Buf (Elt F) ((c : Thread nD τ).loc b) := fun c b => mem3 m c b
/-- At call 1's exit (the return). -/
def mem4 (c : Dev nD) : Valuation τ sig (Elt F) :=
  Pipeline.withArrays spec1 c (mem3 m c) fun w => (dat1 (ent1 m) c).arrAt w cfg1.N
theorem mem4_arr (c : Dev nD) (w : Fin cfg1.W) :
    mem4 m c (Proc.devRef .tc (Pipeline.arrRef spec1 w)) = (dat1 (ent1 m) c).arrAt w cfg1.N := by
  unfold mem4; exact Pipeline.withArrays_arr spec1 launch1.win.arr_inj c _ _ w
theorem mem4_of_ne (c : Dev nD) (b : Ref sig .tc) (hb : ∀ w, Pipeline.arrRef spec1 w ≠ b) :
    mem4 m c (Proc.devRef .tc b) = mem3 m c (Proc.devRef .tc b) := by
  unfold mem4; exact Pipeline.withArrays_of_ne spec1 c _ _ b hb
abbrev exit1 : (c : Dev nD) → (b : Ref sig .tc) → Buf (Elt F) ((c : Thread nD τ).loc b) := fun c b => mem4 m c b
theorem left1 (c : Dev nD) (w : Fin cfg1.W) : (dat1 (ent1 m) c).arrAt w cfg1.N = exit1 m c (Pipeline.arrRef spec1 w) :=
  (mem4_arr m c w).symm
theorem kept1 (c : Dev nD) : ∀ b, b ∉ Finset.univ.image (Pipeline.arrRef spec1) → exit1 m c b = ent1 m c b :=
  fun b hb => mem4_of_ne m c b fun w e => hb (Finset.mem_image.mpr ⟨w, Finset.mem_univ _, e⟩)

/-! ## What each stretch of host operations leaves alone -/

theorem mem1_of (c : Dev nD) (r : Ref sig .tc) (h : r ∉ hostOps0_W) : mem1 m c (Proc.devRef .tc r) = mem0 m c (Proc.devRef .tc r) :=
  StableHlo.after_of_writes_sub hostOps0 _ hostOps0_writes h
theorem mem3_of (c : Dev nD) (r : Ref sig .tc) (h : r ∉ hostOps1_W) : mem3 m c (Proc.devRef .tc r) = mem2 m c (Proc.devRef .tc r) :=
  StableHlo.after_of_writes_sub hostOps1 _ hostOps1_writes h

/-! ## The arguments reach the return as launched -/

theorem mem4_main_arg0 (c : Dev nD) : mem4 m c (Proc.devRef .tc main_arg0) = m ((c : Thread nD τ).loc main_arg0) :=
  calc mem4 m c (Proc.devRef .tc main_arg0)
    _ = mem3 m c (Proc.devRef .tc main_arg0) := mem4_of_ne m c main_arg0 (by decide)
    _ = mem2 m c (Proc.devRef .tc main_arg0) := mem3_of m c main_arg0 (by decide)
    _ = mem1 m c (Proc.devRef .tc main_arg0) := (mem2_arr m c 0).trans (((dat0 (ent0 m) c).arrAt_in 0 rfl _).trans (A_eq0 (ent0 m) c 0))
    _ = mem0 m c (Proc.devRef .tc main_arg0) := mem1_of m c main_arg0 (by decide)
    _ = m ((c : Thread nD τ).loc main_arg0) := rfl
theorem mem4_main_arg1 (c : Dev nD) : mem4 m c (Proc.devRef .tc main_arg1) = m ((c : Thread nD τ).loc main_arg1) :=
  calc mem4 m c (Proc.devRef .tc main_arg1)
    _ = mem3 m c (Proc.devRef .tc main_arg1) := mem4_of_ne m c main_arg1 (by decide)
    _ = mem2 m c (Proc.devRef .tc main_arg1) := mem3_of m c main_arg1 (by decide)
    _ = mem1 m c (Proc.devRef .tc main_arg1) := (mem2_arr m c 1).trans (((dat0 (ent0 m) c).arrAt_in 1 rfl _).trans (A_eq0 (ent0 m) c 1))
    _ = mem0 m c (Proc.devRef .tc main_arg1) := mem1_of m c main_arg1 (by decide)
    _ = m ((c : Thread nD τ).loc main_arg1) := rfl
theorem mem4_main_arg2 (c : Dev nD) : mem4 m c (Proc.devRef .tc main_arg2) = m ((c : Thread nD τ).loc main_arg2) :=
  calc mem4 m c (Proc.devRef .tc main_arg2)
    _ = mem3 m c (Proc.devRef .tc main_arg2) := mem4_of_ne m c main_arg2 (by decide)
    _ = mem2 m c (Proc.devRef .tc main_arg2) := mem3_of m c main_arg2 (by decide)
    _ = mem1 m c (Proc.devRef .tc main_arg2) := mem2_of_ne m c main_arg2 (by decide)
    _ = mem0 m c (Proc.devRef .tc main_arg2) := mem1_of m c main_arg2 (by decide)
    _ = m ((c : Thread nD τ).loc main_arg2) := rfl
theorem mem4_main_arg3 (c : Dev nD) : mem4 m c (Proc.devRef .tc main_arg3) = m ((c : Thread nD τ).loc main_arg3) :=
  calc mem4 m c (Proc.devRef .tc main_arg3)
    _ = mem3 m c (Proc.devRef .tc main_arg3) := (mem4_arr m c 0).trans (((dat1 (ent1 m) c).arrAt_in 0 rfl _).trans (A_eq1 (ent1 m) c 0))
    _ = mem2 m c (Proc.devRef .tc main_arg3) := mem3_of m c main_arg3 (by decide)
    _ = mem1 m c (Proc.devRef .tc main_arg3) := mem2_of_ne m c main_arg3 (by decide)
    _ = mem0 m c (Proc.devRef .tc main_arg3) := mem1_of m c main_arg3 (by decide)
    _ = m ((c : Thread nD τ).loc main_arg3) := rfl
/-- The result array at the return is what call 1's write-backs leave of it. -/
theorem mem4_main_v6 (c : Dev nD) : mem4 m c (Proc.devRef .tc main_v6) = (dat1 (ent1 m) c).arrAt 4 cfg1.N :=
  mem4_arr m c 4

/-! ## The proof data family and what rides beside the buffers -/

/-- Both calls' proof data, each at its call's entry contents. -/
def callData : (p : Fin 2) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
abbrev noVariants : Variants := Variants.none
/-- No core owes another anything: no level is assigned. -/
abbrev noPairs : GSem nD τ sig → Finset Unit := fun _ => ∅
abbrev noLevel : GSem nD τ sig → Unit → ℕ := fun _ _ => 0
/-- Beside the buffers through every item: the core's generator register at some state and its debts, none. -/
abbrev beside (c : Dev nD) : sProp 𝕄 := iprop((∃ r, prngReg c r) ∗ ∃ W, owes (c : Thread nD τ) (0 : CellTallies nD τ sig Unit) W)
/-- A stretch of host operations as an item of the run, from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the return's contents, the register at some state. -/
abbrev atReturn (c : Dev nD) : sProp 𝕄 := iprop(StableHlo.held (c : Thread nD τ) (Pipeline.ucRefs τ sig) (mem4 m c) ∗ ∃ r, prngReg c r)

/-! ## The two calls as items of the run -/

set_option backward.isDefEq.respectTransparency.types false in
/-- CALL 0: entered with every unscoped buffer at `mem1`, left at `mem2`. Its three arrays are taken out of the
    unscoped buffers and put back at the exit contents; the generator register goes into the call's invariant and
    comes out; nothing is owed; the kernel has no semaphore of its own. -/
def call0 : Pipeline.RegionSeg (pcfgs (F := F)) adm (callData m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ noPairs noLevel 0 fun _ _ => rfl
  pre c := iprop(StableHlo.held (c : Thread nD τ) (Pipeline.ucRefs τ sig) (mem1 m c) ∗ beside c)
  post c := iprop(StableHlo.held (c : Thread nD τ) (Pipeline.ucRefs τ sig) (mem2 m c) ∗ beside c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (callData m) launch0.win launch0.arr_whole c
      ((callData m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (callData m 0 c).Φ 0 = Pipeline.ΦA spec0 c from rfl]; unfold Pipeline.ΦA
    iintro ⟨Hp, -, Hr⟩
    isplitl [Hr]; · iexact Hr
    iexact Hp
  hout c := by
    rw [Pipeline.ownSems0_none, show (callData m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (callData m) ((callData m 0 c).share_full fun _ => rfl)
      (ent0 m c) (exit0 m c) ((callData m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1: entered with every unscoped buffer at `mem3`, left at `mem4` (what the return reads). The register and the
    scoped buffers no window stages — the carried accumulator among them — make the invariant before the first point
    (`hin1`), and the invariant after the last point gives them back with the accumulator's contents forgotten (`hout1`). -/
def call1 : Pipeline.RegionSeg (pcfgs (F := F)) adm (callData m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ noPairs noLevel 1 fun _ _ => rfl
  pre c := iprop(StableHlo.held (c : Thread nD τ) (Pipeline.ucRefs τ sig) (mem3 m c) ∗ beside c)
  post c := iprop(atReturn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (callData m) launch1.win launch1.arr_whole c
      ((callData m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (Pipeline.ΦA spec1 c : sProp 𝕄) ⊢ (callData m 1 c).Φ 0 := hin1 (ent1 m) c
    unfold Pipeline.ΦA at h1
    iintro ⟨Hp, -, Hr⟩
    iapply h1
    isplitl [Hr]; · iexact Hr
    iexact Hp
  hout c := by
    rw [Pipeline.ownSems0_none]
    have h1 : (callData m 1 c).Φ (Fin.last _) ⊢ (Pipeline.ΦA spec1 c : sProp 𝕄) := hout1 (ent1 m) c
    unfold Pipeline.ΦA at h1
    have h2 : (iprop(Pipeline.scopedRest spec1 c ∗ ∃ r, prngReg c r) : sProp 𝕄)
        ⊢ iprop((∃ r, prngReg c r) ∗ BI.emp ∗ Pipeline.scopedRest spec1 c) := by
      iintro ⟨Hr, Hp⟩
      isplitl [Hp]; · iexact Hp
      isplitr; · iempintro
      iexact Hr
    exact h1.trans h2
  hexit c := by
    have hjoin := Pipeline.unscopedBufs_of_arrays (p := 1) (pcfgs (F := F)) adm (Ix := Unit) (Name := ℕ) (U := UR sig nD τ) (Lvl := ℕ)
      launch1.win launch1.arr_whole c (callData m) ((callData m 1 c).share_full fun _ => rfl)
      (ent1 m c) (exit1 m c) ((callData m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four items, and the launch -/

abbrev items : List (Pipeline.Seg (pcfgs (F := F)) adm (callData m) () defs₀ noVariants noPairs noLevel) :=
  [ .host (hostItem hostOps0 hostOps0_sub hostOps0_fresh (mem0 m)),
    .region (call0 m),
    .host (hostItem hostOps1 hostOps1_sub hostOps1_fresh (mem2 m)),
    .region (call1 m) ]
/-- @main IS the run of its items. -/
theorem main_items (c : Dev nD) : main (F := F) c = Pipeline.Seg.run (items m) := (main_chain c).trans (by chain_rfl)

set_option backward.isDefEq.respectTransparency.types false in
/-- THE RUN: from any memory with zero counters every weakly fair execution of @main terminates, nothing faulting, and
    every final state holds each unscoped buffer of each core at the return's contents `mem4`. -/
theorem run_to_return : θ_run defs (onTc (τ := τ) (main (F := F))) ⟨m, fun _ => 0, ρ⟩ (fun r => ∀ c : Dev nD,
      ∀ b ∈ Pipeline.ucRefs τ sig, r.2.mem (((c : Thread nD τ)).1, b) = mem4 m c b) :=
  Pipeline.θ_run_regions_kit (pcfgs (F := F)) adm (callData m) () cellOf_inj emb₁ defs₀ noVariants noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ beside c)) (Tₙ := atReturn m)
    (hch := ⟨fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem4 m c b)
    (hfin := fun c s' => by
      iintro ⟨⟨Hh, -⟩, HSI⟩
      unfold StableHlo.held
      imodintro
      iapply (pointsTo_read_all (Pipeline.ucRefs τ sig) (fun b => (((c : Thread nD τ)).1, b)) (mem4 m c) s')
      isplitl [Hh] <;> iassumption)
    (hQ := fun s h c => h c)

/-- THE FRAME, at any float instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_unscoped main_arg0 (by decide))).trans (mem4_main_arg0 m c),
     (h c _ (mem_unscoped main_arg1 (by decide))).trans (mem4_main_arg1 m c),
     (h c _ (mem_unscoped main_arg2 (by decide))).trans (mem4_main_arg2 m c),
     (h c _ (mem_unscoped main_arg3 (by decide))).trans (mem4_main_arg3 m c)⟩) (run_to_return m ρ)

/-- The same run with the result array named: it ends at what call 1's write-backs leave of it. -/
theorem run_result : θ_run defs (onTc (τ := τ) (main (F := F))) ⟨m, fun _ => 0, ρ⟩ (fun r => ∀ c : Dev nD,
      r.2.mem ((c.tc : Thread nD τ).loc main_v6) = (dat1 (ent1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_unscoped main_v6 (by decide))).trans (mem4_main_v6 m c),
     (h c _ (mem_unscoped main_arg0 (by decide))).trans (mem4_main_arg0 m c),
     (h c _ (mem_unscoped main_arg1 (by decide))).trans (mem4_main_arg1 m c),
     (h c _ (mem_unscoped main_arg2 (by decide))).trans (mem4_main_arg2 m c),
     (h c _ (mem_unscoped main_arg3 (by decide))).trans (mem4_main_arg3 m c)⟩) (run_to_return m ρ)

end Cert.Kernel.Frame

end
-- ==== Proof.R0Body.lean ====
import proofs.«102622_j57698590654935_1_alg».proof.Proof.Gen.KernelIdeal.Launch
import proofs.«102622_j57698590654935_1_alg».proof.Proof.Gen.KernelIdeal.Skeleton
import proofs.«102622_j57698590654935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` of the first call, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block of the array at every point, whether the block was brought in
    at that point or earlier: where nothing is brought in the block index has not moved, the window is never cut and
    never idle. Stated for any proof data over the region-entry arrays that leaves the input in place. -/
theorem rows_staged_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the weight window, which is brought in once, at the first point, and whose block index is constant. -/
theorem weights_staged_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is its whole buffer -/

/-- the whole 1024×512 block of rows of x -/
abbrev wholeRows : Rect S1024x512 := Rect.unit (s := S1024x512) ![0, 0] S1024x512.size inb_S1024x512_S1024x512_0_0
/-- the whole 512×256 weight matrix -/
abbrev wholeWeights : Rect S512x256 := Rect.unit (s := S512x256) ![0, 0] S512x256.size inb_S512x256_S512x256_0_0
/-- the whole 1024×256 block of rows of the product -/
abbrev wholeProduct : Rect S1024x256 := Rect.unit (s := S1024x256) ![0, 0] S1024x256.size inb_S1024x256_S1024x256_0_0

/-- What the body leaves in the result window's staging buffer, from the two input blocks: one store over the whole
    buffer, of the product of the block of rows of x by the weight matrix. -/
def out0_2 (x0 : Vec F S1024x512 .f32) (x1 : Vec F S512x256 .f32) : Vec F S1024x256 .f32 :=
  View.canon [⟨wholeProduct, k0_pay1 (View.ld x0 wholeRows) (View.ld x1 wholeWeights)⟩]

/-- The one store's rectangle is the whole buffer, so every index of the buffer lies in it. -/
theorem product_store_covers (p0 : Vec F S1024x256 .f32) (y : S1024x256.Idx) :
    ∃ pc ∈ ([⟨wholeProduct, p0⟩] : List (View.Piece (Elt F) S1024x256 .f32)), y ∈ pc.1.set :=
  View.cover_of_tiled [⟨wholeProduct, p0⟩] S1024x256.size (by rfl) y

/-! ## The body's triple -/

set_option maxHeartbeats 1000000 in
/-- The body on whole staging memrefs — the two inputs' at contents `x0`, `x1`, the result's at anything — runs to a
    continuation that holds the inputs' as they were and the result's at `out0_2 x0 x1`: it reads x's block and the
    weights, reads the result buffer (the value is unused), and stores the product over the whole result buffer. -/
theorem project_body_triple (c : Dev nD) (E : Set ℕ) (i : grid0.Coords) (arg1 : Memref sig .tc .vmem S1024x512 .f32) (harg1 : arg1.IsWhole) (arg2 : Memref sig .tc .vmem S512x256 .f32) (harg2 : arg2.IsWhole) (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__h_kernel i arg1 harg1 arg2 harg2 arg3 harg3) K := by
  simp only [cc0__h_kernel_eq_skeleton]; unfold cc0__h_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_store_covers _)

/-! ## The proof data of the first call -/

/-- The proof data of the first call on core `c`: the arrays as the region finds them; after the body at point `t`
    each input's buffer still at its block and the result's at `out0_2` of the two blocks; the invariant keeps the
    rest of the memory untouched; nothing is owed; full shares. -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block at every point. -/
theorem rows_staged (c : Dev nD) (t : Fin cfg0.N) (d) : (dat0 V c).before 0 t d = iblk0 V c 0 t :=
  rows_staged_of V (dat0 V c) (A_eq0 V c 0) (after0_0 V c) t d
theorem weights_staged (c : Dev nD) (t : Fin cfg0.N) (d) : (dat0 V c).before 1 t d = iblk0 V c 1 t :=
  weights_staged_of V (dat0 V c) (A_eq0 V c 1) (after0_1 V c) t d

/-! ## The body obligation, at a generic point -/

/-- What the body is called with at point `t`, the three windows one by one, -/
def projectCallPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def projectCallPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem project_body_at_point (c : Dev nD) (t : Fin cfg0.N) :
    projectCallPre V c t ⊢ wp frame (wpE (defs₀ (F := F)) Variants.none c none) Set.univ (bodyAt0 t) (fun _ => projectCallPost V c t) := by
  unfold projectCallPre projectCallPost bodyAt0
  simp only [rows_staged, weights_staged]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (project_body_triple c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact project_body_at_point V c t

end Cert.KernelIdeal.Frame

end
-- ==== Proof.R1Runs.lean ====
import proofs.«102622_j57698590654935_1_alg».proof.Proof.Gen.KernelIdeal.Launch
import proofs.«102622_j57698590654935_1_alg».proof.Proof.Gen.KernelIdeal.Skeleton
import proofs.«102622_j57698590654935_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The aggregation call's two tests on the column-block coordinate

The grid is 4 row blocks by 16 column blocks, point `t = 16·i + j`. The body tests `j = 0` (restart the
accumulator) and `j = 15` (hand the accumulator to the result block). -/

/-- The body's first test, as it is computed from the coordinates: the column-block coordinate is zero. -/
abbrev atColStart (i : grid1.Coords) : Prop :=
  (Scalar.cmpi .ne (Scalar.extui (Scalar.cmpi .eq (BitVec.ofNat 32 (i 1).val) 0#32)) 0#32) = 1#1

/-- Over the 64 points it holds exactly at the first column block of each row block. -/
theorem atColStart_iff : ∀ t : Fin cfg1.N, atColStart (grid1.coords t) ↔ t.val % 16 = 0 :=
  (by decide +kernel : ∀ t : Fin grid1.N, atColStart (grid1.coords t) ↔ t.val % 16 = 0)

/-- The body's second test: the column-block coordinate is the last one. -/
abbrev atColEnd (i : grid1.Coords) : Prop := k1_cond2 i = 1#1

/-- Over the 64 points it holds exactly at the last column block of each row block. -/
theorem atColEnd_iff : ∀ t : Fin cfg1.N, atColEnd (grid1.coords t) ↔ t.val % 16 = 15 :=
  (by decide +kernel : ∀ t : Fin grid1.N, atColEnd (grid1.coords t) ↔ t.val % 16 = 15)

/-! ## Which windows are live, and when the result block is written back -/

/-- The four operand windows (adjacency block, the two score vectors, the feature block) are live at every point. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel

/-- Before the last column block the result window is idle: the body stores nothing into it … -/
theorem idle1_4_of_not_end : ∀ t : Fin cfg1.N, ¬atColEnd (grid1.coords t) → cfg1.idle 4 (grid1.coords t) = true := by
  decide +kernel
/-- … and its block is not written back to the result array there. -/
theorem noFlush1_4_of_not_end : ∀ t : Fin cfg1.N, ¬atColEnd (grid1.coords t) → (cfg1.win 4).flush t = false := by
  decide +kernel
/-- At the last column block the result window is live: the body stores the whole block. -/
theorem live1_4_of_end : ∀ t : Fin cfg1.N, atColEnd (grid1.coords t) → cfg1.idle 4 (grid1.coords t) = false := by
  decide +kernel

/-! ## The memrefs the body is called with at a point -/

/-- The staging memref each window is on at point `t`, with the fact that it is a whole buffer. -/
abbrev adjM (t : Fin cfg1.N) : Memref sig .tc .vmem S2048x512 .i32 := win1_0.stage (cfg1.slots t 0)
abbrev adjM_whole (t : Fin cfg1.N) : (adjM t).IsWhole := hstage1_0 ((cfg1.slots t 0).cast nbuf1_0)
abbrev srcM (t : Fin cfg1.N) : Memref sig .tc .vmem S2048x1 .f32 := win1_1.stage (cfg1.slots t 1)
abbrev srcM_whole (t : Fin cfg1.N) : (srcM t).IsWhole := hstage1_1 ((cfg1.slots t 1).cast nbuf1_1)
abbrev dstM (t : Fin cfg1.N) : Memref sig .tc .vmem S1x512 .f32 := win1_2.stage (cfg1.slots t 2)
abbrev dstM_whole (t : Fin cfg1.N) : (dstM t).IsWhole := hstage1_2 ((cfg1.slots t 2).cast nbuf1_2)
abbrev featM (t : Fin cfg1.N) : Memref sig .tc .vmem S512x256 .f32 := win1_3.stage (cfg1.slots t 3)
abbrev featM_whole (t : Fin cfg1.N) : (featM t).IsWhole := hstage1_3 ((cfg1.slots t 3).cast nbuf1_3)
abbrev resM (t : Fin cfg1.N) : Memref sig .tc .vmem S2048x256 .f32 := win1_4.stage (cfg1.slots t 4)
abbrev resM_whole (t : Fin cfg1.N) : (resM t).IsWhole := hstage1_4 ((cfg1.slots t 4).cast nbuf1_4)

/-- One of the result window's staging buffers as a view: block contents are stated by reading written pieces
    back through it (which buffer is chosen makes no difference to what is read back). -/
abbrev resView : View sig .tc .vmem S2048x256 .f32 := (Memref.whole cc1_stg4_0 : Memref sig .tc .vmem S2048x256 .f32).view

/-- The accumulator buffer as a view, for the same purpose. -/
abbrev accView : View sig .tc .vmem S2048x256 .f32 := (Memref.whole cc1_scratch0 : Memref sig .tc .vmem S2048x256 .f32).view

end Cert.KernelIdeal.Frame

end
-- ==== Proof.R1RunA.lean ====
import proofs.«102622_j57698590654935_1_alg».proof.Proof.R1Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the first column block of a row block

Both tests decided: the first holds, the second does not. The body overwrites the whole accumulator with zeros,
then reads the two score vectors, the adjacency block, the accumulator (now the zeros) and the feature block, and
overwrites the whole accumulator with the accumulation step's value. The result window is not touched. -/

set_option maxHeartbeats 1000000 in
/-- The list of pieces the body's two stores leave in the accumulator (latest first), together with the triple:
    from the four operand buffers at their contents and the accumulator at ANY contents, the body runs to a
    continuation that receives the four operand buffers unchanged and the accumulator with those pieces written. -/
noncomputable def aggRun_restart (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole)
    (hc0 : atColStart i) (hc1 : ¬atColEnd i) (x0 : Vec F S2048x512 .i32) (x1 : Vec F S2048x1 .f32) (x2 : Vec F S1x512 .f32) (x3 : Vec F S512x256 .f32) :
    { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Frame

end
-- ==== Proof.R1RunB.lean ====
import proofs.«102622_j57698590654935_1_alg».proof.Proof.R1RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at an interior column block

Neither test holds. The body reads the two score vectors, the adjacency block, the accumulator as the point before
left it and the feature block, and overwrites the whole accumulator with the accumulation step's value. The result
window is not touched. -/

set_option maxHeartbeats 1000000 in
/-- The pieces the body's one store leaves in the accumulator, with the triple: from the four operand buffers at
    their contents and the accumulator at the contents `acc` the point before left, the body runs to a continuation
    that receives the four operand buffers unchanged and the accumulator with those pieces written. -/
noncomputable def aggRun_mid (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole)
    (hc0 : ¬atColStart i) (hc1 : ¬atColEnd i) (x0 : Vec F S2048x512 .i32) (x1 : Vec F S2048x1 .f32) (x2 : Vec F S1x512 .f32) (x3 : Vec F S512x256 .f32) (acc : Vec F S2048x256 .f32) :
    { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1
    obtain rfl := harg4.eq_unread hf2; obtain rfl := harg5.eq_unread hf3
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Frame

end
-- ==== Proof.R1RunC.lean ====
import proofs.«102622_j57698590654935_1_alg».proof.Proof.R1RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the last column block of a row block

The first test fails, the second holds. The body accumulates as at an interior block, then reads the whole
accumulator back, reads the result window's buffer (the value is discarded) and overwrites that whole buffer with
what it read from the accumulator. -/

set_option maxHeartbeats 1000000 in
/-- The pieces the body leaves in the result window's buffer and in the accumulator, with the triple: from the four
    operand buffers at their contents, the result buffer at ANY contents and the accumulator at the contents `acc`
    the point before left, the body runs to a continuation that receives the four operand buffers unchanged and
    each of the two written buffers with its pieces. -/
noncomputable def aggRun_last (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole)
    (hc0 : ¬atColStart i) (hc1 : atColEnd i) (x0 : Vec F S2048x512 .i32) (x1 : Vec F S2048x1 .f32) (x2 : Vec F S1x512 .f32) (x3 : Vec F S512x256 .f32) (acc : Vec F S2048x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1
    obtain rfl := harg4.eq_unread hf2; obtain rfl := harg5.eq_unread hf3
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Frame

end
-- ==== Proof.R1Body.lean ====
import proofs.«102622_j57698590654935_1_alg».proof.Proof.Gen.KernelIdeal.Launch
import proofs.«102622_j57698590654935_1_alg».proof.Proof.Gen.KernelIdeal.Skeleton
import proofs.«102622_j57698590654935_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«102622_j57698590654935_1_alg».proof.Proof.R1RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` of the second call, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator the kernel carries between points, as a whole scoped buffer. -/
abbrev scM1_0 : Memref sig .tc .vmem S2048x256 .f32 := Memref.whole cc1_scratch0

/-! ## What each kind of point leaves in the accumulator and in the result buffer

Contents are named by reading a run's written pieces back over arbitrary prior contents; since the pieces cover the
whole 2048×256 block, the prior contents do not show. -/

/-- First column block: the accumulator after the zero fill and one accumulation step. -/
def accAfter_restart (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : atColStart i) (hc1 : ¬atColEnd i) (x0 : Vec F S2048x512 .i32) (x1 : Vec F S2048x1 .f32) (x2 : Vec F S1x512 .f32) (x3 : Vec F S512x256 .f32) : Vec F S2048x256 .f32 :=
  accView.read (Elt F) (accView.writes (Elt F) accView.junk (aggRun_restart c i arg2 harg2 arg3 harg3 arg4 harg4 arg5 harg5 arg6 harg6 arg7 harg7 hc0 hc1 x0 x1 x2 x3).1)

/-- Its pieces cover the block (each of the two stores is the whole block). -/
theorem accCover_restart (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : atColStart i) (hc1 : ¬atColEnd i) (x0 : Vec F S2048x512 .i32) (x1 : Vec F S2048x1 .f32) (x2 : Vec F S1x512 .f32) (x3 : Vec F S512x256 .f32) (y : S2048x256.Idx) :
    ∃ pc ∈ (aggRun_restart c i arg2 harg2 arg3 harg3 arg4 harg4 arg5 harg5 arg6 harg6 arg7 harg7 hc0 hc1 x0 x1 x2 x3).1, y ∈ pc.1.set :=
  View.cover_of_tiledL (aggRun_restart c i arg2 harg2 arg3 harg3 arg4 harg4 arg5 harg5 arg6 harg6 arg7 harg7 hc0 hc1 x0 x1 x2 x3).1 S2048x256.size (by sl_kernel_rfl) y

/-- Interior column block: the accumulator after one accumulation step onto `acc`. -/
def accAfter_mid (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : ¬atColEnd i) (x0 : Vec F S2048x512 .i32) (x1 : Vec F S2048x1 .f32) (x2 : Vec F S1x512 .f32) (x3 : Vec F S512x256 .f32) (acc : Vec F S2048x256 .f32) : Vec F S2048x256 .f32 :=
  accView.read (Elt F) (accView.writes (Elt F) accView.junk (aggRun_mid c i arg2 harg2 arg3 harg3 arg4 harg4 arg5 harg5 arg6 harg6 arg7 harg7 hc0 hc1 x0 x1 x2 x3 acc).1)

/-- Its one piece is the whole block. -/
theorem accCover_mid (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : ¬atColEnd i) (x0 : Vec F S2048x512 .i32) (x1 : Vec F S2048x1 .f32) (x2 : Vec F S1x512 .f32) (x3 : Vec F S512x256 .f32) (acc : Vec F S2048x256 .f32) (y : S2048x256.Idx) :
    ∃ pc ∈ (aggRun_mid c i arg2 harg2 arg3 harg3 arg4 harg4 arg5 harg5 arg6 harg6 arg7 harg7 hc0 hc1 x0 x1 x2 x3 acc).1, y ∈ pc.1.set :=
  View.cover_of_tiledL (aggRun_mid c i arg2 harg2 arg3 harg3 arg4 harg4 arg5 harg5 arg6 harg6 arg7 harg7 hc0 hc1 x0 x1 x2 x3 acc).1 S2048x256.size (by sl_kernel_rfl) y

/-- Last column block: the accumulator after one accumulation step onto `acc`. -/
def accAfter_last (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : atColEnd i) (x0 : Vec F S2048x512 .i32) (x1 : Vec F S2048x1 .f32) (x2 : Vec F S1x512 .f32) (x3 : Vec F S512x256 .f32) (acc : Vec F S2048x256 .f32) : Vec F S2048x256 .f32 :=
  accView.read (Elt F) (accView.writes (Elt F) accView.junk (aggRun_last c i arg2 harg2 arg3 harg3 arg4 harg4 arg5 harg5 arg6 harg6 arg7 harg7 hc0 hc1 x0 x1 x2 x3 acc).2.1)

theorem accCover_last (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : atColEnd i) (x0 : Vec F S2048x512 .i32) (x1 : Vec F S2048x1 .f32) (x2 : Vec F S1x512 .f32) (x3 : Vec F S512x256 .f32) (acc : Vec F S2048x256 .f32) (y : S2048x256.Idx) :
    ∃ pc ∈ (aggRun_last c i arg2 harg2 arg3 harg3 arg4 harg4 arg5 harg5 arg6 harg6 arg7 harg7 hc0 hc1 x0 x1 x2 x3 acc).2.1, y ∈ pc.1.set :=
  View.cover_of_tiledL (aggRun_last c i arg2 harg2 arg3 harg3 arg4 harg4 arg5 harg5 arg6 harg6 arg7 harg7 hc0 hc1 x0 x1 x2 x3 acc).2.1 S2048x256.size (by sl_kernel_rfl) y

/-- Last column block: the result window's buffer after the body's whole-block store into it. -/
def resAfter_last (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : atColEnd i) (x0 : Vec F S2048x512 .i32) (x1 : Vec F S2048x1 .f32) (x2 : Vec F S1x512 .f32) (x3 : Vec F S512x256 .f32) (acc : Vec F S2048x256 .f32) : Vec F S2048x256 .f32 :=
  resView.read (Elt F) (resView.writes (Elt F) resView.junk (aggRun_last c i arg2 harg2 arg3 harg3 arg4 harg4 arg5 harg5 arg6 harg6 arg7 harg7 hc0 hc1 x0 x1 x2 x3 acc).1)

theorem resCover_last (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : atColEnd i) (x0 : Vec F S2048x512 .i32) (x1 : Vec F S2048x1 .f32) (x2 : Vec F S1x512 .f32) (x3 : Vec F S512x256 .f32) (acc : Vec F S2048x256 .f32) (y : S2048x256.Idx) :
    ∃ pc ∈ (aggRun_last c i arg2 harg2 arg3 harg3 arg4 harg4 arg5 harg5 arg6 harg6 arg7 harg7 hc0 hc1 x0 x1 x2 x3 acc).1, y ∈ pc.1.set :=
  View.cover_of_tiledL (aggRun_last c i arg2 harg2 arg3 harg3 arg4 harg4 arg5 harg5 arg6 harg6 arg7 harg7 hc0 hc1 x0 x1 x2 x3 acc).1 S2048x256.size (by sl_kernel_rfl) y

/-- Where the result window is idle nothing is claimed about its buffer; this names the first component there. It is
    never consulted: at those points the block is neither written back nor read by the next point. -/
def resIdle : Vec F S2048x256 .f32 := resView.read (Elt F) resView.junk

/-- A point at the first column block is not at the last, and conversely. -/
theorem not_end_of_start (t : Fin cfg1.N) (h0 : t.val % 16 = 0) : ¬atColEnd (grid1.coords t) :=
  fun h => by have := (atColEnd_iff t).mp h; omega
theorem not_start_of_end (t : Fin cfg1.N) (h1 : t.val % 16 = 15) : ¬atColStart (grid1.coords t) :=
  fun h => by have := (atColStart_iff t).mp h; omega

/-- What the result window's staging buffer (first component) and the carried accumulator (second component) hold after
    the body at position `n`: by the column block `n % 16` — 0 restarts the accumulator, 15 accumulates onto what position
    `n - 1` left and copies the accumulator out, any other accumulates onto what position `n - 1` left. -/
def outsAt1 (c : Dev nD) : (n : ℕ) → n < cfg1.N → Vec F S2048x256 .f32 × Vec F S2048x256 .f32
  | 0, hn => (resIdle, accAfter_restart c (grid1.coords ⟨0, hn⟩) (adjM ⟨0, hn⟩) (adjM_whole ⟨0, hn⟩) (srcM ⟨0, hn⟩) (srcM_whole ⟨0, hn⟩) (dstM ⟨0, hn⟩) (dstM_whole ⟨0, hn⟩) (featM ⟨0, hn⟩) (featM_whole ⟨0, hn⟩) (resM ⟨0, hn⟩) (resM_whole ⟨0, hn⟩) scM1_0 (Memref.isWhole_whole _) ((atColStart_iff ⟨0, hn⟩).mpr (Nat.zero_mod _)) (not_end_of_start ⟨0, hn⟩ (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      (resIdle, accAfter_restart c (grid1.coords ⟨n + 1, hn⟩) (adjM ⟨n + 1, hn⟩) (adjM_whole ⟨n + 1, hn⟩) (srcM ⟨n + 1, hn⟩) (srcM_whole ⟨n + 1, hn⟩) (dstM ⟨n + 1, hn⟩) (dstM_whole ⟨n + 1, hn⟩) (featM ⟨n + 1, hn⟩) (featM_whole ⟨n + 1, hn⟩) (resM ⟨n + 1, hn⟩) (resM_whole ⟨n + 1, hn⟩) scM1_0 (Memref.isWhole_whole _) ((atColStart_iff ⟨n + 1, hn⟩).mpr h0) (not_end_of_start ⟨n + 1, hn⟩ h0) (iblk1 V c 0 ⟨n + 1, hn⟩) (iblk1 V c 1 ⟨n + 1, hn⟩) (iblk1 V c 2 ⟨n + 1, hn⟩) (iblk1 V c 3 ⟨n + 1, hn⟩))
    else if h1 : (n + 1) % 16 = 15 then
      (resAfter_last c (grid1.coords ⟨n + 1, hn⟩) (adjM ⟨n + 1, hn⟩) (adjM_whole ⟨n + 1, hn⟩) (srcM ⟨n + 1, hn⟩) (srcM_whole ⟨n + 1, hn⟩) (dstM ⟨n + 1, hn⟩) (dstM_whole ⟨n + 1, hn⟩) (featM ⟨n + 1, hn⟩) (featM_whole ⟨n + 1, hn⟩) (resM ⟨n + 1, hn⟩) (resM_whole ⟨n + 1, hn⟩) scM1_0 (Memref.isWhole_whole _) (fun h => h0 ((atColStart_iff ⟨n + 1, hn⟩).mp h)) ((atColEnd_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
       accAfter_last c (grid1.coords ⟨n + 1, hn⟩) (adjM ⟨n + 1, hn⟩) (adjM_whole ⟨n + 1, hn⟩) (srcM ⟨n + 1, hn⟩) (srcM_whole ⟨n + 1, hn⟩) (dstM ⟨n + 1, hn⟩) (dstM_whole ⟨n + 1, hn⟩) (featM ⟨n + 1, hn⟩) (featM_whole ⟨n + 1, hn⟩) (resM ⟨n + 1, hn⟩) (resM_whole ⟨n + 1, hn⟩) scM1_0 (Memref.isWhole_whole _) (fun h => h0 ((atColStart_iff ⟨n + 1, hn⟩).mp h)) ((atColEnd_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
    else
      (resIdle, accAfter_mid c (grid1.coords ⟨n + 1, hn⟩) (adjM ⟨n + 1, hn⟩) (adjM_whole ⟨n + 1, hn⟩) (srcM ⟨n + 1, hn⟩) (srcM_whole ⟨n + 1, hn⟩) (dstM ⟨n + 1, hn⟩) (dstM_whole ⟨n + 1, hn⟩) (featM ⟨n + 1, hn⟩) (featM_whole ⟨n + 1, hn⟩) (resM ⟨n + 1, hn⟩) (resM_whole ⟨n + 1, hn⟩) scM1_0 (Memref.isWhole_whole _) (fun h => h0 ((atColStart_iff ⟨n + 1, hn⟩).mp h)) (fun h => h1 ((atColEnd_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a first column block. -/
theorem outsAt1_at_start (c : Dev nD) (t : Fin cfg1.N) (h0 : t.val % 16 = 0) :
    outsAt1 V c t.val t.isLt = (resIdle, accAfter_restart c (grid1.coords t) (adjM t) (adjM_whole t) (srcM t) (srcM_whole t) (dstM t) (dstM_whole t) (featM t) (featM_whole t) (resM t) (resM_whole t) scM1_0 (Memref.isWhole_whole _) ((atColStart_iff t).mpr h0) (not_end_of_start t h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at an interior column block: one step onto what the point before left. -/
theorem outsAt1_at_mid (c : Dev nD) (t : Fin cfg1.N) (h0 : ¬t.val % 16 = 0) (h1 : ¬t.val % 16 = 15) :
    outsAt1 V c t.val t.isLt = (resIdle, accAfter_mid c (grid1.coords t) (adjM t) (adjM_whole t) (srcM t) (srcM_whole t) (dstM t) (dstM_whole t) (featM t) (featM_whole t) (resM t) (resM_whole t) scM1_0 (Memref.isWhole_whole _) (fun h => h0 ((atColStart_iff t).mp h)) (fun h => h1 ((atColEnd_iff t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `outsAt1` at a last column block: one step onto what the point before left, and the copy out. -/
theorem outsAt1_at_end (c : Dev nD) (t : Fin cfg1.N) (h1 : t.val % 16 = 15) :
    outsAt1 V c t.val t.isLt = (resAfter_last c (grid1.coords t) (adjM t) (adjM_whole t) (srcM t) (srcM_whole t) (dstM t) (dstM_whole t) (featM t) (featM_whole t) (resM t) (resM_whole t) scM1_0 (Memref.isWhole_whole _) (not_start_of_end t h1) ((atColEnd_iff t).mpr h1) (iblk1 V c 0 t) (iblk1 V c 1 t) (iblk1 V c 2 t) (iblk1 V c 3 t) (outsAt1 V c (t.val - 1) (Nat.lt_of_le_of_lt (Nat.sub_le _ _) t.isLt)).2,
      accAfter_last c (grid1.coords t) (adjM t) (adjM_whole t) (srcM t) (srcM_whole t) (dstM t) (dstM_whole t) (featM t) (featM_whole t) (resM t) (resM_whole t) scM1_0 (Memref.isWhole_whole _) (not_start_of_end t h1) ((atColEnd_iff t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  have h0 : ¬(n % 16 = 0) := fun h => by (try dsimp only at h1); omega
  cases n with
  | zero => exact absurd (Nat.zero_mod _) h0
  | succ n => exact (dif_neg h0).trans ((dif_pos h1).trans rfl)

/-! ## The region invariant -/

/-- The five scoped buffers of the core that belong to the first call's staging, each at some contents: the second
    call never touches them, and the invariant carries them along beside the accumulator. -/
abbrev otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region invariant before position `n`: the five other scoped buffers, the accumulator — at anything before the
    first point, afterwards at what the point before left in it — and the generator register at some state. -/
def PhiS1 (c : Dev nD) : (n : ℕ) → n ≤ cfg1.N → sProp 𝕄
  | 0, _ => iprop(iprop(otherScoped1 (F := F) c ∗ (∃ d, owns (c : Thread nD τ) scM1_0 fullShare d)) ∗ (∃ r, prngReg c r))
  | n + 1, hn => iprop(iprop(otherScoped1 (F := F) c ∗ owns (c : Thread nD τ) scM1_0 fullShare (outsAt1 V c n hn).2) ∗ (∃ r, prngReg c r))

theorem PhiS1_zero (c : Dev nD) (n : ℕ) (h : n ≤ cfg1.N) (hz : n = 0) :
    PhiS1 V c n h = iprop(iprop(otherScoped1 (F := F) c ∗ (∃ d, owns (c : Thread nD τ) scM1_0 fullShare d)) ∗ (∃ r, prngReg c r)) := by
  subst hz; rfl

theorem PhiS1_succ (c : Dev nD) (n : ℕ) (hn : n < cfg1.N) :
    PhiS1 V c (n + 1) hn = iprop(iprop(otherScoped1 (F := F) c ∗ owns (c : Thread nD τ) scM1_0 fullShare (outsAt1 V c n hn).2) ∗ (∃ r, prngReg c r)) := rfl

theorem PhiS1_pos (c : Dev nD) (n : ℕ) (h : n ≤ cfg1.N) (hz : n ≠ 0) :
    PhiS1 V c n h = iprop(iprop(otherScoped1 (F := F) c ∗ owns (c : Thread nD τ) scM1_0 fullShare (outsAt1 V c (n - 1) (by omega)).2) ∗ (∃ r, prngReg c r)) := by
  cases n with
  | zero => exact absurd rfl hz
  | succ n => rfl

/-- What the launch hands the region, regrouped: the five other scoped buffers, the accumulator at some contents, the
    generator register. -/
theorem PhiA1_open (c : Dev nD) :
    (Pipeline.ΦA spec1 c : sProp 𝕄) ⊢ iprop(iprop(otherScoped1 (F := F) c ∗ (∃ d, owns (c : Thread nD τ) scM1_0 fullShare d)) ∗ (∃ r, prngReg c r)) := by
  unfold Pipeline.ΦA; rw [scopedRest1_eq]; simp only [scM1_0, owns_whole]
  iintro ⟨⟨Ha, Hb, Hc, Hd, He, HS⟩, Hg⟩
  isplitl [Ha Hb Hc Hd He HS]
  · isplitl [Ha Hb Hc Hd He]
    · isplitl [Ha]; · iexact Ha
      isplitl [Hb]; · iexact Hb
      isplitl [Hc]; · iexact Hc
      isplitl [Hd]; · iexact Hd
      iexact He
    iexact HS
  iexact Hg

/-- And back. -/
theorem PhiA1_close (c : Dev nD) :
    iprop(iprop(otherScoped1 (F := F) c ∗ (∃ d, owns (c : Thread nD τ) scM1_0 fullShare d)) ∗ (∃ r, prngReg c r)) ⊢ (Pipeline.ΦA spec1 c : sProp 𝕄) := by
  unfold Pipeline.ΦA; rw [scopedRest1_eq]; simp only [scM1_0, owns_whole]
  iintro ⟨⟨⟨Ha, Hb, Hc, Hd, He⟩, HS⟩, Hg⟩
  isplitl [Ha Hb Hc Hd He HS]
  · isplitl [Ha]; · iexact Ha
    isplitl [Hb]; · iexact Hb
    isplitl [Hc]; · iexact Hc
    isplitl [Hd]; · iexact Hd
    isplitl [He]; · iexact He
    iexact HS
  iexact Hg

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each operand window's current staging buffer holds its block at every point, whether or not the point fetched
    it: an operand that is not fetched has the block index of the point before, and the body leaves operand buffers
    as it finds them. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation -/

/-- What the body is called with at point `t`, the five windows written out, -/
def bodyPre1 (c : Dev nD) (t : Fin cfg1.N) : sProp 𝕄 :=
  iprop((dat1 V c).Φ t.castSucc ∗ (dat1 V c).owesAt () t.castSucc
    ∗ (∃ d, owns (c : Thread nD τ) (adjM t) fullShare ((dat1 V c).before 0 t d))
    ∗ (∃ d, owns (c : Thread nD τ) (srcM t) fullShare ((dat1 V c).before 1 t d))
    ∗ (∃ d, owns (c : Thread nD τ) (dstM t) fullShare ((dat1 V c).before 2 t d))
    ∗ (∃ d, owns (c : Thread nD τ) (featM t) fullShare ((dat1 V c).before 3 t d))
    ∗ (∃ d, owns (c : Thread nD τ) (resM t) fullShare ((dat1 V c).before 4 t d)))

/-- and what it must return. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point. The operand buffers hold their blocks; the column block decides which of the three runs
    applies; the invariant supplies the accumulator (at anything at the very first point, else at what the point before
    left) and takes it back at this point's contents, the written pieces covering the block; the five other scoped
    buffers, the generator register and what the core owes pass through untouched; where the result window is idle its
    buffer is returned as found, at the last column block it is returned at the pieces written, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (adjM t) fullShare ((dat1 V c).after 0 t) from by
    unfold Dat.leavesExact; rw [live1_0 t], after1_0]
  rw [show (dat1 V c).leavesExact 1 t = owns (c : Thread nD τ) (srcM t) fullShare ((dat1 V c).after 1 t) from by
    unfold Dat.leavesExact; rw [live1_1 t], after1_1]
  rw [show (dat1 V c).leavesExact 2 t = owns (c : Thread nD τ) (dstM t) fullShare ((dat1 V c).after 2 t) from by
    unfold Dat.leavesExact; rw [live1_2 t], after1_2]
  rw [show (dat1 V c).leavesExact 3 t = owns (c : Thread nD τ) (featM t) fullShare ((dat1 V c).after 3 t) from by
    unfold Dat.leavesExact; rw [live1_3 t], after1_3]
  have hN : t.val < 64 := lt_of_lt_of_eq t.isLt (show cfg1.N = 64 from N_1)
  by_cases h0 : t.val % 16 = 0
  · have hc0 : atColStart (grid1.coords t) := (atColStart_iff t).mpr h0
    have hc1 : ¬atColEnd (grid1.coords t) := not_end_of_start t h0
    rw [Dat.leavesExact_idle (dat1 V c) 4 t (idle1_4_of_not_end t hc1) (noFlush1_4_of_not_end t hc1)]
    rw [outsAt1_at_start V c t h0]
    unfold accAfter_restart; (try dsimp only)
    by_cases hz : t.val = 0
    · rw [PhiS1_castSucc V c t, PhiS1_zero V c _ _ hz]
      iintro ⟨⟨⟨Hsc, HS⟩, Hg⟩, Ho, ⟨%d0, H0⟩, ⟨%d1, H1⟩, ⟨%d2, H2⟩, ⟨%d3, H3⟩, H4⟩
      iapply ((aggRun_restart c (grid1.coords t) _ _ _ _ _ _ _ _ _ _ _ _ hc0 hc1 (iblk1 V c 0 t) (iblk1 V c 1 t) (iblk1 V c 2 t) (iblk1 V c 3 t)).2 Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hsc HS Hg]
      · isplitl [Hsc HS]
        · isplitl [Hsc]; · iexact Hsc
          unfold owns; iexists _; isplitr
          swap; · iexact HS
          ipureintro; exact View.read_writes_of_cover _ _ _ _ _ (accCover_restart c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexact H4
    · rw [PhiS1_castSucc V c t, PhiS1_pos V c _ _ hz]
      iintro ⟨⟨⟨Hsc, HS⟩, Hg⟩, Ho, ⟨%d0, H0⟩, ⟨%d1, H1⟩, ⟨%d2, H2⟩, ⟨%d3, H3⟩, H4⟩
      iapply ((aggRun_restart c (grid1.coords t) _ _ _ _ _ _ _ _ _ _ _ _ hc0 hc1 (iblk1 V c 0 t) (iblk1 V c 1 t) (iblk1 V c 2 t) (iblk1 V c 3 t)).2 Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Hsc HS Hg]
      · isplitl [Hsc HS]
        · isplitl [Hsc]; · iexact Hsc
          unfold owns; iexists _; isplitr
          swap; · iexact HS
          ipureintro; exact View.read_writes_of_cover _ _ _ _ _ (accCover_restart c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexact H4
  · have hc0 : ¬atColStart (grid1.coords t) := fun h => h0 ((atColStart_iff t).mp h)
    have hz : t.val ≠ 0 := fun e => h0 (by rw [e])
    by_cases h1 : t.val % 16 = 15
    · have hc1 : atColEnd (grid1.coords t) := (atColEnd_iff t).mpr h1
      rw [show (dat1 V c).leavesExact 4 t = owns (c : Thread nD τ) (resM t) fullShare ((dat1 V c).after 4 t) from by
        unfold Dat.leavesExact; rw [live1_4_of_end t hc1], after1_4]
      rw [outsAt1_at_end V c t h1]
      unfold resAfter_last accAfter_last; (try dsimp only)
      rw [PhiS1_castSucc V c t, PhiS1_pos V c _ _ hz]
      iintro ⟨⟨⟨Hsc, HS⟩, Hg⟩, Ho, ⟨%d0, H0⟩, ⟨%d1, H1⟩, ⟨%d2, H2⟩, ⟨%d3, H3⟩, ⟨%d4, H4⟩⟩
      iapply ((aggRun_last c (grid1.coords t) _ _ _ _ _ _ _ _ _ _ _ _ hc0 hc1 (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [Hsc HS Hg]
      · isplitl [Hsc HS]
        · isplitl [Hsc]; · iexact Hsc
          unfold owns; iexists _; isplitr
          swap; · iexact HS
          ipureintro; exact View.read_writes_of_cover _ _ _ _ _ (accCover_last c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (resCover_last c _ _ _ _ _ _ _ _ _ _ _ _ _ _ _ _ _ _ _ _)
    · have hc1 : ¬atColEnd (grid1.coords t) := fun h => h1 ((atColEnd_iff t).mp h)
      rw [Dat.leavesExact_idle (dat1 V c) 4 t (idle1_4_of_not_end t hc1) (noFlush1_4_of_not_end t hc1)]
      rw [outsAt1_at_mid V c t h0 h1]
      unfold accAfter_mid; (try dsimp only)
      rw [PhiS1_castSucc V c t, PhiS1_pos V c _ _ hz]
      iintro ⟨⟨⟨Hsc, HS⟩, Hg⟩, Ho, ⟨%d0, H0⟩, ⟨%d1, H1⟩, ⟨%d2, H2⟩, ⟨%d3, H3⟩, H4⟩
      iapply ((aggRun_mid c (grid1.coords t) _ _ _ _ _ _ _ _ _ _ _ _ hc0 hc1 (iblk1 V c 0 t) (iblk1 V c 1 t) (iblk1 V c 2 t) (iblk1 V c 3 t) _).2 Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hsc HS Hg]
      · isplitl [Hsc HS]
        · isplitl [Hsc]; · iexact Hsc
          unfold owns; iexists _; isplitr
          swap; · iexact HS
          ipureintro; exact View.read_writes_of_cover _ _ _ _ _ (accCover_mid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexact H4

/-- The body obligation of the second call, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point; after the last point the invariant gives it back. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_open c
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  refine BIBase.Entails.trans ?_ (PhiA1_close c)
  iintro ⟨⟨Hsc, HS⟩, Hg⟩
  isplitl [Hsc HS]
  · isplitl [Hsc]; · iexact Hsc
    iexists _; iexact HS
  iexact Hg

/-! ## The accumulator's recurrence, for the value proof

Each run's pieces, read back, are the accumulation step applied to the blocks the run loaded: every load is of a whole
buffer at offset zero, so it returns the buffer's contents, and every store is of a whole block, so the latest store
is what is read back. -/

/-- All the body's rectangles start at the origin. -/
theorem zeroOff : (![0, 0] : Fin 2 → Nat) = fun _ => 0 := funext fun a => by fin_cases a <;> rfl

/-- Interior column block: one step from `acc`. -/
theorem accAfter_mid_eq (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : ¬atColEnd i) (x0 : Vec F S2048x512 .i32) (x1 : Vec F S2048x1 .f32) (x2 : Vec F S1x512 .f32) (x3 : Vec F S512x256 .f32) (acc : Vec F S2048x256 .f32) :
    accAfter_mid c i arg2 harg2 arg3 harg3 arg4 harg4 arg5 harg5 arg6 harg6 arg7 harg7 hc0 hc1 x0 x1 x2 x3 acc = k1_pay2 x1 x2 x0 acc x3 := by
  unfold accAfter_mid
  rw [View.read_writes_eq_canon _ _ _ (accCover_mid c i arg2 harg2 arg3 harg3 arg4 harg4 arg5 harg5 arg6 harg6 arg7 harg7 hc0 hc1 x0 x1 x2 x3 acc)]
  unfold aggRun_mid
  dsimp only
  try sl_unfold_words
  rw [View.canon_unit_zero (S := S2048x256) zeroOff]
  simp only [View.readAt_eq_ld, harg2.read_unread, harg3.read_unread, harg4.read_unread, harg5.read_unread, harg7.read_unread,
    View.ld_unit_zero (S := S2048x1) zeroOff, View.ld_unit_zero (S := S1x512) zeroOff, View.ld_unit_zero (S := S2048x512) zeroOff,
    View.ld_unit_zero (S := S2048x256) zeroOff, View.ld_unit_zero (S := S512x256) zeroOff]

/-- First column block: the later of the two stores is what remains, and the accumulator it loaded is the zero fill
    the earlier store had just left. -/
theorem accAfter_restart_eq (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : atColStart i) (hc1 : ¬atColEnd i) (x0 : Vec F S2048x512 .i32) (x1 : Vec F S2048x1 .f32) (x2 : Vec F S1x512 .f32) (x3 : Vec F S512x256 .f32) :
    accAfter_restart c i arg2 harg2 arg3 harg3 arg4 harg4 arg5 harg5 arg6 harg6 arg7 harg7 hc0 hc1 x0 x1 x2 x3 = k1_pay2 x1 x2 x0 (k1_pay1 (F := F)) x3 := by
  unfold accAfter_restart
  rw [View.read_writes_eq_canon _ _ _ (accCover_restart c i arg2 harg2 arg3 harg3 arg4 harg4 arg5 harg5 arg6 harg6 arg7 harg7 hc0 hc1 x0 x1 x2 x3)]
  unfold aggRun_restart
  dsimp only
  try sl_unfold_words
  rw [View.canon_cons_unit_zero (S := S2048x256) zeroOff, View.readCov_unit_zero (S := S2048x256) _ zeroOff]
  simp only [View.readAt_eq_ld, harg2.read_unread, harg3.read_unread, harg4.read_unread, harg5.read_unread, harg7.read_unread,
    View.ld_unit_zero (S := S2048x1) zeroOff, View.ld_unit_zero (S := S1x512) zeroOff, View.ld_unit_zero (S := S2048x512) zeroOff,
    View.ld_unit_zero (S := S2048x256) zeroOff, View.ld_unit_zero (S := S512x256) zeroOff]

/-- Last column block, the accumulator: one step from `acc`. -/
theorem accAfter_last_eq (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : atColEnd i) (x0 : Vec F S2048x512 .i32) (x1 : Vec F S2048x1 .f32) (x2 : Vec F S1x512 .f32) (x3 : Vec F S512x256 .f32) (acc : Vec F S2048x256 .f32) :
    accAfter_last c i arg2 harg2 arg3 harg3 arg4 harg4 arg5 harg5 arg6 harg6 arg7 harg7 hc0 hc1 x0 x1 x2 x3 acc = k1_pay2 x1 x2 x0 acc x3 := by
  unfold accAfter_last
  rw [View.read_writes_eq_canon _ _ _ (accCover_last c i arg2 harg2 arg3 harg3 arg4 harg4 arg5 harg5 arg6 harg6 arg7 harg7 hc0 hc1 x0 x1 x2 x3 acc)]
  unfold aggRun_last
  dsimp only
  try sl_unfold_words
  rw [View.canon_unit_zero (S := S2048x256) zeroOff]
  simp only [View.readAt_eq_ld, harg2.read_unread, harg3.read_unread, harg4.read_unread, harg5.read_unread, harg7.read_unread,
    View.ld_unit_zero (S := S2048x1) zeroOff, View.ld_unit_zero (S := S1x512) zeroOff, View.ld_unit_zero (S := S2048x512) zeroOff,
    View.ld_unit_zero (S := S2048x256) zeroOff, View.ld_unit_zero (S := S512x256) zeroOff]

/-- Last column block, the result buffer: the accumulator as just stored, read back and copied. -/
theorem resAfter_last_eq (c : Dev nD) (i : grid1.Coords) (arg2 : Memref sig .tc .vmem S2048x512 .i32) (harg2 : arg2.IsWhole) (arg3 : Memref sig .tc .vmem S2048x1 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S2048x256 .f32) (harg6 : arg6.IsWhole) (arg7 : Memref sig .tc .vmem S2048x256 .f32) (harg7 : arg7.IsWhole) (hc0 : ¬atColStart i) (hc1 : atColEnd i) (x0 : Vec F S2048x512 .i32) (x1 : Vec F S2048x1 .f32) (x2 : Vec F S1x512 .f32) (x3 : Vec F S512x256 .f32) (acc : Vec F S2048x256 .f32) :
    resAfter_last c i arg2 harg2 arg3 harg3 arg4 harg4 arg5 harg5 arg6 harg6 arg7 harg7 hc0 hc1 x0 x1 x2 x3 acc = k1_pay2 x1 x2 x0 acc x3 := by
  unfold resAfter_last
  rw [View.read_writes_eq_canon _ _ _ (resCover_last c i arg2 harg2 arg3 harg3 arg4 harg4 arg5 harg5 arg6 harg6 arg7 harg7 hc0 hc1 x0 x1 x2 x3 acc)]
  unfold aggRun_last
  dsimp only
  try sl_unfold_words
  rw [View.canon_unit_zero (S := S2048x256) zeroOff, View.readCov_unit_zero (S := S2048x256) _ zeroOff]
  simp only [View.readAt_eq_ld, harg2.read_unread, harg3.read_unread, harg4.read_unread, harg5.read_unread, harg7.read_unread,
    View.ld_unit_zero (S := S2048x1) zeroOff, View.ld_unit_zero (S := S1x512) zeroOff, View.ld_unit_zero (S := S2048x512) zeroOff,
    View.ld_unit_zero (S := S2048x256) zeroOff, View.ld_unit_zero (S := S512x256) zeroOff]

/-- At the first column block of a row block the accumulator restarts from zeros. -/
theorem scratch_first (c : Dev nD) (t : Fin cfg1.N) (h0 : t.val % 16 = 0) :
    (outsAt1 V c t.val t.isLt).2 = k1_pay2 (iblk1 V c 1 t) (iblk1 V c 2 t) (iblk1 V c 0 t) (k1_pay1 (F := F)) (iblk1 V c 3 t) := by
  rw [outsAt1_at_start V c t h0]; dsimp only
  exact accAfter_restart_eq c (grid1.coords t) (adjM t) (adjM_whole t) (srcM t) (srcM_whole t) (dstM t) (dstM_whole t) (featM t) (featM_whole t) (resM t) (resM_whole t) scM1_0 (Memref.isWhole_whole _) ((atColStart_iff t).mpr h0) (not_end_of_start t h0) (iblk1 V c 0 t) (iblk1 V c 1 t) (iblk1 V c 2 t) (iblk1 V c 3 t)

/-- At every other column block it continues from what the point before left. -/
theorem scratch_next (c : Dev nD) (t : Fin cfg1.N) (h0 : ¬t.val % 16 = 0) :
    (outsAt1 V c t.val t.isLt).2 = k1_pay2 (iblk1 V c 1 t) (iblk1 V c 2 t) (iblk1 V c 0 t) (outsAt1 V c (t.val - 1) (Nat.lt_of_le_of_lt (Nat.sub_le _ _) t.isLt)).2 (iblk1 V c 3 t) := by
  by_cases h1 : t.val % 16 = 15
  · rw [outsAt1_at_end V c t h1]; dsimp only
    exact accAfter_last_eq c (grid1.coords t) (adjM t) (adjM_whole t) (srcM t) (srcM_whole t) (dstM t) (dstM_whole t) (featM t) (featM_whole t) (resM t) (resM_whole t) scM1_0 (Memref.isWhole_whole _) (not_start_of_end t h1) ((atColEnd_iff t).mpr h1) (iblk1 V c 0 t) (iblk1 V c 1 t) (iblk1 V c 2 t) (iblk1 V c 3 t) (outsAt1 V c (t.val - 1) (Nat.lt_of_le_of_lt (Nat.sub_le _ _) t.isLt)).2
  · rw [outsAt1_at_mid V c t h0 h1]; dsimp only
    exact accAfter_mid_eq c (grid1.coords t) (adjM t) (adjM_whole t) (srcM t) (srcM_whole t) (dstM t) (dstM_whole t) (featM t) (featM_whole t) (resM t) (resM_whole t) scM1_0 (Memref.isWhole_whole _) (fun h => h0 ((atColStart_iff t).mp h)) (fun h => h1 ((atColEnd_iff t).mp h)) (iblk1 V c 0 t) (iblk1 V c 1 t) (iblk1 V c 2 t) (iblk1 V c 3 t) (outsAt1 V c (t.val - 1) (Nat.lt_of_le_of_lt (Nat.sub_le _ _) t.isLt)).2

/-- At the last column block the result window's staging buffer receives the accumulator. -/
theorem out_last (c : Dev nD) (t : Fin cfg1.N) (h1 : t.val % 16 = 15) :
    (outsAt1 V c t.val t.isLt).1 = (outsAt1 V c t.val t.isLt).2 := by
  rw [outsAt1_at_end V c t h1]; dsimp only
  exact (resAfter_last_eq c (grid1.coords t) (adjM t) (adjM_whole t) (srcM t) (srcM_whole t) (dstM t) (dstM_whole t) (featM t) (featM_whole t) (resM t) (resM_whole t) scM1_0 (Memref.isWhole_whole _) (not_start_of_end t h1) ((atColEnd_iff t).mpr h1) (iblk1 V c 0 t) (iblk1 V c 1 t) (iblk1 V c 2 t) (iblk1 V c 3 t) (outsAt1 V c (t.val - 1) (Nat.lt_of_le_of_lt (Nat.sub_le _ _) t.isLt)).2).trans
    (accAfter_last_eq c (grid1.coords t) (adjM t) (adjM_whole t) (srcM t) (srcM_whole t) (dstM t) (dstM_whole t) (featM t) (featM_whole t) (resM t) (resM_whole t) scM1_0 (Memref.isWhole_whole _) (not_start_of_end t h1) ((atColEnd_iff t).mpr h1) (iblk1 V c 0 t) (iblk1 V c 1 t) (iblk1 V c 2 t) (iblk1 V c 3 t) (outsAt1 V c (t.val - 1) (Nat.lt_of_le_of_lt (Nat.sub_le _ _) t.isLt)).2).symm

end Cert.KernelIdeal.Frame

end
-- ==== Proof.Run.lean ====
/-
  The whole run of the program at any float instance: @main is two stretches of host operations and two kernel calls,

      slices of a  →  call 0 (h = x·W, row block by row block)  →  the two scores h·a₁, h·a₂ and the reshape
                   →  call 1 (the masked logits times h, accumulated over column blocks)

  and this module follows the memory through them. The contents of core c's buffers are named at each of the five
  boundaries (`mem0` at launch … `mem4` at the return): a host stretch applies its operations to the contents before
  it; a kernel call leaves each of its windows' arrays at what its write-backs make of it (the inputs as they were)
  and every other buffer alone. Each call is entered with the buffers at the boundary's contents, its proof data
  taken at exactly those contents, and left at the next boundary's; beside the buffers ride the generator register and
  the core's (empty) debts. The run theorem reads, off the last boundary, the four arguments — no host operation and no
  call writes one, so each is still what was launched — and the result array, which is what call 1's write-backs leave.
-/
import proofs.«102622_j57698590654935_1_alg».proof.Proof.R0Body
import proofs.«102622_j57698590654935_1_alg».proof.Proof.R1Body
import proofs.«102622_j57698590654935_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- Core `c`'s buffers at launch. -/
abbrev mem0 : Dev nD → Valuation τ sig (Elt F) := fun c b => m (c, b)
/-- After the two slices of a (call 0's entry). -/
abbrev mem1 : Dev nD → Valuation τ sig (Elt F) := fun c => StableHlo.after hostOps0 (mem0 m c)
/-- The same read at the TensorCore's references: what call 0's proof data take. -/
abbrev ent0 : (c : Dev nD) → (b : Ref sig .tc) → Buf (Elt F) ((c : Thread nD τ).loc b) := fun c b => mem1 m c b
/-- At call 0's exit: its arrays at what the write-backs leave, every other buffer as entered. -/
def mem2 (c : Dev nD) : Valuation τ sig (Elt F) :=
  Pipeline.withArrays spec0 c (mem1 m c) fun w => (dat0 (ent0 m) c).arrAt w cfg0.N
theorem mem2_arr (c : Dev nD) (w : Fin cfg0.W) :
    mem2 m c (Proc.devRef .tc (Pipeline.arrRef spec0 w)) = (dat0 (ent0 m) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m c (Proc.devRef .tc b) = mem1 m c (Proc.devRef .tc b) := by
  unfold mem2; exact Pipeline.withArrays_of_ne spec0 c _ _ b hb
abbrev exit0 : (c : Dev nD) → (b : Ref sig .tc) → Buf (Elt F) ((c : Thread nD τ).loc b) := fun c b => mem2 m c b
theorem left0 (c : Dev nD) (w : Fin cfg0.W) : (dat0 (ent0 m) c).arrAt w cfg0.N = exit0 m c (Pipeline.arrRef spec0 w) :=
  (mem2_arr m c w).symm
theorem kept0 (c : Dev nD) : ∀ b, b ∉ Finset.univ.image (Pipeline.arrRef spec0) → exit0 m c b = ent0 m c b :=
  fun b hb => mem2_of_ne m c b fun w e => hb (Finset.mem_image.mpr ⟨w, Finset.mem_univ _, e⟩)

/-- After the two scores and the reshape (call 1's entry). -/
abbrev mem3 : Dev nD → Valuation τ sig (Elt F) := fun c => StableHlo.after hostOps1 (mem2 m c)
abbrev ent1 : (c : Dev nD) → (b : Ref sig .tc) → Buf (Elt F) ((c : Thread nD τ).loc b) := fun c b => mem3 m c b
/-- At call 1's exit (the return). -/
def mem4 (c : Dev nD) : Valuation τ sig (Elt F) :=
  Pipeline.withArrays spec1 c (mem3 m c) fun w => (dat1 (ent1 m) c).arrAt w cfg1.N
theorem mem4_arr (c : Dev nD) (w : Fin cfg1.W) :
    mem4 m c (Proc.devRef .tc (Pipeline.arrRef spec1 w)) = (dat1 (ent1 m) c).arrAt w cfg1.N := by
  unfold mem4; exact Pipeline.withArrays_arr spec1 launch1.win.arr_inj c _ _ w
theorem mem4_of_ne (c : Dev nD) (b : Ref sig .tc) (hb : ∀ w, Pipeline.arrRef spec1 w ≠ b) :
    mem4 m c (Proc.devRef .tc b) = mem3 m c (Proc.devRef .tc b) := by
  unfold mem4; exact Pipeline.withArrays_of_ne spec1 c _ _ b hb
abbrev exit1 : (c : Dev nD) → (b : Ref sig .tc) → Buf (Elt F) ((c : Thread nD τ).loc b) := fun c b => mem4 m c b
theorem left1 (c : Dev nD) (w : Fin cfg1.W) : (dat1 (ent1 m) c).arrAt w cfg1.N = exit1 m c (Pipeline.arrRef spec1 w) :=
  (mem4_arr m c w).symm
theorem kept1 (c : Dev nD) : ∀ b, b ∉ Finset.univ.image (Pipeline.arrRef spec1) → exit1 m c b = ent1 m c b :=
  fun b hb => mem4_of_ne m c b fun w e => hb (Finset.mem_image.mpr ⟨w, Finset.mem_univ _, e⟩)

/-! ## What each stretch of host operations leaves alone -/

theorem mem1_of (c : Dev nD) (r : Ref sig .tc) (h : r ∉ hostOps0_W) : mem1 m c (Proc.devRef .tc r) = mem0 m c (Proc.devRef .tc r) :=
  StableHlo.after_of_writes_sub hostOps0 _ hostOps0_writes h
theorem mem3_of (c : Dev nD) (r : Ref sig .tc) (h : r ∉ hostOps1_W) : mem3 m c (Proc.devRef .tc r) = mem2 m c (Proc.devRef .tc r) :=
  StableHlo.after_of_writes_sub hostOps1 _ hostOps1_writes h

/-! ## The arguments reach the return as launched -/

theorem mem4_main_arg0 (c : Dev nD) : mem4 m c (Proc.devRef .tc main_arg0) = m ((c : Thread nD τ).loc main_arg0) :=
  calc mem4 m c (Proc.devRef .tc main_arg0)
    _ = mem3 m c (Proc.devRef .tc main_arg0) := mem4_of_ne m c main_arg0 (by decide)
    _ = mem2 m c (Proc.devRef .tc main_arg0) := mem3_of m c main_arg0 (by decide)
    _ = mem1 m c (Proc.devRef .tc main_arg0) := (mem2_arr m c 0).trans (((dat0 (ent0 m) c).arrAt_in 0 rfl _).trans (A_eq0 (ent0 m) c 0))
    _ = mem0 m c (Proc.devRef .tc main_arg0) := mem1_of m c main_arg0 (by decide)
    _ = m ((c : Thread nD τ).loc main_arg0) := rfl
theorem mem4_main_arg1 (c : Dev nD) : mem4 m c (Proc.devRef .tc main_arg1) = m ((c : Thread nD τ).loc main_arg1) :=
  calc mem4 m c (Proc.devRef .tc main_arg1)
    _ = mem3 m c (Proc.devRef .tc main_arg1) := mem4_of_ne m c main_arg1 (by decide)
    _ = mem2 m c (Proc.devRef .tc main_arg1) := mem3_of m c main_arg1 (by decide)
    _ = mem1 m c (Proc.devRef .tc main_arg1) := (mem2_arr m c 1).trans (((dat0 (ent0 m) c).arrAt_in 1 rfl _).trans (A_eq0 (ent0 m) c 1))
    _ = mem0 m c (Proc.devRef .tc main_arg1) := mem1_of m c main_arg1 (by decide)
    _ = m ((c : Thread nD τ).loc main_arg1) := rfl
theorem mem4_main_arg2 (c : Dev nD) : mem4 m c (Proc.devRef .tc main_arg2) = m ((c : Thread nD τ).loc main_arg2) :=
  calc mem4 m c (Proc.devRef .tc main_arg2)
    _ = mem3 m c (Proc.devRef .tc main_arg2) := mem4_of_ne m c main_arg2 (by decide)
    _ = mem2 m c (Proc.devRef .tc main_arg2) := mem3_of m c main_arg2 (by decide)
    _ = mem1 m c (Proc.devRef .tc main_arg2) := mem2_of_ne m c main_arg2 (by decide)
    _ = mem0 m c (Proc.devRef .tc main_arg2) := mem1_of m c main_arg2 (by decide)
    _ = m ((c : Thread nD τ).loc main_arg2) := rfl
theorem mem4_main_arg3 (c : Dev nD) : mem4 m c (Proc.devRef .tc main_arg3) = m ((c : Thread nD τ).loc main_arg3) :=
  calc mem4 m c (Proc.devRef .tc main_arg3)
    _ = mem3 m c (Proc.devRef .tc main_arg3) := (mem4_arr m c 0).trans (((dat1 (ent1 m) c).arrAt_in 0 rfl _).trans (A_eq1 (ent1 m) c 0))
    _ = mem2 m c (Proc.devRef .tc main_arg3) := mem3_of m c main_arg3 (by decide)
    _ = mem1 m c (Proc.devRef .tc main_arg3) := mem2_of_ne m c main_arg3 (by decide)
    _ = mem0 m c (Proc.devRef .tc main_arg3) := mem1_of m c main_arg3 (by decide)
    _ = m ((c : Thread nD τ).loc main_arg3) := rfl
/-- The result array at the return is what call 1's write-backs leave of it. -/
theorem mem4_main_v6 (c : Dev nD) : mem4 m c (Proc.devRef .tc main_v6) = (dat1 (ent1 m) c).arrAt 4 cfg1.N :=
  mem4_arr m c 4

/-! ## The proof data family and what rides beside the buffers -/

/-- Both calls' proof data, each at its call's entry contents. -/
def callData : (p : Fin 2) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
abbrev noVariants : Variants := Variants.none
/-- No core owes another anything: no level is assigned. -/
abbrev noPairs : GSem nD τ sig → Finset Unit := fun _ => ∅
abbrev noLevel : GSem nD τ sig → Unit → ℕ := fun _ _ => 0
/-- Beside the buffers through every item: the core's generator register at some state and its debts, none. -/
abbrev beside (c : Dev nD) : sProp 𝕄 := iprop((∃ r, prngReg c r) ∗ ∃ W, owes (c : Thread nD τ) (0 : CellTallies nD τ sig Unit) W)
/-- A stretch of host operations as an item of the run, from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the return's contents, the register at some state. -/
abbrev atReturn (c : Dev nD) : sProp 𝕄 := iprop(StableHlo.held (c : Thread nD τ) (Pipeline.ucRefs τ sig) (mem4 m c) ∗ ∃ r, prngReg c r)

/-! ## The two calls as items of the run -/

set_option backward.isDefEq.respectTransparency.types false in
/-- CALL 0: entered with every unscoped buffer at `mem1`, left at `mem2`. Its three arrays are taken out of the
    unscoped buffers and put back at the exit contents; the generator register goes into the call's invariant and
    comes out; nothing is owed; the kernel has no semaphore of its own. -/
def call0 : Pipeline.RegionSeg (pcfgs (F := F)) adm (callData m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ noPairs noLevel 0 fun _ _ => rfl
  pre c := iprop(StableHlo.held (c : Thread nD τ) (Pipeline.ucRefs τ sig) (mem1 m c) ∗ beside c)
  post c := iprop(StableHlo.held (c : Thread nD τ) (Pipeline.ucRefs τ sig) (mem2 m c) ∗ beside c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (callData m) launch0.win launch0.arr_whole c
      ((callData m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (callData m 0 c).Φ 0 = Pipeline.ΦA spec0 c from rfl]; unfold Pipeline.ΦA
    iintro ⟨Hp, -, Hr⟩
    isplitl [Hr]; · iexact Hr
    iexact Hp
  hout c := by
    rw [Pipeline.ownSems0_none, show (callData m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (callData m) ((callData m 0 c).share_full fun _ => rfl)
      (ent0 m c) (exit0 m c) ((callData m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1: entered with every unscoped buffer at `mem3`, left at `mem4` (what the return reads). The register and the
    scoped buffers no window stages — the carried accumulator among them — make the invariant before the first point
    (`hin1`), and the invariant after the last point gives them back with the accumulator's contents forgotten (`hout1`). -/
def call1 : Pipeline.RegionSeg (pcfgs (F := F)) adm (callData m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ noPairs noLevel 1 fun _ _ => rfl
  pre c := iprop(StableHlo.held (c : Thread nD τ) (Pipeline.ucRefs τ sig) (mem3 m c) ∗ beside c)
  post c := iprop(atReturn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (callData m) launch1.win launch1.arr_whole c
      ((callData m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (Pipeline.ΦA spec1 c : sProp 𝕄) ⊢ (callData m 1 c).Φ 0 := hin1 (ent1 m) c
    unfold Pipeline.ΦA at h1
    iintro ⟨Hp, -, Hr⟩
    iapply h1
    isplitl [Hr]; · iexact Hr
    iexact Hp
  hout c := by
    rw [Pipeline.ownSems0_none]
    have h1 : (callData m 1 c).Φ (Fin.last _) ⊢ (Pipeline.ΦA spec1 c : sProp 𝕄) := hout1 (ent1 m) c
    unfold Pipeline.ΦA at h1
    have h2 : (iprop(Pipeline.scopedRest spec1 c ∗ ∃ r, prngReg c r) : sProp 𝕄)
        ⊢ iprop((∃ r, prngReg c r) ∗ BI.emp ∗ Pipeline.scopedRest spec1 c) := by
      iintro ⟨Hr, Hp⟩
      isplitl [Hp]; · iexact Hp
      isplitr; · iempintro
      iexact Hr
    exact h1.trans h2
  hexit c := by
    have hjoin := Pipeline.unscopedBufs_of_arrays (p := 1) (pcfgs (F := F)) adm (Ix := Unit) (Name := ℕ) (U := UR sig nD τ) (Lvl := ℕ)
      launch1.win launch1.arr_whole c (callData m) ((callData m 1 c).share_full fun _ => rfl)
      (ent1 m c) (exit1 m c) ((callData m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four items, and the launch -/

abbrev items : List (Pipeline.Seg (pcfgs (F := F)) adm (callData m) () defs₀ noVariants noPairs noLevel) :=
  [ .host (hostItem hostOps0 hostOps0_sub hostOps0_fresh (mem0 m)),
    .region (call0 m),
    .host (hostItem hostOps1 hostOps1_sub hostOps1_fresh (mem2 m)),
    .region (call1 m) ]
/-- @main IS the run of its items. -/
theorem main_items (c : Dev nD) : main (F := F) c = Pipeline.Seg.run (items m) := (main_chain c).trans (by chain_rfl)

set_option backward.isDefEq.respectTransparency.types false in
/-- THE RUN: from any memory with zero counters every weakly fair execution of @main terminates, nothing faulting, and
    every final state holds each unscoped buffer of each core at the return's contents `mem4`. -/
theorem run_to_return : θ_run defs (onTc (τ := τ) (main (F := F))) ⟨m, fun _ => 0, ρ⟩ (fun r => ∀ c : Dev nD,
      ∀ b ∈ Pipeline.ucRefs τ sig, r.2.mem (((c : Thread nD τ)).1, b) = mem4 m c b) :=
  Pipeline.θ_run_regions_kit (pcfgs (F := F)) adm (callData m) () cellOf_inj emb₁ defs₀ noVariants noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ beside c)) (Tₙ := atReturn m)
    (hch := ⟨fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem4 m c b)
    (hfin := fun c s' => by
      iintro ⟨⟨Hh, -⟩, HSI⟩
      unfold StableHlo.held
      imodintro
      iapply (pointsTo_read_all (Pipeline.ucRefs τ sig) (fun b => (((c : Thread nD τ)).1, b)) (mem4 m c) s')
      isplitl [Hh] <;> iassumption)
    (hQ := fun s h c => h c)

/-- THE FRAME, at any float instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_unscoped main_arg0 (by decide))).trans (mem4_main_arg0 m c),
     (h c _ (mem_unscoped main_arg1 (by decide))).trans (mem4_main_arg1 m c),
     (h c _ (mem_unscoped main_arg2 (by decide))).trans (mem4_main_arg2 m c),
     (h c _ (mem_unscoped main_arg3 (by decide))).trans (mem4_main_arg3 m c)⟩) (run_to_return m ρ)

/-- The same run with the result array named: it ends at what call 1's write-backs leave of it. -/
theorem run_result : θ_run defs (onTc (τ := τ) (main (F := F))) ⟨m, fun _ => 0, ρ⟩ (fun r => ∀ c : Dev nD,
      r.2.mem ((c.tc : Thread nD τ).loc main_v6) = (dat1 (ent1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_unscoped main_v6 (by decide))).trans (mem4_main_v6 m c),
     (h c _ (mem_unscoped main_arg0 (by decide))).trans (mem4_main_arg0 m c),
     (h c _ (mem_unscoped main_arg1 (by decide))).trans (mem4_main_arg1 m c),
     (h c _ (mem_unscoped main_arg2 (by decide))).trans (mem4_main_arg2 m c),
     (h c _ (mem_unscoped main_arg3 (by decide))).trans (mem4_main_arg3 m c)⟩) (run_to_return m ρ)

end Cert.KernelIdeal.Frame

end
-- ==== Proof.Spec.lean ====
/-
  The layer as one function of its four inputs, entry by entry, over the extended reals.

  With node features x (8192 × 512), weights W (512 × 256), attention vector a (512 × 1, its upper half a₁ = a[0:256] scoring
  the source node and its lower half a₂ = a[256:512] the target node) and adjacency adj (8192 × 8192 integers):

    feat r c      = Σ_k x[r,k] · W[k,c]                                  the projected features h = x·W
    srcScore r    = Σ_c feat r c · a[c]                                    h·a₁
    dstScore j    = Σ_c feat j c · a[256 + c]                              h·a₂
    weight r j    = srcScore r + dstScore j   if adj[r,j] > 0 (signed),    the masked attention logits
                    the constant -9·10¹⁵ (as a binary32 word)  otherwise
    layer (r, c)  = Σ_j weight r j · feat j c                              attention · h

  Nothing here mentions a program: both programs are compared with this function.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![8192, 512]⟩
abbrev SW : Shape := ⟨2, ![512, 256]⟩
abbrev SA : Shape := ⟨2, ![512, 1]⟩
abbrev SAdj : Shape := ⟨2, ![8192, 8192]⟩
abbrev SOut : Shape := ⟨2, ![8192, 256]⟩

/-- Entry (r, c) of the projected features x·W. -/
def feat (x : SX.Idx → EReal) (W : SW.Idx → EReal) (r : Fin 8192) (c : Fin 256) : EReal :=
  ∑ k : Fin 512, x (ix2 r k) * W (ix2 k c)

/-- The source score of node r: its projected features against the upper half of a. -/
def srcScore (x : SX.Idx → EReal) (W : SW.Idx → EReal) (a : SA.Idx → EReal) (r : Fin 8192) : EReal :=
  ∑ c : Fin 256, feat x W r c * a (ix2 (⟨c.val, by omega⟩ : Fin 512) (0 : Fin 1))

/-- The target score of node j: its projected features against the lower half of a. -/
def dstScore (x : SX.Idx → EReal) (W : SW.Idx → EReal) (a : SA.Idx → EReal) (j : Fin 8192) : EReal :=
  ∑ c : Fin 256, feat x W j c * a (ix2 (⟨256 + c.val, by omega⟩ : Fin 512) (0 : Fin 1))

/-- The value standing for "no edge": the binary32 word of -9·10¹⁵, the same word in both programs. -/
def noEdge : EReal := FloatOps.ofBits (F := Ideal) .f32 0xD9FFCB9E#32

/-- The masked attention logit of the pair (r, j). -/
def weight (x : SX.Idx → EReal) (W : SW.Idx → EReal) (a : SA.Idx → EReal) (adj : SAdj.Idx → BitVec 32) (r j : Fin 8192) : EReal :=
  Scalar.select (IntOp.cmpi .sgt (adj (ix2 r j)) 0#32) (srcScore x W a r + dstScore x W a j) noEdge

/-- Entry (r, c) of the layer's result: the logits of row r against column c of the projected features. -/
def layerAt (x : SX.Idx → EReal) (W : SW.Idx → EReal) (a : SA.Idx → EReal) (adj : SAdj.Idx → BitVec 32) (r : Fin 8192) (c : Fin 256) : EReal :=
  ∑ j : Fin 8192, weight x W a adj r j * feat x W j c

/-- The layer's result as an array. -/
def layer (x : SX.Idx → EReal) (W : SW.Idx → EReal) (a : SA.Idx → EReal) (adj : SAdj.Idx → BitVec 32) : SOut.Idx → EReal :=
  fun i => layerAt x W a adj (i 0) (i 1)

theorem layer_ix2 (x : SX.Idx → EReal) (W : SW.Idx → EReal) (a : SA.Idx → EReal) (adj : SAdj.Idx → BitVec 32) (r : Fin 8192) (c : Fin 256) :
    layer x W a adj (ix2 r c) = layerAt x W a adj r c := rfl

end Cert.Spec

end
-- ==== Proof.R0Value.lean ====
import proofs.«102622_j57698590654935_1_alg».proof.Proof.R0Body
import proofs.«102622_j57698590654935_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.FrameValue

open Cert.KernelIdeal Cert.KernelIdeal.Gen Cert.KernelIdeal.Frame
open Idealize.ShloMosaic Idealize.ShloMosaic.TcCoe Idealize.SL.Sem
open Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

/-! ## The body's product, entry by entry -/

/-- The left operand is read at the result's row … -/
theorem left_row (i : S1024x256.Idx) (q : Cert.KernelIdeal.dot_S1024x512_S512x256_S1024x256_1_0_0_1_n_n.contr.Idx) :
    (Cert.KernelIdeal.dot_S1024x512_S512x256_S1024x256_1_0_0_1_n_n.lhsIdx i q 0).val = (i 0).val := by
  unfold DotDims.lhsIdx
  rw [dif_neg (show ¬(0 : Fin S1024x512.rank) ∈ Cert.KernelIdeal.dot_S1024x512_S512x256_S1024x256_1_0_0_1_n_n.lhsBatch by decide), dif_pos (show (0 : Fin S1024x512.rank) ∈ Cert.KernelIdeal.dot_S1024x512_S512x256_S1024x256_1_0_0_1_n_n.lhsNonContracting by decide)]
  rfl
/-- … and at the summation index along its columns; -/
theorem left_col (i : S1024x256.Idx) (q : Cert.KernelIdeal.dot_S1024x512_S512x256_S1024x256_1_0_0_1_n_n.contr.Idx) :
    (Cert.KernelIdeal.dot_S1024x512_S512x256_S1024x256_1_0_0_1_n_n.lhsIdx i q 1).val = (q ⟨0, by decide⟩).val :=
  Cert.KernelIdeal.dot_S1024x512_S512x256_S1024x256_1_0_0_1_n_n.lhsIdx_val_of_single rfl i q
/-- the right operand at the summation index along its rows … -/
theorem right_row (i : S1024x256.Idx) (q : Cert.KernelIdeal.dot_S1024x512_S512x256_S1024x256_1_0_0_1_n_n.contr.Idx) :
    (Cert.KernelIdeal.dot_S1024x512_S512x256_S1024x256_1_0_0_1_n_n.rhsIdx i q 0).val = (q ⟨0, by decide⟩).val :=
  Cert.KernelIdeal.dot_S1024x512_S512x256_S1024x256_1_0_0_1_n_n.rhsIdx_val_of_single rfl i q
/-- … and at the result's column. -/
theorem right_col (i : S1024x256.Idx) (q : Cert.KernelIdeal.dot_S1024x512_S512x256_S1024x256_1_0_0_1_n_n.contr.Idx) :
    (Cert.KernelIdeal.dot_S1024x512_S512x256_S1024x256_1_0_0_1_n_n.rhsIdx i q 1).val = (i 1).val := by
  unfold DotDims.rhsIdx
  rw [dif_neg (show ¬(1 : Fin S512x256.rank) ∈ Cert.KernelIdeal.dot_S1024x512_S512x256_S1024x256_1_0_0_1_n_n.rhsBatch by decide), dif_pos (show (1 : Fin S512x256.rank) ∈ Cert.KernelIdeal.dot_S1024x512_S512x256_S1024x256_1_0_0_1_n_n.rhsNonContracting by decide)]
  rfl

/-- Entry (p, q) of what the body stores: row p of the block of x against column q of the weights. The two narrowings
    to the 16-bit format are the identity on extended reals and the accumulator the product starts from is zero. -/
theorem product_entry (x0 : Vec Ideal S1024x512 .f32) (x1 : Vec Ideal S512x256 .f32) (p : Fin 1024) (q : Fin 256) :
    Gen.k0_pay1 (F := Ideal) x0 x1 (ix2 p q) = ∑ k : Fin 512, x0 (ix2 p k) * x1 (ix2 k q) := by
  unfold Gen.k0_pay1
  simp only [matmul]
  rw [Ideal.matmul_constant_zero_apply, ← Equiv.sum_comp (ValueIdx.contrEquiv1 Cert.KernelIdeal.dot_S1024x512_S512x256_S1024x256_1_0_0_1_n_n 512 rfl rfl).symm]
  refine Finset.sum_congr rfl fun k _ => ?_
  have hk := ValueIdx.contrEquiv1_symm_val Cert.KernelIdeal.dot_S1024x512_S512x256_S1024x256_1_0_0_1_n_n 512 rfl rfl k
  have el : Cert.KernelIdeal.dot_S1024x512_S512x256_S1024x256_1_0_0_1_n_n.lhsIdx (ix2 p q) ((ValueIdx.contrEquiv1 Cert.KernelIdeal.dot_S1024x512_S512x256_S1024x256_1_0_0_1_n_n 512 rfl rfl).symm k) = ix2 p k := funext fun a => Fin.ext (by
    match a with
    | ⟨0, _⟩ => exact left_row _ _
    | ⟨1, _⟩ => exact (left_col _ _).trans hk)
  have er : Cert.KernelIdeal.dot_S1024x512_S512x256_S1024x256_1_0_0_1_n_n.rhsIdx (ix2 p q) ((ValueIdx.contrEquiv1 Cert.KernelIdeal.dot_S1024x512_S512x256_S1024x256_1_0_0_1_n_n 512 rfl rfl).symm k) = ix2 k q := funext fun a => Fin.ext (by
    match a with
    | ⟨0, _⟩ => exact (right_row _ _).trans hk
    | ⟨1, _⟩ => exact right_col _ _)
  rw [el, er]
  rfl

/-! ## From the eight row blocks to the whole array -/

theorem zero_offsets : (![0, 0] : Fin 2 → Nat) = fun _ => 0 := funext fun a => by fin_cases a <;> rfl

/-- The projected features x·W as an array over the region-entry contents: entry (r, c) is row r of x against column c
    of W. -/
abbrev featArr (c : Dev nD) : S8192x256.Idx → EReal :=
  fun i => Cert.Spec.feat (V c main_arg0) (V c main_arg1) (i 0) (i 1)

/-- The three index maps over the eight points, decided once: point t takes row block t of x and of the result, all
    512 columns of x and all 256 of the result; the weights' one block stays at the origin. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projected features: entry (p, q) of the stored product is row p of
    x's block — row 1024·t + p of x — against column q of the weights, and block t of the result array starts at row
    1024·t, column 0. -/
theorem flushed_block (c : Dev nD) (t : Fin cfg0.N) :
    (dat0 (F := Ideal) V c).flushed 2 t = ((cfg0.win 2).blk t).view.read (Elt Ideal) (featArr V c) := by
  show (cfg0.win 2).cut (grid0.coords t) ((dat0 V c).after 2 t) = _
  rw [after0_2]
  unfold out0_2
  rw [View.canon_unit_zero zero_offsets]
  simp only [View.ld_unit_zero (S := S1024x512) zero_offsets, View.ld_unit_zero (S := S512x256) zero_offsets]
  obtain ⟨e00, e01, e10, e11, e20, e21⟩ := block_indices t
  funext j
  obtain ⟨p, q, rfl⟩ : ∃ (p : Fin 1024) (q : Fin 256), j = ix2 p q := ⟨j 0, j 1, eq_ix2 j⟩
  refine (product_entry (iblk0 V c 0 t) (iblk0 V c 1 t) p q).trans ?_
  show _ = Cert.Spec.feat (V c main_arg0) (V c main_arg1) ((((cfg0.win 2).blk t).view.emb (ix2 p q)) 0) ((((cfg0.win 2).blk t).view.emb (ix2 p q)) 1)
  unfold Cert.Spec.feat
  refine Finset.sum_congr rfl fun k _ => ?_
  congr 1
  · show V c main_arg0 (((cfg0.win 0).blk t).view.emb (ix2 p k)) = V c main_arg0 _
    congr 1; funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 512 + 1 * k.val = k.val; omega
  · show V c main_arg1 (((cfg0.win 1).blk t).view.emb (ix2 k q)) = V c main_arg1 _
    congr 1; funext a; apply Fin.ext
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega

/-- An index of the result array lies in point t's block iff each coordinate lies in the block's range on its axis. -/
theorem mem_row_block (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v2).slice (win0_2.rect t)).set ↔ _
  rw [View.set_slice_whole, Rect.mem_set_unit]
  exact Iff.rfl

/-- Every entry of the result array is written back by some point: row r by point r / 1024. -/
theorem rows_covered (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 8 := rfl
  let t : Fin cfg0.N := ⟨(i 0).val / 1024, by rw [hN]; omega⟩
  obtain ⟨-, -, -, -, e20, e21⟩ := block_indices t
  have ht : t.val = (i 0).val / 1024 := rfl
  refine ⟨t, flush0_2 t, ?_⟩
  rw [mem_row_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- After the eight points the result array of the first call holds the projected features x·W, entry by entry. -/
theorem feat_array (c : Dev nD) : (dat0 (F := Ideal) V c).arrAt 2 cfg0.N = (fun i => Cert.Spec.feat (V c main_arg0) (V c main_arg1) (i 0) (i 1)) :=
  (dat0 V c).arrAt_eq_of_cover 2 (featArr V c) (fun t _ => flushed_block V c t) (rows_covered)

end Cert.KernelIdeal.FrameValue

end
-- ==== Proof.KHost.lean ====
/-
  What the host operations between the two calls compute, entry by entry, and with it the arrays call 1 is entered with:
  the projected features h = x·W (call 0's result), the source scores h·a₁ as a column, the target scores h·a₂ reshaped
  into a row, and the adjacency untouched. Every sum here is the specification's own sum; nothing is rearranged.
-/
import proofs.«102622_j57698590654935_1_alg».proof.Proof.Run
import proofs.«102622_j57698590654935_1_alg».proof.Proof.R0Value
import proofs.«102622_j57698590654935_1_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.FrameValue

open Cert.KernelIdeal Cert.KernelIdeal.Gen Cert.KernelIdeal.Frame
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The arrays call 0 is entered with, and what it leaves -/

theorem ent0_x (c : Dev nD) : ent0 m c main_arg0 = m ((c : Thread nD τ).loc main_arg0) := mem1_of m c main_arg0 (by decide)
theorem ent0_W (c : Dev nD) : ent0 m c main_arg1 = m ((c : Thread nD τ).loc main_arg1) := mem1_of m c main_arg1 (by decide)

/-- After call 0 the features array holds x·W. -/
theorem mem2_feat (c : Dev nD) : mem2 m c (Proc.devRef .tc main_v2) = (fun i => Cert.Spec.feat (m ((c : Thread nD τ).loc main_arg0)) (m ((c : Thread nD τ).loc main_arg1)) (i 0) (i 1)) :=
  (mem2_arr m c 2).trans ((feat_array (ent0 m) c).trans (by rw [ent0_x, ent0_W]))

/-- The two halves of a, cut out before call 0 and untouched by it. -/
theorem mem2_upper (c : Dev nD) : mem2 m c (Proc.devRef .tc main_v0) = extractStridedSlice S256x1 ![0, 0] (m ((c : Thread nD τ).loc main_arg2)) slices_S512x1_S256x1_0_0 :=
  (mem2_of_ne m c main_v0 (by decide)).trans (by
    show StableHlo.after hostOps0 (mem0 m c) (Proc.devRef .tc main_v0) = _
    after_results <;> rfl)
theorem mem2_lower (c : Dev nD) : mem2 m c (Proc.devRef .tc main_v1) = extractStridedSlice S256x1 ![256, 0] (m ((c : Thread nD τ).loc main_arg2)) slices_S512x1_S256x1_256_0 :=
  (mem2_of_ne m c main_v1 (by decide)).trans (by
    show StableHlo.after hostOps0 (mem0 m c) (Proc.devRef .tc main_v1) = _
    after_results <;> rfl)

theorem upper_at (a : S512x1.Idx → EReal) (k : Fin 256) :
    extractStridedSlice S256x1 ![0, 0] a slices_S512x1_S256x1_0_0 (ix2 k (0 : Fin 1)) = a (ix2 (⟨k.val, by omega⟩ : Fin 512) (0 : Fin 1)) :=
  extractStridedSlice_apply ![0, 0] a slices_S512x1_S256x1_0_0 _ _ (fun ax => match ax with
    | ⟨0, _⟩ => by show k.val = 0 + k.val; omega
    | ⟨1, _⟩ => by show 0 = 0 + 0; omega)
theorem lower_at (a : S512x1.Idx → EReal) (k : Fin 256) :
    extractStridedSlice S256x1 ![256, 0] a slices_S512x1_S256x1_256_0 (ix2 k (0 : Fin 1)) = a (ix2 (⟨256 + k.val, by omega⟩ : Fin 512) (0 : Fin 1)) :=
  extractStridedSlice_apply ![256, 0] a slices_S512x1_S256x1_256_0 _ _ (fun ax => match ax with
    | ⟨0, _⟩ => by show 256 + k.val = 256 + k.val; omega
    | ⟨1, _⟩ => by show 0 = 0 + 0; omega)

/-! ## A matrix against a column: the host's product at an entry -/

theorem score_left_row (i : S8192x1.Idx) (q : Cert.KernelIdeal.dot_S8192x256_S256x1_S8192x1_1_0_0_1_n_n.contr.Idx) :
    (Cert.KernelIdeal.dot_S8192x256_S256x1_S8192x1_1_0_0_1_n_n.lhsIdx i q 0).val = (i 0).val := by
  unfold DotDims.lhsIdx
  rw [dif_neg (show ¬(0 : Fin S8192x256.rank) ∈ Cert.KernelIdeal.dot_S8192x256_S256x1_S8192x1_1_0_0_1_n_n.lhsBatch by decide), dif_pos (show (0 : Fin S8192x256.rank) ∈ Cert.KernelIdeal.dot_S8192x256_S256x1_S8192x1_1_0_0_1_n_n.lhsNonContracting by decide)]
  rfl
theorem score_left_col (i : S8192x1.Idx) (q : Cert.KernelIdeal.dot_S8192x256_S256x1_S8192x1_1_0_0_1_n_n.contr.Idx) :
    (Cert.KernelIdeal.dot_S8192x256_S256x1_S8192x1_1_0_0_1_n_n.lhsIdx i q 1).val = (q ⟨0, by decide⟩).val :=
  Cert.KernelIdeal.dot_S8192x256_S256x1_S8192x1_1_0_0_1_n_n.lhsIdx_val_of_single rfl i q
theorem score_right_row (i : S8192x1.Idx) (q : Cert.KernelIdeal.dot_S8192x256_S256x1_S8192x1_1_0_0_1_n_n.contr.Idx) :
    (Cert.KernelIdeal.dot_S8192x256_S256x1_S8192x1_1_0_0_1_n_n.rhsIdx i q 0).val = (q ⟨0, by decide⟩).val :=
  Cert.KernelIdeal.dot_S8192x256_S256x1_S8192x1_1_0_0_1_n_n.rhsIdx_val_of_single rfl i q
theorem score_right_col (i : S8192x1.Idx) (q : Cert.KernelIdeal.dot_S8192x256_S256x1_S8192x1_1_0_0_1_n_n.contr.Idx) :
    (Cert.KernelIdeal.dot_S8192x256_S256x1_S8192x1_1_0_0_1_n_n.rhsIdx i q 1).val = (i 1).val := by
  unfold DotDims.rhsIdx
  rw [dif_neg (show ¬(1 : Fin S256x1.rank) ∈ Cert.KernelIdeal.dot_S8192x256_S256x1_S8192x1_1_0_0_1_n_n.rhsBatch by decide), dif_pos (show (1 : Fin S256x1.rank) ∈ Cert.KernelIdeal.dot_S8192x256_S256x1_S8192x1_1_0_0_1_n_n.rhsNonContracting by decide)]
  rfl

/-- Entry r of (8192 × 256 matrix) · (256 × 1 column) is the sum over the 256 columns. -/
theorem score_entry (h : FVec Ideal S8192x256 .f32) (a : FVec Ideal S256x1 .f32) (r : Fin 8192) :
    Host.dotGeneral (F := Ideal) Cert.KernelIdeal.dot_S8192x256_S256x1_S8192x1_1_0_0_1_n_n none h a (ix2 r (0 : Fin 1)) = ∑ k : Fin 256, h (ix2 r k) * a (ix2 k (0 : Fin 1)) := by
  simp only [Host.dotGeneral]
  rw [Ideal.dotGeneral_apply, ← Equiv.sum_comp (ValueIdx.contrEquiv1 Cert.KernelIdeal.dot_S8192x256_S256x1_S8192x1_1_0_0_1_n_n 256 rfl rfl).symm]
  refine Finset.sum_congr rfl fun k _ => ?_
  have hk := ValueIdx.contrEquiv1_symm_val Cert.KernelIdeal.dot_S8192x256_S256x1_S8192x1_1_0_0_1_n_n 256 rfl rfl k
  have el : Cert.KernelIdeal.dot_S8192x256_S256x1_S8192x1_1_0_0_1_n_n.lhsIdx (ix2 r (0 : Fin 1)) ((ValueIdx.contrEquiv1 Cert.KernelIdeal.dot_S8192x256_S256x1_S8192x1_1_0_0_1_n_n 256 rfl rfl).symm k) = ix2 r k := funext fun ax => Fin.ext (by
    match ax with
    | ⟨0, _⟩ => exact score_left_row _ _
    | ⟨1, _⟩ => exact (score_left_col _ _).trans hk)
  have er : Cert.KernelIdeal.dot_S8192x256_S256x1_S8192x1_1_0_0_1_n_n.rhsIdx (ix2 r (0 : Fin 1)) ((ValueIdx.contrEquiv1 Cert.KernelIdeal.dot_S8192x256_S256x1_S8192x1_1_0_0_1_n_n 256 rfl rfl).symm k) = ix2 k (0 : Fin 1) := funext fun ax => Fin.ext (by
    match ax with
    | ⟨0, _⟩ => exact (score_right_row _ _).trans hk
    | ⟨1, _⟩ => exact score_right_col _ _)
  rw [el, er]

/-! ## The arrays call 1 is entered with -/

theorem ent1_adj (c : Dev nD) : ent1 m c main_arg3 = m ((c : Thread nD τ).loc main_arg3) :=
  (mem3_of m c main_arg3 (by decide)).trans ((mem2_of_ne m c main_arg3 (by decide)).trans (mem1_of m c main_arg3 (by decide)))

theorem ent1_feat (c : Dev nD) : ent1 m c main_v2 = (fun i => Cert.Spec.feat (m ((c : Thread nD τ).loc main_arg0)) (m ((c : Thread nD τ).loc main_arg1)) (i 0) (i 1)) :=
  (mem3_of m c main_v2 (by decide)).trans (mem2_feat m c)

/-- The source scores, a column: entry r is node r's features against the upper half of a. -/
theorem ent1_src (c : Dev nD) (r : Fin 8192) :
    (ent1 m c main_v3 : S8192x1.Idx → EReal) (ix2 r (0 : Fin 1)) = Cert.Spec.srcScore (m ((c : Thread nD τ).loc main_arg0)) (m ((c : Thread nD τ).loc main_arg1)) (m ((c : Thread nD τ).loc main_arg2)) r := by
  have e : (ent1 m c main_v3 : S8192x1.Idx → EReal)
      = Host.dotGeneral (F := Ideal) (φ₁ := .f32) (φ₂ := .f32) Cert.KernelIdeal.dot_S8192x256_S256x1_S8192x1_1_0_0_1_n_n none (mem2 m c (Proc.devRef .tc main_v2)) (mem2 m c (Proc.devRef .tc main_v0)) := by
    show StableHlo.after hostOps1 (mem2 m c) (Proc.devRef .tc main_v3) = _
    after_results <;> rfl
  rw [e, score_entry]
  unfold Cert.Spec.srcScore
  show @Eq EReal _ _
  refine Finset.sum_congr rfl fun k _ => ?_
  rw [mem2_feat, mem2_upper, upper_at]
  rfl

/-- The target scores, reshaped into a row: entry j is node j's features against the lower half of a. -/
theorem ent1_dst (c : Dev nD) (j : Fin 8192) :
    (ent1 m c main_v5 : S1x8192.Idx → EReal) (ix2 (0 : Fin 1) j) = Cert.Spec.dstScore (m ((c : Thread nD τ).loc main_arg0)) (m ((c : Thread nD τ).loc main_arg1)) (m ((c : Thread nD τ).loc main_arg2)) j := by
  have e : (ent1 m c main_v5 : S1x8192.Idx → EReal)
      = shapeCast S1x8192 (Host.dotGeneral (F := Ideal) (φ₁ := .f32) (φ₂ := .f32) Cert.KernelIdeal.dot_S8192x256_S256x1_S8192x1_1_0_0_1_n_n none (mem2 m c (Proc.devRef .tc main_v2)) (mem2 m c (Proc.devRef .tc main_v1))) shapeCasts_S8192x1_S1x8192 := by
    show StableHlo.after hostOps1 (mem2 m c) (Proc.devRef .tc main_v5) = _
    after_results <;> rfl
  rw [e, shapeCast_apply _ shapeCasts_S8192x1_S1x8192 (ix2 (0 : Fin 1) j) (ix2 j (0 : Fin 1)) (by
    rw [Shape.rowMajor_val_two, Shape.rowMajor_val_two]
    show j.val * 1 + 0 = 0 * 8192 + j.val
    omega), score_entry]
  unfold Cert.Spec.dstScore
  show @Eq EReal _ _
  refine Finset.sum_congr rfl fun k _ => ?_
  rw [mem2_feat, mem2_lower, lower_at]
  rfl

end Cert.KernelIdeal.FrameValue

end
-- ==== Proof.R1Value.lean ====
/-
  What the second call leaves in the result array, entry by entry, over the extended reals.

  The second call walks a 4 × 16 grid: row block bi (2048 rows) by column block bj (512 nodes). At each point it adds, to
  an accumulator carried from the point before, the product of the masked logits of its 2048 × 512 block with the
  512 × 256 block of projected features; the accumulator restarts from zero at bj = 0 and is copied to the result's row
  block at bj = 15. So after the sixteen column blocks of a row block the accumulator holds, at (p, q), the sum over all
  8192 nodes j of logit (2048·bi + p) j · h[j, q], and the four row blocks tile the result.
-/
import proofs.«102622_j57698590654935_1_alg».proof.Proof.R1Body
import proofs.«102622_j57698590654935_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.FrameValue

open Cert.KernelIdeal Cert.KernelIdeal.Gen Cert.KernelIdeal.Frame
open Idealize.ShloMosaic Idealize.ShloMosaic.TcCoe Idealize.SL.Sem
open Idealize.ShloMosaic.ValueIdx
open Idealize.ShloMosaic.Pipeline (Dat)

-- the TensorCore's buffer contents when the second call is entered, at the extended reals
variable (V : (c : Dev nD) → (b : Ref sig .tc) → Buf (Elt Ideal) ((c : Thread nD τ).loc b))

/-- The masked logit of the pair (r, j), from the arrays call 1 is entered with. -/
def logit (c : Dev nD) (r j : Fin 8192) : EReal :=
  Scalar.select (IntOp.cmpi .sgt (V c main_arg3 (ix2 r j)) 0#32) (HAdd.hAdd (α := EReal) (β := EReal) (γ := EReal) (V c main_v3 (ix2 r (0 : Fin 1))) (V c main_v5 (ix2 (0 : Fin 1) j))) Cert.Spec.noEdge

/-! ## The body's two stored values, entry by entry -/

/-- A column [a, 1] spread over b columns reads, at (p, c), the column's entry p. -/
theorem column_spread {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The value the accumulator restarts from is zero everywhere. -/
theorem restart_entry (p : Fin 2048) (q : Fin 256) : Gen.k1_pay1 (F := Ideal) (ix2 p q) = 0 := by
  unfold Gen.k1_pay1
  simp only [shapeCast_self]
  exact Ideal.ofBits_zero_f32

/-- The contraction of the body's matrix product: rows of the 2048×512 masked logits against columns of the 512×256
    block of projected features. The left operand is read at the result's row … -/
theorem tile_left_row (i : S2048x256.Idx) (q : Cert.KernelIdeal.dot_S2048x512_S512x256_S2048x256_1_0_0_1_n_n.contr.Idx) :
    (Cert.KernelIdeal.dot_S2048x512_S512x256_S2048x256_1_0_0_1_n_n.lhsIdx i q 0).val = (i 0).val := by
  unfold DotDims.lhsIdx
  rw [dif_neg (show ¬(0 : Fin S2048x512.rank) ∈ Cert.KernelIdeal.dot_S2048x512_S512x256_S2048x256_1_0_0_1_n_n.lhsBatch by decide), dif_pos (show (0 : Fin S2048x512.rank) ∈ Cert.KernelIdeal.dot_S2048x512_S512x256_S2048x256_1_0_0_1_n_n.lhsNonContracting by decide)]
  rfl
/-- … and at the summation index along its columns; -/
theorem tile_left_col (i : S2048x256.Idx) (q : Cert.KernelIdeal.dot_S2048x512_S512x256_S2048x256_1_0_0_1_n_n.contr.Idx) :
    (Cert.KernelIdeal.dot_S2048x512_S512x256_S2048x256_1_0_0_1_n_n.lhsIdx i q 1).val = (q ⟨0, by decide⟩).val :=
  Cert.KernelIdeal.dot_S2048x512_S512x256_S2048x256_1_0_0_1_n_n.lhsIdx_val_of_single rfl i q
/-- the right operand at the summation index along its rows … -/
theorem tile_right_row (i : S2048x256.Idx) (q : Cert.KernelIdeal.dot_S2048x512_S512x256_S2048x256_1_0_0_1_n_n.contr.Idx) :
    (Cert.KernelIdeal.dot_S2048x512_S512x256_S2048x256_1_0_0_1_n_n.rhsIdx i q 0).val = (q ⟨0, by decide⟩).val :=
  Cert.KernelIdeal.dot_S2048x512_S512x256_S2048x256_1_0_0_1_n_n.rhsIdx_val_of_single rfl i q
/-- … and at the result's column. -/
theorem tile_right_col (i : S2048x256.Idx) (q : Cert.KernelIdeal.dot_S2048x512_S512x256_S2048x256_1_0_0_1_n_n.contr.Idx) :
    (Cert.KernelIdeal.dot_S2048x512_S512x256_S2048x256_1_0_0_1_n_n.rhsIdx i q 1).val = (i 1).val := by
  unfold DotDims.rhsIdx
  rw [dif_neg (show ¬(1 : Fin S512x256.rank) ∈ Cert.KernelIdeal.dot_S2048x512_S512x256_S2048x256_1_0_0_1_n_n.rhsBatch by decide), dif_pos (show (1 : Fin S512x256.rank) ∈ Cert.KernelIdeal.dot_S2048x512_S512x256_S2048x256_1_0_0_1_n_n.rhsNonContracting by decide)]
  rfl

/-- Entry (p, q) of what the body stores into the accumulator: what the accumulator held there, plus row p of the block's
    masked logits against column q of the block of projected features. A logit is the row's source score plus the
    column's target score where the adjacency word is positive as a signed integer, and the "no edge" word elsewhere;
    the narrowings to the 16-bit format are the identity on extended reals and the product starts from zero. -/
theorem update_entry (x0 : Vec Ideal S2048x512 .i32) (x1 : Vec Ideal S2048x1 .f32) (x2 : Vec Ideal S1x512 .f32)
    (x3 : Vec Ideal S512x256 .f32) (s : Vec Ideal S2048x256 .f32) (p : Fin 2048) (q : Fin 256) :
    Gen.k1_pay2 (F := Ideal) x1 x2 x0 s x3 (ix2 p q)
      = s (ix2 p q) + ∑ k : Fin 512, Scalar.select (IntOp.cmpi .sgt (x0 (ix2 p k)) 0#32) (x1 (ix2 p (0 : Fin 1)) + x2 (ix2 (0 : Fin 1) k)) Cert.Spec.noEdge * x3 (ix2 k q) := by
  unfold Gen.k1_pay2
  simp only [matmul, shapeCast_self]
  rw [addf_apply, Ideal.matmul_constant_zero_apply, ← Equiv.sum_comp (ValueIdx.contrEquiv1 Cert.KernelIdeal.dot_S2048x512_S512x256_S2048x256_1_0_0_1_n_n 512 rfl rfl).symm]
  congr 1
  refine Finset.sum_congr rfl fun k _ => ?_
  have hk := ValueIdx.contrEquiv1_symm_val Cert.KernelIdeal.dot_S2048x512_S512x256_S2048x256_1_0_0_1_n_n 512 rfl rfl k
  have el : Cert.KernelIdeal.dot_S2048x512_S512x256_S2048x256_1_0_0_1_n_n.lhsIdx (ix2 p q) ((ValueIdx.contrEquiv1 Cert.KernelIdeal.dot_S2048x512_S512x256_S2048x256_1_0_0_1_n_n 512 rfl rfl).symm k) = ix2 p k := funext fun a => Fin.ext (by
    match a with
    | ⟨0, _⟩ => exact tile_left_row _ _
    | ⟨1, _⟩ => exact (tile_left_col _ _).trans hk)
  have er : Cert.KernelIdeal.dot_S2048x512_S512x256_S2048x256_1_0_0_1_n_n.rhsIdx (ix2 p q) ((ValueIdx.contrEquiv1 Cert.KernelIdeal.dot_S2048x512_S512x256_S2048x256_1_0_0_1_n_n 512 rfl rfl).symm k) = ix2 k q := funext fun a => Fin.ext (by
    match a with
    | ⟨0, _⟩ => exact (tile_right_row _ _).trans hk
    | ⟨1, _⟩ => exact tile_right_col _ _)
  rw [el, er, truncf_apply, truncf_apply, select_apply, addf_apply, column_spread, broadcastTo_1b_ab_apply]
  rfl

/-! ## The blocks a point reads, off the arrays -/

/-- The grid has 64 points: point t is row block t / 16, column block t % 16. -/
theorem agg_points : cfg1.N = 64 := N_1

/-- Where each window's block sits at point t: the adjacency block at (t / 16, t % 16), the source scores' at row block
    t / 16, the target scores' at column block t % 16, the projected features' at row block t % 16, the result's at row
    block t / 16. -/
theorem agg_block_index : ∀ t : Fin cfg1.N,
    win1_0.index t (0 : Fin 2) = t.val / 16 ∧ win1_0.index t (1 : Fin 2) = t.val % 16
    ∧ win1_1.index t (0 : Fin 2) = t.val / 16 ∧ win1_1.index t (1 : Fin 2) = 0
    ∧ win1_2.index t (0 : Fin 2) = 0 ∧ win1_2.index t (1 : Fin 2) = t.val % 16
    ∧ win1_3.index t (0 : Fin 2) = t.val % 16 ∧ win1_3.index t (1 : Fin 2) = 0
    ∧ win1_4.index t (0 : Fin 2) = t.val / 16 ∧ win1_4.index t (1 : Fin 2) = 0 :=
  (by decide +kernel : ∀ t : Fin grid1.N, _)

/-- The four blocks the body reads at point t, each at its literal shape. -/
abbrev adjBlk (c : Dev nD) (t : Fin cfg1.N) : Vec Ideal S2048x512 .i32 := iblk1 V c 0 t
abbrev srcBlk (c : Dev nD) (t : Fin cfg1.N) : Vec Ideal S2048x1 .f32 := iblk1 V c 1 t
abbrev dstBlk (c : Dev nD) (t : Fin cfg1.N) : Vec Ideal S1x512 .f32 := iblk1 V c 2 t
abbrev featBlk (c : Dev nD) (t : Fin cfg1.N) : Vec Ideal S512x256 .f32 := iblk1 V c 3 t

/-- Entry (p, k) of the adjacency block is the adjacency at row 2048·(t / 16) + p, column 512·(t % 16) + k. -/
theorem adjBlk_apply (c : Dev nD) (t : Fin cfg1.N) (p : Fin 2048) (k : Fin 512) (r j : Fin 8192)
    (hr : r.val = 2048 * (t.val / 16) + p.val) (hj : j.val = 512 * (t.val % 16) + k.val) :
    adjBlk V c t (ix2 p k) = V c main_arg3 (ix2 r j) := by
  obtain ⟨e0, e1, -⟩ := agg_block_index t
  unfold adjBlk iblk1
  rw [View.read_apply]
  show V c main_arg3 _ = V c main_arg3 _
  congr 1
  funext a
  apply Fin.ext
  match a with
  | ⟨0, _⟩ => show win1_0.index t 0 * 2048 + 1 * p.val = r.val; rw [e0, hr]; omega
  | ⟨1, _⟩ => show win1_0.index t 1 * 512 + 1 * k.val = j.val; rw [e1, hj]; omega

/-- Entry p of the source scores' block is the source score of row 2048·(t / 16) + p. -/
theorem srcBlk_apply (c : Dev nD) (t : Fin cfg1.N) (p : Fin 2048) (r : Fin 8192)
    (hr : r.val = 2048 * (t.val / 16) + p.val) :
    srcBlk V c t (ix2 p (0 : Fin 1)) = V c main_v3 (ix2 r (0 : Fin 1)) := by
  obtain ⟨-, -, e0, e1, -⟩ := agg_block_index t
  unfold srcBlk iblk1
  rw [View.read_apply]
  show V c main_v3 _ = V c main_v3 _
  congr 1
  funext a
  apply Fin.ext
  match a with
  | ⟨0, _⟩ => show win1_1.index t 0 * 2048 + 1 * p.val = r.val; rw [e0, hr]; omega
  | ⟨1, _⟩ => show win1_1.index t 1 * 1 + 1 * 0 = 0; rw [e1]

/-- Entry k of the target scores' block is the target score of node 512·(t % 16) + k. -/
theorem dstBlk_apply (c : Dev nD) (t : Fin cfg1.N) (k : Fin 512) (j : Fin 8192)
    (hj : j.val = 512 * (t.val % 16) + k.val) :
    dstBlk V c t (ix2 (0 : Fin 1) k) = V c main_v5 (ix2 (0 : Fin 1) j) := by
  obtain ⟨-, -, -, -, e0, e1, -⟩ := agg_block_index t
  unfold dstBlk iblk1
  rw [View.read_apply]
  show V c main_v5 _ = V c main_v5 _
  congr 1
  funext a
  apply Fin.ext
  match a with
  | ⟨0, _⟩ => show win1_2.index t 0 * 1 + 1 * 0 = 0; rw [e0]
  | ⟨1, _⟩ => show win1_2.index t 1 * 512 + 1 * k.val = j.val; rw [e1, hj]; omega

/-- Entry (k, q) of the projected features' block is the projected feature q of node 512·(t % 16) + k. -/
theorem featBlk_apply (c : Dev nD) (t : Fin cfg1.N) (k : Fin 512) (q : Fin 256) (j : Fin 8192)
    (hj : j.val = 512 * (t.val % 16) + k.val) :
    featBlk V c t (ix2 k q) = V c main_v2 (ix2 j q) := by
  obtain ⟨-, -, -, -, -, -, e0, e1, -⟩ := agg_block_index t
  unfold featBlk iblk1
  rw [View.read_apply]
  show V c main_v2 _ = V c main_v2 _
  congr 1
  funext a
  apply Fin.ext
  match a with
  | ⟨0, _⟩ => show win1_3.index t 0 * 512 + 1 * k.val = j.val; rw [e0, hj]; omega
  | ⟨1, _⟩ => show win1_3.index t 1 * 256 + 1 * q.val = q.val; rw [e1]; omega

/-! ## The accumulator after each column block -/

/-- Node j's share of entry (r, q) of the result: its masked logit against row r times its projected feature q (zero for
    a number that is no node, so that sums may run over initial segments of the naturals). -/
def nodeTerm (c : Dev nD) (r : Fin 8192) (q : Fin 256) (j : ℕ) : EReal :=
  if h : j < 8192 then logit V c r ⟨j, h⟩ * V c main_v2 (ix2 ⟨j, h⟩ q) else 0

/-- What the body adds at the point of row block bi and column block bj, at (p, q): the shares of the 512 nodes of
    column block bj in entry (2048·bi + p, q). -/
theorem point_step (c : Dev nD) (t : Fin cfg1.N) (bi bj : ℕ) (hbi : t.val / 16 = bi) (hbj : t.val % 16 = bj)
    (s : Vec Ideal S2048x256 .f32) (p : Fin 2048) (q : Fin 256) (r : Fin 8192) (hr : r.val = 2048 * bi + p.val) :
    Gen.k1_pay2 (F := Ideal) (srcBlk V c t) (dstBlk V c t) (adjBlk V c t) s (featBlk V c t) (ix2 p q)
      = s (ix2 p q) + ∑ x ∈ Finset.range 512, nodeTerm V c r q (512 * bj + x) := by
  have ht : t.val < 64 := agg_points ▸ t.isLt
  rw [update_entry, Finset.sum_range]
  congr 1
  refine Finset.sum_congr rfl fun k _ => ?_
  have hk : k.val < 512 := k.isLt
  have hlt : 512 * bj + k.val < 8192 := by omega
  unfold nodeTerm
  rw [dif_pos hlt,
    adjBlk_apply V c t p k r ⟨512 * bj + k.val, hlt⟩ (by rw [hbi]; exact hr) (by rw [hbj]),
    srcBlk_apply V c t p r (by rw [hbi]; exact hr),
    dstBlk_apply V c t k ⟨512 * bj + k.val, hlt⟩ (by rw [hbj]),
    featBlk_apply V c t k q ⟨512 * bj + k.val, hlt⟩ (by rw [hbj])]
  rfl

/-- The accumulator's contents depend on the point's number only. -/
theorem agg_outsAt_congr (c : Dev nD) {a b : ℕ} (ha : a < cfg1.N) (hb : b < cfg1.N) (h : a = b) :
    outsAt1 V c a ha = outsAt1 V c b hb := by
  subst h; rfl

/-- After column block n of row block bi the accumulator holds, at (p, q), the shares of the first 512·(n + 1) nodes in
    entry (2048·bi + p, q): it restarts from zero at n = 0 and each point adds its 512 nodes' shares to what the point
    before left. -/
theorem agg_acc_eq (c : Dev nD) (bi : ℕ) (hbi : bi < 4) : ∀ (n : ℕ) (hn : n < 16) (p : Fin 2048) (q : Fin 256) (r : Fin 8192)
    (hr : r.val = 2048 * bi + p.val),
    (outsAt1 V c (16 * bi + n) (by rw [agg_points]; omega)).2 (ix2 p q) = ∑ j ∈ Finset.range (512 * (n + 1)), nodeTerm V c r q j
  | 0, hn, p, q, r, hr => by
    have ht : 16 * bi + 0 < cfg1.N := by rw [agg_points]; omega
    have e := scratch_first V c ⟨16 * bi + 0, ht⟩ (by show (16 * bi + 0) % 16 = 0; omega)
    refine (congrFun e (ix2 p q)).trans ?_
    refine (point_step V c ⟨16 * bi + 0, ht⟩ bi 0 (by show (16 * bi + 0) / 16 = bi; omega) (by show (16 * bi + 0) % 16 = 0; omega)
      (Gen.k1_pay1 (F := Ideal)) p q r hr).trans ?_
    rw [restart_entry, zero_add, Nat.mul_succ, Finset.sum_range_add, Nat.mul_zero, Finset.range_zero, Finset.sum_empty, zero_add]
  | n + 1, hn, p, q, r, hr => by
    have ht : 16 * bi + (n + 1) < cfg1.N := by rw [agg_points]; omega
    have ht' : 16 * bi + n < cfg1.N := by rw [agg_points]; omega
    have e := scratch_next V c ⟨16 * bi + (n + 1), ht⟩ (by show ¬(16 * bi + (n + 1)) % 16 = 0; omega)
    refine (congrFun e (ix2 p q)).trans ?_
    refine (point_step V c ⟨16 * bi + (n + 1), ht⟩ bi (n + 1) (by show (16 * bi + (n + 1)) / 16 = bi; omega)
      (by show (16 * bi + (n + 1)) % 16 = n + 1; omega) _ p q r hr).trans ?_
    have eprev : (outsAt1 V c ((⟨16 * bi + (n + 1), ht⟩ : Fin cfg1.N).val - 1) (Nat.lt_of_le_of_lt (Nat.sub_le _ _) (⟨16 * bi + (n + 1), ht⟩ : Fin cfg1.N).isLt)).2 (ix2 p q)
        = ∑ j ∈ Finset.range (512 * (n + 1)), nodeTerm V c r q j := by
      rw [agg_outsAt_congr V c _ ht' (show 16 * bi + (n + 1) - 1 = 16 * bi + n by omega)]
      exact agg_acc_eq c bi hbi n (by omega) p q r hr
    rw [eprev, Nat.mul_succ 512 (n + 1), Finset.sum_range_add]

/-! ## The result array -/

/-- All 8192 nodes' shares of entry (r, q) are the sum the layer takes there. -/
theorem all_nodes (c : Dev nD) (r : Fin 8192) (q : Fin 256) :
    ∑ j ∈ Finset.range 8192, nodeTerm V c r q j = ∑ j : Fin 8192, logit V c r j * V c main_v2 (ix2 j q) := by
  rw [Finset.sum_range]
  refine Finset.sum_congr rfl fun j _ => ?_
  unfold nodeTerm
  rw [dif_pos j.isLt]

/-- The array the result ends at: entry (r, q) is the sum over all nodes j of logit r j times the projected feature q of j. -/
abbrev aggArr (c : Dev nD) : Buf (Elt Ideal) ((c : Thread nD τ).loc main_v6) :=
  fun i => (∑ j : Fin 8192, logit V c (i 0) j * V c main_v2 (ix2 j (i 1)) : EReal)

/-- What a point of the last column block writes back is its row block of that array: the accumulator after the
    sixteenth column block holds every node's share. -/
theorem agg_flushed_eq (c : Dev nD) (t : Fin cfg1.N) (hf : (cfg1.win 4).flush t = true) :
    (dat1 (F := Ideal) V c).flushed 4 t = ((cfg1.win 4).blk t).view.read (Elt Ideal) (aggArr V c) := by
  have h15 : t.val % 16 = 15 := (flush1_4 t).mp hf
  have ht : t.val < 64 := agg_points ▸ t.isLt
  obtain ⟨-, -, -, -, -, -, -, -, e0, e1⟩ := agg_block_index t
  show (cfg1.win 4).cut (grid1.coords t) ((dat1 V c).after 4 t) = _
  rw [after1_4, out_last V c t h15]
  funext j
  obtain ⟨p, q, rfl⟩ : ∃ (p : Fin 2048) (q : Fin 256), j = ix2 p q := ⟨j 0, j 1, eq_ix2 (n0 := 2048) (n1 := 256) j⟩
  have hp : p.val < 2048 := p.isLt
  have hr : 2048 * (t.val / 16) + p.val < 8192 := by omega
  have hemb : ((cfg1.win 4).blk t).view.emb (ix2 p q) = ix2 (⟨2048 * (t.val / 16) + p.val, hr⟩ : Fin 8192) q := by
    funext a
    apply Fin.ext
    match a with
    | ⟨0, _⟩ => show win1_4.index t 0 * 2048 + 1 * p.val = 2048 * (t.val / 16) + p.val; rw [e0]; omega
    | ⟨1, _⟩ => show win1_4.index t 1 * 256 + 1 * q.val = q.val; rw [e1]; omega
  show (outsAt1 V c t.val t.isLt).2 (ix2 p q) = aggArr V c (((cfg1.win 4).blk t).view.emb (ix2 p q))
  rw [hemb]
  show _ = ∑ j : Fin 8192, logit V c ⟨2048 * (t.val / 16) + p.val, hr⟩ j * V c main_v2 (ix2 j q)
  have hlast : 16 * (t.val / 16) + 15 < cfg1.N := by have hN := agg_points; omega
  rw [← all_nodes, agg_outsAt_congr V c t.isLt hlast (by omega : t.val = 16 * (t.val / 16) + 15)]
  exact agg_acc_eq V c (t.val / 16) (by omega) 15 (by omega) p q ⟨_, hr⟩ rfl

/-- After the 64 points the result array holds, at (r, q), the sum over all 8192 nodes j of logit r j · h[j, q]: row r is
    written back by the last point of its row block, r / 2048, and the four row blocks tile the array. -/
theorem agg_array (c : Dev nD) :
    (dat1 (F := Ideal) V c).arrAt 4 cfg1.N = (fun i => (∑ j : Fin 8192, logit V c (i 0) j * V c main_v2 (ix2 j (i 1)) : EReal)) :=
  (dat1 (F := Ideal) V c).arrAt_eq_of_cover 4 (aggArr V c) (agg_flushed_eq V c) fun i => by
    have h0 : (i 0 : ℕ) < 8192 := (i 0).isLt
    have h1 : (i 1 : ℕ) < 256 := (i 1).isLt
    have ht : 16 * ((i 0 : ℕ) / 2048) + 15 < cfg1.N := by rw [agg_points]; omega
    obtain ⟨-, -, -, -, -, -, -, -, e0, e1⟩ := agg_block_index ⟨16 * ((i 0 : ℕ) / 2048) + 15, ht⟩
    have e0' : win1_4.index ⟨16 * ((i 0 : ℕ) / 2048) + 15, ht⟩ 0 = (16 * ((i 0 : ℕ) / 2048) + 15) / 16 := e0
    refine ⟨⟨16 * ((i 0 : ℕ) / 2048) + 15, ht⟩, (flush1_4 _).mpr (by show (16 * ((i 0 : ℕ) / 2048) + 15) % 16 = 15; omega), ?_⟩
    show i ∈ ((View.whole main_v6).slice (win1_4.rect ⟨16 * ((i 0 : ℕ) / 2048) + 15, ht⟩)).set
    rw [View.set_slice_whole, Rect.mem_set_unit]
    intro a
    match a with
    | ⟨0, _⟩ =>
      show win1_4.index ⟨16 * ((i 0 : ℕ) / 2048) + 15, ht⟩ 0 * 2048 ≤ (i 0 : ℕ)
        ∧ (i 0 : ℕ) < win1_4.index ⟨16 * ((i 0 : ℕ) / 2048) + 15, ht⟩ 0 * 2048 + 2048
      rw [e0']; omega
    | ⟨1, _⟩ =>
      show win1_4.index ⟨16 * ((i 0 : ℕ) / 2048) + 15, ht⟩ 1 * 256 ≤ (i 1 : ℕ)
        ∧ (i 1 : ℕ) < win1_4.index ⟨16 * ((i 0 : ℕ) / 2048) + 15, ht⟩ 1 * 256 + 256
      rw [e1]; omega

end Cert.KernelIdeal.FrameValue

end
-- ==== Proof.Layer.lean ====
/-
  The result array of the idealized kernel program is the specification: what call 1's write-backs leave — the sum over all
  8192 nodes of masked logit times projected features — read with the arrays call 1 is entered with (the features
  x·W, the two score vectors, the adjacency) named as functions of the four arguments.
-/
import proofs.«102622_j57698590654935_1_alg».proof.Proof.KHost
import proofs.«102622_j57698590654935_1_alg».proof.Proof.R1Value

set_option maxRecDepth 16384

noncomputable section

open scoped BigOperators

namespace Cert.KernelIdeal.FrameValue

open Cert.KernelIdeal Cert.KernelIdeal.Gen Cert.KernelIdeal.Frame
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The masked logit computed from call 1's entry arrays is the specification's weight of the pair. -/
theorem logit_is_weight (c : Dev nD) (r j : Fin 8192) :
    logit (ent1 m) c r j = Cert.Spec.weight (m ((c : Thread nD τ).loc main_arg0)) (m ((c : Thread nD τ).loc main_arg1)) (m ((c : Thread nD τ).loc main_arg2)) (m ((c : Thread nD τ).loc main_arg3)) r j := by
  unfold logit Cert.Spec.weight
  rw [ent1_adj, ent1_src, ent1_dst]

/-- At the return the result array holds the layer of the four arguments. -/
theorem result_is_layer (c : Dev nD) :
    (dat1 (F := Ideal) (ent1 m) c).arrAt 4 cfg1.N
      = Cert.Spec.layer (m ((c : Thread nD τ).loc main_arg0)) (m ((c : Thread nD τ).loc main_arg1)) (m ((c : Thread nD τ).loc main_arg2)) (m ((c : Thread nD τ).loc main_arg3)) := by
  rw [agg_array (ent1 m) c]
  funext i
  obtain ⟨r, q, rfl⟩ : ∃ (r : Fin 8192) (q : Fin 256), i = ix2 r q := ⟨i 0, i 1, eq_ix2 i⟩
  rw [Cert.Spec.layer_ix2]
  unfold Cert.Spec.layerAt
  refine Finset.sum_congr rfl fun j _ => ?_
  show logit (ent1 m) c r j * (ent1 m c main_v2 : S8192x256.Idx → EReal) (ix2 j q) = _
  rw [logit_is_weight, ent1_feat]
  rfl

end Cert.KernelIdeal.FrameValue

end
-- ==== Proof.RefValue.lean ====
/-
  The reference program's value is the specification, entry by entry, over the extended reals.

  The reference computes, in order: the projected features h = x·W (a sum over the 512 input features); the two halves
  a[0:256] and a[256:512] of the attention vector; the source scores h·a[0:256] and the target scores h·a[256:512] (sums
  over the 256 projected features); the table of logits, source score of the row plus target score of the column (the
  target scores are transposed into a row and both are spread over the 8192 × 8192 table); the mask, which keeps a logit
  where the adjacency entry is positive as a signed integer and puts the "no edge" constant elsewhere; and the product of
  the masked table with h (a sum over the 8192 nodes).  Each of these is, at one index, literally the sum or the choice
  the specification writes: nothing is rearranged, so every step below only reads an operation at an index and identifies
  the index it reads its operands at.
-/
import proofs.«102622_j57698590654935_1_alg».proof.Proof.Gen.ReferenceIdeal.Read
import proofs.«102622_j57698590654935_1_alg».proof.Proof.Spec
import Idealize.ShloMosaic.Lib.ValueIdx

noncomputable section

open scoped BigOperators

namespace Cert.RefValue

open Cert.ReferenceIdeal Cert.ReferenceIdeal.Gen Cert.ReferenceIdeal.Read Idealize.ShloMosaic Idealize.ShloMosaic.ValueIdx

/-- The projected features: entry (r, c) of x·W contracts row r of x with column c of W over the 512 input features. -/
theorem feat_eq (x0 : (⟨S8192x512, .f32⟩ : BufTy).Contents (Elt Ideal)) (x1 : (⟨S512x256, .f32⟩ : BufTy).Contents (Elt Ideal))
    (r : Fin 8192) (c : Fin 256) :
    val_main_v0 (F := Ideal) x0 x1 (ix2 r c) = Cert.Spec.feat x0 x1 r c := by
  rw [val_main_v0_apply]
  unfold Cert.Spec.feat
  refine Finset.sum_congr rfl fun k _ => ?_
  have el : lidx_main_v0 (ix2 r c) k = ix2 r k :=
    funext fun a => Fin.ext (by match a with | ⟨0, _⟩ => rfl | ⟨1, _⟩ => rfl)
  have er : ridx_main_v0 (ix2 r c) k = ix2 k c :=
    funext fun a => Fin.ext (by match a with | ⟨0, _⟩ => rfl | ⟨1, _⟩ => rfl)
  rw [el, er]

/-- The source score of node r: row r of the projected features against the slice a[0:256], whose entry c is entry c
    of a. -/
theorem src_eq (x0 : (⟨S8192x512, .f32⟩ : BufTy).Contents (Elt Ideal)) (x1 : (⟨S512x256, .f32⟩ : BufTy).Contents (Elt Ideal))
    (x2 : (⟨S512x1, .f32⟩ : BufTy).Contents (Elt Ideal)) (r : Fin 8192) :
    val_main_v3 (F := Ideal) x0 x1 x2 (ix2 r (0 : Fin 1)) = Cert.Spec.srcScore x0 x1 x2 r := by
  rw [val_main_v3_apply]
  unfold Cert.Spec.srcScore
  refine Finset.sum_congr rfl fun k _ => ?_
  have el : lidx_main_v3 (ix2 r (0 : Fin 1)) k = ix2 r k :=
    funext fun a => Fin.ext (by match a with | ⟨0, _⟩ => rfl | ⟨1, _⟩ => rfl)
  have er : idx_main_v1 (ridx_main_v3 (ix2 r (0 : Fin 1)) k) = ix2 (⟨k.val, by omega⟩ : Fin 512) (0 : Fin 1) :=
    funext fun a => Fin.ext (by match a with | ⟨0, _⟩ => rfl | ⟨1, _⟩ => rfl)
  rw [val_main_v1_apply, el, er, feat_eq]

/-- The target score of node j: row j of the projected features against the slice a[256:512], whose entry c is entry
    256 + c of a. -/
theorem dst_eq (x0 : (⟨S8192x512, .f32⟩ : BufTy).Contents (Elt Ideal)) (x1 : (⟨S512x256, .f32⟩ : BufTy).Contents (Elt Ideal))
    (x2 : (⟨S512x1, .f32⟩ : BufTy).Contents (Elt Ideal)) (j : Fin 8192) :
    val_main_v4 (F := Ideal) x0 x1 x2 (ix2 j (0 : Fin 1)) = Cert.Spec.dstScore x0 x1 x2 j := by
  rw [val_main_v4_apply]
  unfold Cert.Spec.dstScore
  refine Finset.sum_congr rfl fun k _ => ?_
  have el : lidx_main_v4 (ix2 j (0 : Fin 1)) k = ix2 j k :=
    funext fun a => Fin.ext (by match a with | ⟨0, _⟩ => rfl | ⟨1, _⟩ => rfl)
  have er : idx_main_v2 (ridx_main_v4 (ix2 j (0 : Fin 1)) k) = ix2 (⟨256 + k.val, by omega⟩ : Fin 512) (0 : Fin 1) :=
    funext fun a => Fin.ext (by match a with | ⟨0, _⟩ => rfl | ⟨1, _⟩ => rfl)
  rw [val_main_v2_apply, el, er, feat_eq]

/-- The masked logit of the pair (r, j): the table of logits at (r, j) reads the source score at row r and, through the
    transpose, the target score at row j; the mask compares the adjacency entry with the zero word; the other branch is
    the "no edge" word, the same word as the specification's. -/
theorem weight_eq (x0 : (⟨S8192x512, .f32⟩ : BufTy).Contents (Elt Ideal)) (x1 : (⟨S512x256, .f32⟩ : BufTy).Contents (Elt Ideal))
    (x2 : (⟨S512x1, .f32⟩ : BufTy).Contents (Elt Ideal)) (x3 : (⟨S8192x8192, .i32⟩ : BufTy).Contents (Elt Ideal)) (r j : Fin 8192) :
    val_main_v11 (F := Ideal) x0 x1 x2 x3 (ix2 r j) = Cert.Spec.weight x0 x1 x2 x3 r j := by
  have e6 : idx_main_v6 (ix2 r j) = ix2 r (0 : Fin 1) :=
    funext fun a => Fin.ext (by match a with | ⟨0, _⟩ => rfl | ⟨1, _⟩ => rfl)
  have e7 : idx_main_v5 (idx_main_v7 (ix2 r j)) = ix2 j (0 : Fin 1) :=
    funext fun a => Fin.ext (by match a with | ⟨0, _⟩ => rfl | ⟨1, _⟩ => rfl)
  rw [val_main_v11_apply, val_main_v10_apply, val_main_v9_apply, val_main_c_apply, val_main_v8_apply, val_main_v6_apply,
    val_main_v7_apply, val_main_v5_apply, val_main_call0_v0_apply, val_main_cst_apply, e6, e7, src_eq, dst_eq,
    Ideal.addf_def]
  rfl

/-- The reference's result is the layer: entry (r, c) contracts row r of the masked logits with column c of the projected
    features over the 8192 nodes. -/
theorem ref_is_layer (x0 : (⟨S8192x512, .f32⟩ : BufTy).Contents (Elt Ideal)) (x1 : (⟨S512x256, .f32⟩ : BufTy).Contents (Elt Ideal))
    (x2 : (⟨S512x1, .f32⟩ : BufTy).Contents (Elt Ideal)) (x3 : (⟨S8192x8192, .i32⟩ : BufTy).Contents (Elt Ideal)) :
    val_main_v12 (F := Ideal) x0 x1 x2 x3 = Cert.Spec.layer x0 x1 x2 x3 := by
  funext i
  obtain ⟨r, c, rfl⟩ : ∃ (r : Fin 8192) (c : Fin 256), i = ix2 r c := ⟨i 0, i 1, eq_ix2 i⟩
  rw [Cert.Spec.layer_ix2]
  unfold Cert.Spec.layerAt
  rw [val_main_v12_apply]
  refine Finset.sum_congr rfl fun j _ => ?_
  have el : lidx_main_v12 (ix2 r c) j = ix2 r j :=
    funext fun a => Fin.ext (by match a with | ⟨0, _⟩ => rfl | ⟨1, _⟩ => rfl)
  have er : ridx_main_v12 (ix2 r c) j = ix2 j c :=
    funext fun a => Fin.ext (by match a with | ⟨0, _⟩ => rfl | ⟨1, _⟩ => rfl)
  rw [el, er, weight_eq, feat_eq]

end Cert.RefValue

end
-- ==== Proof.lean ====
/-
  A graph-attention layer without the softmax, as two kernel calls with a little host arithmetic between them, against
  its plain reference. With node features x (8192 × 512), weights W (512 × 256), the attention vector a (512 × 1) and an
  integer adjacency adj (8192 × 8192), both programs compute

      h = x·W,   e[r,j] = (h·a₁)[r] + (h·a₂)[j],   out = where(adj > 0, e, -9·10¹⁵) · h

  (a₁, a₂ the two halves of a). The kernel program computes h row block by row block in its first call, the two score
  vectors on the host, and in its second call builds the masked logits tile by tile (2048 rows × 512 nodes) and adds each
  tile's product with the matching 512 rows of h into an accumulator that is zeroed at a row block's first tile and
  written out at its last. Over the extended reals the format changes are the identity and a product accumulated over
  sixteen tiles of 512 nodes is the one sum over all 8192 nodes — only associativity and commutativity of + are used, so
  the inputs' finiteness is never needed — and the "no edge" value is the same binary32 word in both programs. Both
  programs are compared with one function of the four arguments (Spec.lean): the reference's host operations read
  entry by entry are that function (RefValue.lean); so is the kernel program's result array, read off its run
  (Run.lean follows the memory through the four items of @main; R0Value / R1Value say what each call leaves in its result
  array; KHost the host operations between; Layer joins them). The frames: the kernel program's run at any float
  instance leaves the four arguments as launched, at the word level and at the extended reals alike; the reference's is
  its run with the result dropped. The idealization rewrote nothing, so there is nothing to preserve.
-/
import proofs.«102622_j57698590654935_1_alg».proof.Defs
import proofs.«102622_j57698590654935_1_alg».proof.Proof.Gen.Kernel
import proofs.«102622_j57698590654935_1_alg».proof.Proof.Gen.KernelIdeal
import proofs.«102622_j57698590654935_1_alg».proof.Proof.Gen.ReferenceIdeal
import proofs.«102622_j57698590654935_1_alg».proof.Proof.Gen.ReferenceIdeal.Run
import proofs.«102622_j57698590654935_1_alg».proof.Proof.Gen.ReferenceIdeal.Read
import proofs.«102622_j57698590654935_1_alg».proof.Proof.Gen.Pre_finite_inputs
import proofs.«102622_j57698590654935_1_alg».proof.Proof.WordRun
import proofs.«102622_j57698590654935_1_alg».proof.Proof.Run
import proofs.«102622_j57698590654935_1_alg».proof.Proof.Layer
import proofs.«102622_j57698590654935_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments alone. -/
theorem frame_word : Cert.frame_Kernel := fun m ρ _ => Cert.Kernel.Frame.frame m ρ

/-- So does the idealized kernel program. -/
theorem frame_ideal : Cert.frame_KernelIdeal := fun m ρ _ => Cert.KernelIdeal.Frame.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the layer of the four arguments in their result arrays. -/
theorem algebraic : Cert.algebraic_KernelIdeal_ReferenceIdeal := by
  intro m ρ m' ρ' _ hagree
  refine ⟨fun c => Cert.Spec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.FrameValue.result_is_layer m c), (h c).2⟩)
      (Cert.KernelIdeal.Frame.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.RefValue.ref_is_layer, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_word, frame_ideal, frame_reference, trivial, algebraic⟩

end Cert.Proof

end
